-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2000000 : Shape := ⟨2, ![2, 2000000]⟩
abbrev S2000000x1x16 : Shape := ⟨3, ![2000000, 1, 16]⟩
abbrev S2000000x1 : Shape := ⟨2, ![2000000, 1]⟩
abbrev S100000x64 : Shape := ⟨2, ![100000, 64]⟩
abbrev S64x16 : Shape := ⟨2, ![64, 16]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S_ : Shape := ⟨0, ![]⟩
abbrev S1x2000000 : Shape := ⟨2, ![1, 2000000]⟩
abbrev S2000000 : Shape := ⟨1, ![2000000]⟩

class Facts : Prop where
  bcast_S_S2000000x1x16 : S_.BroadcastsInDim S2000000x1x16 (![] : Fin 0 → Fin S2000000x1x16.rank)
  reducesTo_S2000000x1x16_S_d0_1_2 : S2000000x1x16.ReducesTo [0, 1, 2] S_
  h_S_ : 0 < S_.numel
  bcast_S_S2000000x1 : S_.BroadcastsInDim S2000000x1 (![] : Fin 0 → Fin S2000000x1.rank)
  reducesTo_S2000000x1_S_d0_1 : S2000000x1.ReducesTo [0, 1] S_
  bcast_S_S100000x64 : S_.BroadcastsInDim S100000x64 (![] : Fin 0 → Fin S100000x64.rank)
  reducesTo_S100000x64_S_d0_1 : S100000x64.ReducesTo [0, 1] S_
  bcast_S_S64x16 : S_.BroadcastsInDim S64x16 (![] : Fin 0 → Fin S64x16.rank)
  reducesTo_S64x16_S_d0_1 : S64x16.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  slices_S2x2000000_S1x2000000_1_0 : S2x2000000.Slices ![1, 0] S1x2000000
  shapeCasts_S1x2000000_S2000000 : S1x2000000.ShapeCasts S2000000
  bcast_S_S2000000 : S_.BroadcastsInDim S2000000 (![] : Fin 0 → Fin S2000000.rank)
  reducesTo_S2000000_S_d0 : S2000000.ReducesTo [0] S_

variable [Facts]

def fn_part4 {F : FTy → Type} [FloatOps F] (main_arg0 : IVec S2x2000000 32) (main_v63 : IVec S_ 1) (main_v67 : IVec S_ 1) : IVec S_ 1 :=
  let main_v68 : IVec S_ 1 := andi main_v63 main_v67
  let main_v69 : IVec S1x2000000 32 := (extractStridedSlice S1x2000000 ![1, 0] · slices_S2x2000000_S1x2000000_1_0) main_arg0
  let main_v70 : IVec S2000000 32 := shapeCast S2000000 main_v69 shapeCasts_S1x2000000_S2000000
  let main_c_26 : IVec S_ 32 := constantI S_ 32 4294867296#32
  let main_v71 : IVec S2000000 32 := broadcastInDim S2000000 ![] bcast_S_S2000000 main_c_26
  let main_v72 : IVec S2000000 1 := cmpi .sge main_v70 main_v71
  let main_c_27 : IVec S_ 1 := constantI S_ 1 1#1
  let main_v73 : IVec S_ 1 := (fun x v => Host.reduce IntOp.andi x v reducesTo_S2000000_S_d0 h_S_) main_v72 main_c_27
  let main_v74 : IVec S_ 1 := andi main_v68 main_v73
  let main_v75 : IVec S1x2000000 32 := (extractStridedSlice S1x2000000 ![1, 0] · slices_S2x2000000_S1x2000000_1_0) main_arg0
  let main_v76 : IVec S2000000 32 := shapeCast S2000000 main_v75 shapeCasts_S1x2000000_S2000000
  let main_c_28 : IVec S_ 32 := constantI S_ 32 100000#32
  let main_v77 : IVec S2000000 32 := broadcastInDim S2000000 ![] bcast_S_S2000000 main_c_28
  let main_v78 : IVec S2000000 1 := cmpi .slt main_v76 main_v77
  let main_c_29 : IVec S_ 1 := constantI S_ 1 1#1
  let main_v79 : IVec S_ 1 := (fun x v => Host.reduce IntOp.andi x v reducesTo_S2000000_S_d0 h_S_) main_v78 main_c_29
  let main_v80 : IVec S_ 1 := andi main_v74 main_v79
  main_v80

def fn_part3 {F : FTy → Type} [FloatOps F] (main_arg0 : IVec S2x2000000 32) (main_arg12 : FVec F S3x64 .f32) (main_arg13 : FVec F S64x64 .f32) (main_arg14 : FVec F S64 .f32) (main_v48 : IVec S_ 1) (main_v49 : FVec F S3x64x64 .f32) (main_v50 : FVec F S3x64x64 .f32) : IVec S_ 1 :=
  let main_v51 : IVec S3x64x64 1 := cmpf .olt main_v49 main_v50
  let main_c_19 : IVec S_ 1 := constantI S_ 1 1#1
  let main_v52 : IVec S_ 1 := (fun x v => Host.reduce IntOp.andi x v reducesTo_S3x64x64_S_d0_1_2 h_S_) main_v51 main_c_19
  let main_v53 : IVec S_ 1 := andi main_v48 main_v52
  let main_v54 : FVec F S3x64 .f32 := Host.absf main_arg12
  let main_cst_20 : FVec F S_ .f32 := constant S_ .f32 0x7F800000#32
  let main_v55 : FVec F S3x64 .f32 := broadcastInDim S3x64 ![] bcast_S_S3x64 main_cst_20
  let main_v56 : IVec S3x64 1 := cmpf .olt main_v54 main_v55
  let main_c_21 : IVec S_ 1 := constantI S_ 1 1#1
  let main_v57 : IVec S_ 1 := (fun x v => Host.reduce IntOp.andi x v reducesTo_S3x64_S_d0_1 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_v63 main_v67

def fn_part2 {F : FTy → Type} [FloatOps F] (main_arg0 : IVec S2x2000000 32) (main_arg8 : FVec F S64 .f32) (main_arg9 : FVec F S3x64x64 .f32) (main_arg10 : FVec F S3x64 .f32) (main_arg11 : FVec F S3x64x64 .f32) (main_arg12 : FVec F S3x64 .f32) (main_arg13 : FVec F S64x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S3x64x64 .f32 := Host.absf main_arg9
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S3x64 .f32 := Host.absf main_arg10
  let main_cst_16 : FVec F S_ .f32 := constant S_ .f32 0x7F800000#32
  let main_v45 : FVec F S3x64 .f32 := broadcastInDim S3x64 ![] bcast_S_S3x64 main_cst_16
  let main_v46 : IVec S3x64 1 := cmpf .olt main_v44 main_v45
  let main_c_17 : IVec S_ 1 := constantI S_ 1 1#1
  let main_v47 : IVec S_ 1 := (fun x v => Host.reduce IntOp.andi x v reducesTo_S3x64_S_d0_1 h_S_) main_v46 main_c_17
  let main_v48 : IVec S_ 1 := andi main_v43 main_v47
  let main_v49 : FVec F S3x64x64 .f32 := Host.absf main_arg11
  let main_cst_18 : FVec F S_ .f32 := constant S_ .f32 0x7F800000#32
  let main_v50 : FVec F S3x64x64 .f32 := broadcastInDim S3x64x64 ![] bcast_S_S3x64x64 main_cst_18
  fn_part3 (F := F) main_arg0 main_arg12 main_arg13 main_arg14 main_v48 main_v49 main_v50

def fn_part1 {F : FTy → Type} [FloatOps F] (main_arg0 : IVec S2x2000000 32) (main_arg5 : FVec F S64x64 .f32) (main_arg6 : FVec F S64 .f32) (main_arg7 : FVec F S64x64 .f32) (main_arg8 : FVec F S64 .f32) (main_arg9 : FVec F S3x64x64 .f32) (main_arg10 : FVec F S3x64 .f32) (main_arg11 : FVec F S3x64x64 .f32) (main_arg12 : FVec F S3x64 .f32) (main_arg13 : FVec F S64x64 .f32) (main_arg14 : FVec F S64 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg8 main_arg9 main_arg10 main_arg11 main_arg12 main_arg13 main_arg14 main_v33

def fn {F : FTy → Type} [FloatOps F] (main_arg0 : IVec S2x2000000 32) (main_arg1 : FVec F S2000000x1x16 .f32) (main_arg2 : FVec F S2000000x1 .f32) (main_arg3 : FVec F S100000x64 .f32) (main_arg4 : FVec F S64x16 .f32) (main_arg5 : FVec F S64x64 .f32) (main_arg6 : FVec F S64 .f32) (main_arg7 : FVec F S64x64 .f32) (main_arg8 : FVec F S64 .f32) (main_arg9 : FVec F S3x64x64 .f32) (main_arg10 : FVec F S3x64 .f32) (main_arg11 : FVec F S3x64x64 .f32) (main_arg12 : FVec F S3x64 .f32) (main_arg13 : FVec F S64x64 .f32) (main_arg14 : FVec F S64 .f32) : IVec S_ 1 :=
  let main_v0 : FVec F S2000000x1x16 .f32 := Host.absf main_arg1
  let main_cst : FVec F S_ .f32 := constant S_ .f32 0x7F800000#32
  let main_v1 : FVec F S2000000x1x16 .f32 := broadcastInDim S2000000x1x16 ![] bcast_S_S2000000x1x16 main_cst
  let main_v2 : IVec S2000000x1x16 1 := cmpf .olt main_v0 main_v1
  let main_c : IVec S_ 1 := constantI S_ 1 1#1
  let main_v3 : IVec S_ 1 := (fun x v => Host.reduce IntOp.andi x v reducesTo_S2000000x1x16_S_d0_1_2 h_S_) main_v2 main_c
  let main_v4 : FVec F S2000000x1 .f32 := Host.absf main_arg2
  let main_cst_0 : FVec F S_ .f32 := constant S_ .f32 0x7F800000#32
  let main_v5 : FVec F S2000000x1 .f32 := broadcastInDim S2000000x1 ![] bcast_S_S2000000x1 main_cst_0
  let main_v6 : IVec S2000000x1 1 := cmpf .olt main_v4 main_v5
  let main_c_1 : IVec S_ 1 := constantI S_ 1 1#1
  let main_v7 : IVec S_ 1 := (fun x v => Host.reduce IntOp.andi x v reducesTo_S2000000x1_S_d0_1 h_S_) main_v6 main_c_1
  let main_v8 : IVec S_ 1 := andi main_v3 main_v7
  let main_v9 : FVec F S100000x64 .f32 := Host.absf main_arg3
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg0 main_arg5 main_arg6 main_arg7 main_arg8 main_arg9 main_arg10 main_arg11 main_arg12 main_arg13 main_arg14 main_v13 main_v16
-- ==== Kernel.lean ====
abbrev S2x2000000 : Shape := ⟨2, ![2, 2000000]⟩
abbrev S2000000x1x16 : Shape := ⟨3, ![2000000, 1, 16]⟩
abbrev S2000000x1 : Shape := ⟨2, ![2000000, 1]⟩
abbrev S100000x64 : Shape := ⟨2, ![100000, 64]⟩
abbrev S64x16 : Shape := ⟨2, ![64, 16]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S1x2000000 : Shape := ⟨2, ![1, 2000000]⟩
abbrev S2000000 : Shape := ⟨1, ![2000000]⟩
abbrev S2000000x16 : Shape := ⟨2, ![2000000, 16]⟩
abbrev S1x64 : Shape := ⟨2, ![1, 64]⟩
abbrev S16x64 : Shape := ⟨2, ![16, 64]⟩
abbrev S3x1x64 : Shape := ⟨3, ![3, 1, 64]⟩
abbrev S5000x64 : Shape := ⟨2, ![5000, 64]⟩
abbrev S_ : Shape := ⟨0, ![]⟩
abbrev S1 : Shape := ⟨1, ![1]⟩
abbrev S1x1 : Shape := ⟨2, ![1, 1]⟩
abbrev S2000000x64 : Shape := ⟨2, ![2000000, 64]⟩
abbrev S10000x64 : Shape := ⟨2, ![10000, 64]⟩
abbrev S10000x16 : Shape := ⟨2, ![10000, 16]⟩
abbrev S1x64x64 : Shape := ⟨3, ![1, 64, 64]⟩
abbrev S1x1x64 : Shape := ⟨3, ![1, 1, 64]⟩

abbrev nBuf : Space → Nat
  | .hbm => 57
  | .vmem => 29
  | .smem => 0
  | _ => 0

abbrev bufTy : (tb : Table) → Fin (tcTables nBuf tb) → BufTy
  | .hbm, ⟨0, _⟩ => ⟨S2x2000000, .i32⟩
  | .hbm, ⟨1, _⟩ => ⟨S2000000x1x16, .f32⟩
  | .hbm, ⟨2, _⟩ => ⟨S2000000x1, .f32⟩
  | .hbm, ⟨3, _⟩ => ⟨S100000x64, .f32⟩
  | .hbm, ⟨4, _⟩ => ⟨S64x16, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S3x64x64, .f32⟩
  | .hbm, ⟨10, _⟩ => ⟨S3x64, .f32⟩
  | .hbm, ⟨11, _⟩ => ⟨S3x64x64, .f32⟩
  | .hbm, ⟨12, _⟩ => ⟨S3x64, .f32⟩
  | .hbm, ⟨13, _⟩ => ⟨S64x64, .f32⟩
  | .hbm, ⟨14, _⟩ => ⟨S64, .f32⟩
  | .hbm, ⟨15, _⟩ => ⟨S1x2000000, .i32⟩
  | .hbm, ⟨16, _⟩ => ⟨S2000000, .i32⟩
  | .hbm, ⟨17, _⟩ => ⟨S1x2000000, .i32⟩
  | .hbm, ⟨18, _⟩ => ⟨S2000000, .i32⟩
  | .hbm, ⟨19, _⟩ => ⟨S2000000x16, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S16x64, .f32⟩
  | .hbm, ⟨24, _⟩ => ⟨S3x1x64, .f32⟩
  | .hbm, ⟨25, _⟩ => ⟨S3x1x64, .f32⟩
  | .hbm, ⟨26, _⟩ => ⟨S100000x64, .f32⟩
  | .hbm, ⟨27, _⟩ => ⟨S100000x64, .f32⟩
  | .hbm, ⟨28, _⟩ => ⟨S_, .i32⟩
  | .hbm, ⟨29, _⟩ => ⟨S2000000, .i32⟩
  | .hbm, ⟨30, _⟩ => ⟨S2000000, .i1⟩
  | .hbm, ⟨31, _⟩ => ⟨S_, .i32⟩
  | .hbm, ⟨32, _⟩ => ⟨S2000000, .i32⟩
  | .hbm, ⟨33, _⟩ => ⟨S2000000, .i32⟩
  | .hbm, ⟨34, _⟩ => ⟨S2000000, .i32⟩
  | .hbm, ⟨35, _⟩ => ⟨S2000000x1, .i32⟩
  | .hbm, ⟨36, _⟩ => ⟨S1, .i32⟩
  | .hbm, ⟨37, _⟩ => ⟨S_, .i32⟩
  | .hbm, ⟨38, _⟩ => ⟨S2000000x1, .i32⟩
  | .hbm, ⟨39, _⟩ => ⟨S2000000x1, .i1⟩
  | .hbm, ⟨40, _⟩ => ⟨S1x1, .i32⟩
  | .hbm, ⟨41, _⟩ => ⟨S2000000x1, .i32⟩
  | .hbm, ⟨42, _⟩ => ⟨S2000000x1, .i1⟩
  | .hbm, ⟨43, _⟩ => ⟨S2000000x1, .i1⟩
  | .hbm, ⟨44, _⟩ => ⟨S_, .i1⟩
  | .hbm, ⟨45, _⟩ => ⟨S2000000, .i1⟩
  | .hbm, ⟨46, _⟩ => ⟨S2000000x64, .f32⟩
  | .hbm, ⟨47, _⟩ => ⟨S2000000x64, .i1⟩
  | .hbm, ⟨48, _⟩ => ⟨S_, .f32⟩
  | .hbm, ⟨49, _⟩ => ⟨S2000000x64, .f32⟩
  | .hbm, ⟨50, _⟩ => ⟨S2000000x64, .f32⟩
  | .hbm, ⟨51, _⟩ => ⟨S2000000x64, .f32⟩
  | .hbm, ⟨52, _⟩ => ⟨S_, .f32⟩
  | .hbm, ⟨53, _⟩ => ⟨S100000x64, .f32⟩
  | .hbm, ⟨54, _⟩ => ⟨S2000000x1, .i32⟩
  | .hbm, ⟨55, _⟩ => ⟨S100000x64, .f32⟩
  | .hbm, ⟨56, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S10000x64, .f32⟩
  | .local _ .vmem, ⟨9, _⟩ => ⟨S10000x64, .f32⟩
  | .local _ .vmem, ⟨10, _⟩ => ⟨S10000x16, .f32⟩
  | .local _ .vmem, ⟨11, _⟩ => ⟨S10000x16, .f32⟩
  | .local _ .vmem, ⟨12, _⟩ => ⟨S64x64, .f32⟩
  | .local _ .vmem, ⟨13, _⟩ => ⟨S1x64, .f32⟩
  | .local _ .vmem, ⟨14, _⟩ => ⟨S16x64, .f32⟩
  | .local _ .vmem, ⟨15, _⟩ => ⟨S10000x64, .f32⟩
  | .local _ .vmem, ⟨16, _⟩ => ⟨S10000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S3x64x64, .f32⟩
  | .local _ .vmem, ⟨22, _⟩ => ⟨S3x1x64, .f32⟩
  | .local _ .vmem, ⟨23, _⟩ => ⟨S3x64x64, .f32⟩
  | .local _ .vmem, ⟨24, _⟩ => ⟨S3x1x64, .f32⟩
  | .local _ .vmem, ⟨25, _⟩ => ⟨S64x64, .f32⟩
  | .local _ .vmem, ⟨26, _⟩ => ⟨S1x64, .f32⟩
  | .local _ .vmem, ⟨27, _⟩ => ⟨S5000x64, .f32⟩
  | .local _ .vmem, ⟨28, _⟩ => ⟨S5000x64, .f32⟩
  | _, _ => ⟨S2x2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11_0 : Ref sig .tc := ⟨.hbm, 26, rfl⟩
abbrev main_v11_1 : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v12 : Ref sig .tc := ⟨.hbm, 50, rfl⟩
abbrev main_v13 : Ref sig .tc := ⟨.hbm, 51, rfl⟩
abbrev main_cst : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg8_0 : Ref sig .tc := ⟨.vmem, 27, rfl⟩
abbrev cc2_stg8_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem8_0 : DmaSem sig := 27
abbrev cc2_sem8_1 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S3x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S3x1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S3x64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S3x1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S5000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S2000000x1x16_S2000000x16 : S2000000x1x16.ShapeCasts S2000000x16
  shapeCasts_S64_S1x64 : S64.ShapeCasts S1x64
  transposes_S64x16_S16x64_1_0 : S64x16.Transposes [1, 0] S16x64
  shapeCasts_S3x64_S3x1x64 : S3x64.ShapeCasts S3x1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  broadcasts_S1x64_S10000x64 : S1x64.Broadcasts S10000x64
  inb_S16x64_S16x64_0_0 : ∀ a, (![0, 0] : Fin 2 → Nat) a + S16x64.size a ≤ S16x64.size a
  h_S16x64 : 0 < S16x64.numel
  shapeCasts_S16x64_S16x64 : S16x64.ShapeCasts S16x64
  bcast_S_S100000x64 : S_.BroadcastsInDim S100000x64 (![] : Fin 0 → Fin S100000x64.rank)
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x1x64_S1x1x64_0_0_0 : ∀ a, (![0, 0, 0] : Fin 3 → Nat) a + S1x1x64.size a ≤ S3x1x64.size a
  h_S1x1x64 : 0 < S1x1x64.numel
  shapeCasts_S1x1x64_S1x64 : S1x1x64.ShapeCasts S1x64
  inb_S3x64x64_S1x64x64_1_0_0 : ∀ a, (![1, 0, 0] : Fin 3 → Nat) a + S1x64x64.size a ≤ S3x64x64.size a
  inb_S3x1x64_S1x1x64_1_0_0 : ∀ a, (![1, 0, 0] : Fin 3 → Nat) a + S1x1x64.size a ≤ S3x1x64.size a
  inb_S3x64x64_S1x64x64_2_0_0 : ∀ a, (![2, 0, 0] : Fin 3 → Nat) a + S1x64x64.size a ≤ S3x64x64.size a
  inb_S3x1x64_S1x1x64_2_0_0 : ∀ a, (![2, 0, 0] : Fin 3 → Nat) a + S1x1x64.size a ≤ S3x1x64.size a
  dot_S5000x64_S64x64_S5000x64_1_0_0_1_n_n_wf : DotDims.WF S5000x64 S64x64 S5000x64 [1] [0] [0] [1] [] []
  gather_S100000x64_S2000000x1_S2000000x64_1_0_n_n_0_1_164_wf : GatherDims.WF S100000x64 S2000000x1 S2000000x64 [1] [0] [] [0] [] 1 ![1, 64]
  dot_S10000x64_S64x64_S10000x64_1_0_0_1_n_n_wf : DotDims.WF S10000x64 S64x64 S10000x64 [1] [0] [0] [1] [] []
  dot_S10000x16_S16x64_S10000x64_1_0_0_1_n_n_wf : DotDims.WF S10000x16 S16x64 S10000x64 [1] [0] [0] [1] [] []
  scatter_S100000x64_S2000000x1_S2000000x64_1_0_0_1_wf : ScatterDims.WF S100000x64 S2000000x1 S2000000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .f32 = 32 ∨ (Rect.block (s := S100000x64) S5000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S2000000x64.size a
  hwx1_0 : ∀ i : grid1.Coords, EltTy.bits .f32 = 32 ∨ (Rect.block (s := S2000000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S2000000x16.size a
  hwx1_1 : ∀ i : grid1.Coords, EltTy.bits .f32 = 32 ∨ (Rect.block (s := S2000000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x64.size a ≤ S16x64.size a
  hwx1_4 : ∀ i : grid1.Coords, EltTy.bits .f32 = 32 ∨ (Rect.block (s := S16x64) S16x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S2000000x64.size a
  hwx1_5 : ∀ i : grid1.Coords, EltTy.bits .f32 = 32 ∨ (Rect.block (s := S2000000x64) S10000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S3x64x64.size a ≤ S3x64x64.size a
  hwx2_2 : ∀ i : grid2.Coords, EltTy.bits .f32 = 32 ∨ (Rect.block (s := S3x64x64) S3x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x1x64.size a ≤ S3x1x64.size a
  hwx2_3 : ∀ i : grid2.Coords, EltTy.bits .f32 = 32 ∨ (Rect.block (s := S3x1x64) S3x1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S3x64x64.size a ≤ S3x64x64.size a
  hwx2_4 : ∀ i : grid2.Coords, EltTy.bits .f32 = 32 ∨ (Rect.block (s := S3x64x64) S3x64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S3x1x64.size a ≤ S3x1x64.size a
  hwx2_5 : ∀ i : grid2.Coords, EltTy.bits .f32 = 32 ∨ (Rect.block (s := S3x1x64) S3x1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x64.size a ≤ S100000x64.size a
  hwx2_8 : ∀ i : grid2.Coords, EltTy.bits .f32 = 32 ∨ (Rect.block (s := S100000x64) S5000x64.size (cc2_transform_8 i) (hinb2_8 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

abbrev win0_0 : Pipeline.Window sig grid0 :=
  Pipeline.Window.ofSpec (Memref.whole main_arg3) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S16x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v13) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v11_1) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v16) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S3x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S3x1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S3x64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S3x1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg13) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v7) S1x64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S5000x64.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S2x2000000 : Shape := ⟨2, ![2, 2000000]⟩
abbrev S2000000x1x16 : Shape := ⟨3, ![2000000, 1, 16]⟩
abbrev S2000000x1 : Shape := ⟨2, ![2000000, 1]⟩
abbrev S100000x64 : Shape := ⟨2, ![100000, 64]⟩
abbrev S64x16 : Shape := ⟨2, ![64, 16]⟩
abbrev S64x64 : Shape := ⟨2, ![64, 64]⟩
abbrev S64 : Shape := ⟨1, ![64]⟩
abbrev S3x64x64 : Shape := ⟨3, ![3, 64, 64]⟩
abbrev S3x64 : Shape := ⟨2, ![3, 64]⟩
abbrev S1x2000000 : Shape := ⟨2, ![1, 2000000]⟩
abbrev S2000000 : Shape := ⟨1, ![2000000]⟩
abbrev S2000000x16 : Shape := ⟨2, ![2000000, 16]⟩
abbrev S_ : Shape := ⟨0, ![]⟩
abbrev S1x64 : Shape := ⟨2, ![1, 64]⟩
abbrev S2000000x64 : Shape := ⟨2, ![2000000, 64]⟩
abbrev S16x64 : Shape := ⟨2, ![16, 64]⟩
abbrev S1x64x64 : Shape := ⟨3, ![1, 64, 64]⟩

abbrev nBuf : Space → Nat
  | .hbm => 201
  | .vmem => 0
  | .smem => 0
  | _ => 0

abbrev hbmTy0_0 (i : Nat) : BufTy := match i % 128 with
  | 0 => ⟨S2x2000000, .i32⟩
  | 1 => ⟨S2000000x1x16, .f32⟩
  | 2 => ⟨S2000000x1, .f32⟩
  | 3 => ⟨S100000x64, .f32⟩
  | 4 => ⟨S64x16, .f32⟩
  | 5 => ⟨S64x64, .f32⟩
  | 6 => ⟨S64, .f32⟩
  | 7 => ⟨S64x64, .f32⟩
  | 8 => ⟨S64, .f32⟩
  | 9 => ⟨S3x64x64, .f32⟩
  | 10 => ⟨S3x64, .f32⟩
  | 11 => ⟨S3x64x64, .f32⟩
  | 12 => ⟨S3x64, .f32⟩
  | 13 => ⟨S64x64, .f32⟩
  | 14 => ⟨S64, .f32⟩
  | 15 => ⟨S1x2000000, .i32⟩
  | 16 => ⟨S2000000, .i32⟩
  | 17 => ⟨S1x2000000, .i32⟩
  | 18 => ⟨S2000000, .i32⟩
  | 19 => ⟨S2000000x16, .f32⟩
  | 20 => ⟨S_, .f32⟩
  | 21 => ⟨S100000x64, .f32⟩
  | 22 => ⟨S100000x64, .f32⟩
  | 23 => ⟨S100000x64, .f32⟩
  | 24 => ⟨S100000x64, .f32⟩
  | 25 => ⟨S100000x64, .i1⟩
  | 26 => ⟨S100000x64, .f32⟩
  | 27 => ⟨S100000x64, .f32⟩
  | 28 => ⟨S100000x64, .f32⟩
  | 29 => ⟨S100000x64, .f32⟩
  | 30 => ⟨S100000x64, .f32⟩
  | 31 => ⟨S100000x64, .f32⟩
  | 32 => ⟨S100000x64, .f32⟩
  | 33 => ⟨S100000x64, .f32⟩
  | 34 => ⟨S_, .f32⟩
  | 35 => ⟨S100000x64, .f32⟩
  | 36 => ⟨S100000x64, .f32⟩
  | 37 => ⟨S100000x64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S100000x64, .f32⟩
  | 45 => ⟨S100000x64, .f32⟩
  | 46 => ⟨S100000x64, .i1⟩
  | 47 => ⟨S100000x64, .f32⟩
  | 48 => ⟨S100000x64, .f32⟩
  | 49 => ⟨S100000x64, .f32⟩
  | 50 => ⟨S100000x64, .f32⟩
  | 51 => ⟨S100000x64, .f32⟩
  | 52 => ⟨S100000x64, .f32⟩
  | 53 => ⟨S100000x64, .f32⟩
  | 54 => ⟨S100000x64, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S2000000x64, .f32⟩
  | 64 => ⟨S2000000x64, .f32⟩
  | 65 => ⟨S1x64, .f32⟩
  | 66 => ⟨S2000000x64, .f32⟩
  | 67 => ⟨S2000000x64, .f32⟩
  | 68 => ⟨S_, .f32⟩
  | 69 => ⟨S2000000x64, .f32⟩
  | 70 => ⟨S2000000x64, .f32⟩
  | 71 => ⟨S2000000x64, .f32⟩
  | 72 => ⟨S2000000x64, .f32⟩
  | 73 => ⟨S2000000x64, .i1⟩
  | 74 => ⟨S2000000x64, .f32⟩
  | 75 => ⟨S2000000x64, .f32⟩
  | 76 => ⟨S2000000x64, .f32⟩
  | 77 => ⟨S2000000x64, .f32⟩
  | 78 => ⟨S2000000x64, .f32⟩
  | 79 => ⟨S2000000x64, .f32⟩
  | 80 => ⟨S2000000x64, .f32⟩
  | 81 => ⟨S2000000x64, .f32⟩
  | 82 => ⟨S16x64, .f32⟩
  | 83 => ⟨S2000000x64, .f32⟩
  | 84 => ⟨S2000000x64, .f32⟩
  | 85 => ⟨S_, .f32⟩
  | 86 => ⟨S100000x64, .f32⟩
  | 87 => ⟨S2000000x1, .i32⟩
  | 88 => ⟨S100000x64, .f32⟩
  | 89 => ⟨S100000x64, .f32⟩
  | 90 => ⟨S1x64x64, .f32⟩
  | 91 => ⟨S64x64, .f32⟩
  | 92 => ⟨S100000x64, .f32⟩
  | 93 => ⟨S1x64, .f32⟩
  | 94 => ⟨S64, .f32⟩
  | 95 => ⟨S1x64, .f32⟩
  | 96 => ⟨S100000x64, .f32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S100000x64, .f32⟩
  | 103 => ⟨S100000x64, .i1⟩
  | 104 => ⟨S100000x64, .f32⟩
  | 105 => ⟨S100000x64, .f32⟩
  | 106 => ⟨S100000x64, .f32⟩
  | 107 => ⟨S100000x64, .f32⟩
  | 108 => ⟨S100000x64, .f32⟩
  | 109 => ⟨S100000x64, .f32⟩
  | 110 => ⟨S100000x64, .f32⟩
  | 111 => ⟨S100000x64, .f32⟩
  | 112 => ⟨S1x64x64, .f32⟩
  | 113 => ⟨S64x64, .f32⟩
  | 114 => ⟨S100000x64, .f32⟩
  | 115 => ⟨S1x64, .f32⟩
  | 116 => ⟨S64, .f32⟩
  | 117 => ⟨S1x64, .f32⟩
  | 118 => ⟨S100000x64, .f32⟩
  | 119 => ⟨S100000x64, .f32⟩
  | 120 => ⟨S100000x64, .f32⟩
  | 121 => ⟨S1x64x64, .f32⟩
  | 122 => ⟨S64x64, .f32⟩
  | 123 => ⟨S100000x64, .f32⟩
  | 124 => ⟨S1x64, .f32⟩
  | 125 => ⟨S64, .f32⟩
  | 126 => ⟨S1x64, .f32⟩
  | 127 => ⟨S100000x64, .f32⟩
  | _ => ⟨S2x2000000, .i32⟩

abbrev hbmTy0_1 (i : Nat) : BufTy := match i % 128 with
  | 0 => ⟨S100000x64, .f32⟩
  | 1 => ⟨S_, .f32⟩
  | 2 => ⟨S100000x64, .f32⟩
  | 3 => ⟨S100000x64, .f32⟩
  | 4 => ⟨S100000x64, .f32⟩
  | 5 => ⟨S100000x64, .f32⟩
  | 6 => ⟨S100000x64, .i1⟩
  | 7 => ⟨S100000x64, .f32⟩
  | 8 => ⟨S100000x64, .f32⟩
  | 9 => ⟨S100000x64, .f32⟩
  | 10 => ⟨S100000x64, .f32⟩
  | 11 => ⟨S100000x64, .f32⟩
  | 12 => ⟨S100000x64, .f32⟩
  | 13 => ⟨S100000x64, .f32⟩
  | 14 => ⟨S100000x64, .f32⟩
  | 15 => ⟨S1x64x64, .f32⟩
  | 16 => ⟨S64x64, .f32⟩
  | 17 => ⟨S100000x64, .f32⟩
  | 18 => ⟨S1x64, .f32⟩
  | 19 => ⟨S64, .f32⟩
  | 20 => ⟨S1x64, .f32⟩
  | 21 => ⟨S100000x64, .f32⟩
  | 22 => ⟨S100000x64, .f32⟩
  | 23 => ⟨S100000x64, .f32⟩
  | 24 => ⟨S1x64x64, .f32⟩
  | 25 => ⟨S64x64, .f32⟩
  | 26 => ⟨S100000x64, .f32⟩
  | 27 => ⟨S1x64, .f32⟩
  | 28 => ⟨S64, .f32⟩
  | 29 => ⟨S1x64, .f32⟩
  | 30 => ⟨S100000x64, .f32⟩
  | 31 => ⟨S100000x64, .f32⟩
  | 32 => ⟨S_, .f32⟩
  | 33 => ⟨S100000x64, .f32⟩
  | 34 => ⟨S100000x64, .f32⟩
  | 35 => ⟨S100000x64, .f32⟩
  | 36 => ⟨S100000x64, .f32⟩
  | 37 => ⟨S100000x64, .i1⟩
  | 38 => ⟨S100000x64, .f32⟩
  | 39 => ⟨S100000x64, .f32⟩
  | 40 => ⟨S100000x64, .f32⟩
  | 41 => ⟨S100000x64, .f32⟩
  | 42 => ⟨S100000x64, .f32⟩
  | 43 => ⟨S100000x64, .f32⟩
  | 44 => ⟨S100000x64, .f32⟩
  | 45 => ⟨S100000x64, .f32⟩
  | 46 => ⟨S1x64x64, .f32⟩
  | 47 => ⟨S64x64, .f32⟩
  | 48 => ⟨S100000x64, .f32⟩
  | 49 => ⟨S1x64, .f32⟩
  | 50 => ⟨S64, .f32⟩
  | 51 => ⟨S1x64, .f32⟩
  | 52 => ⟨S100000x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x64, .f32⟩
  | 59 => ⟨S100000x64, .f32⟩
  | 60 => ⟨S100000x64, .i1⟩
  | 61 => ⟨S100000x64, .f32⟩
  | 62 => ⟨S100000x64, .f32⟩
  | 63 => ⟨S100000x64, .f32⟩
  | 64 => ⟨S100000x64, .f32⟩
  | 65 => ⟨S100000x64, .f32⟩
  | 66 => ⟨S100000x64, .f32⟩
  | 67 => ⟨S100000x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | _ => ⟨S2x2000000, .i32⟩

abbrev hbmTy (i : Nat) : BufTy := match i / 128 with
  | 0 => hbmTy0_0 i
  | 1 => hbmTy0_1 i
  | _ => ⟨S2x2000000, .i32⟩

abbrev bufTy : (tb : Table) → Fin (tcTables nBuf tb) → BufTy
  | .hbm, ⟨i, _⟩ => hbmTy i
  | _, _ => ⟨S2x2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_v5 : Ref sig .tc := ⟨.hbm, 33, rfl⟩
abbrev main_cst : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_call1_cst : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_v6 : Ref sig .tc := ⟨.hbm, 48, rfl⟩
abbrev main_call1_v7 : Ref sig .tc := ⟨.hbm, 49, rfl⟩
abbrev main_call1_v8 : Ref sig .tc := ⟨.hbm, 50, rfl⟩
abbrev main_call1_v9 : Ref sig .tc := ⟨.hbm, 51, rfl⟩
abbrev main_call1_v10 : Ref sig .tc := ⟨.hbm, 52, rfl⟩
abbrev main_call1_v11 : Ref sig .tc := ⟨.hbm, 53, rfl⟩
abbrev main_v12 : Ref sig .tc := ⟨.hbm, 54, rfl⟩
abbrev main_c : Ref sig .tc := ⟨.hbm, 55, rfl⟩
abbrev main_v13 : Ref sig .tc := ⟨.hbm, 56, rfl⟩
abbrev main_v14 : Ref sig .tc := ⟨.hbm, 57, rfl⟩
abbrev main_c_0 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_cst_1 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_call3_cst : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_call3_v3 : Ref sig .tc := ⟨.hbm, 102, rfl⟩
abbrev main_call3_v4 : Ref sig .tc := ⟨.hbm, 103, rfl⟩
abbrev main_call3_v5 : Ref sig .tc := ⟨.hbm, 104, rfl⟩
abbrev main_call3_v6 : Ref sig .tc := ⟨.hbm, 105, rfl⟩
abbrev main_call3_v7 : Ref sig .tc := ⟨.hbm, 106, rfl⟩
abbrev main_call3_v8 : Ref sig .tc := ⟨.hbm, 107, rfl⟩
abbrev main_call3_v9 : Ref sig .tc := ⟨.hbm, 108, rfl⟩
abbrev main_call3_v10 : Ref sig .tc := ⟨.hbm, 109, rfl⟩
abbrev main_call3_v11 : Ref sig .tc := ⟨.hbm, 110, rfl⟩
abbrev main_v40 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_v45 : Ref sig .tc := ⟨.hbm, 116, rfl⟩
abbrev main_v46 : Ref sig .tc := ⟨.hbm, 117, rfl⟩
abbrev main_v47 : Ref sig .tc := ⟨.hbm, 118, rfl⟩
abbrev main_v48 : Ref sig .tc := ⟨.hbm, 119, rfl⟩
abbrev main_v49 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_v64 : Ref sig .tc := ⟨.hbm, 148, rfl⟩
abbrev main_v65 : Ref sig .tc := ⟨.hbm, 149, rfl⟩
abbrev main_v66 : Ref sig .tc := ⟨.hbm, 150, rfl⟩
abbrev main_v67 : Ref sig .tc := ⟨.hbm, 151, rfl⟩
abbrev main_v68 : Ref sig .tc := ⟨.hbm, 152, rfl⟩
abbrev main_v69 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev main_call5_cst : Ref sig .tc := ⟨.hbm, 160, rfl⟩
abbrev main_call5_v0 : Ref sig .tc := ⟨.hbm, 161, rfl⟩
abbrev main_call5_v1 : Ref sig .tc := ⟨.hbm, 162, rfl⟩
abbrev main_call5_v2 : Ref sig .tc := ⟨.hbm, 163, rfl⟩
abbrev main_call5_v3 : Ref sig .tc := ⟨.hbm, 164, rfl⟩
abbrev main_call5_v4 : Ref sig .tc := ⟨.hbm, 165, rfl⟩
abbrev main_call5_v5 : Ref sig .tc := ⟨.hbm, 166, rfl⟩
abbrev main_call5_v6 : Ref sig .tc := ⟨.hbm, 167, rfl⟩
abbrev main_call5_v7 : Ref sig .tc := ⟨.hbm, 168, rfl⟩
abbrev main_call5_v8 : Ref sig .tc := ⟨.hbm, 169, rfl⟩
abbrev main_call5_v9 : Ref sig .tc := ⟨.hbm, 170, rfl⟩
abbrev main_call5_v10 : Ref sig .tc := ⟨.hbm, 171, rfl⟩
abbrev main_call5_v11 : Ref sig .tc := ⟨.hbm, 172, rfl⟩
abbrev main_v76 : Ref sig .tc := ⟨.hbm, 173, rfl⟩
abbrev main_v77 : Ref sig .tc := ⟨.hbm, 174, rfl⟩
abbrev main_v78 : Ref sig .tc := ⟨.hbm, 175, rfl⟩
abbrev main_v79 : Ref sig .tc := ⟨.hbm, 176, rfl⟩
abbrev main_v80 : Ref sig .tc := ⟨.hbm, 177, rfl⟩
abbrev main_v81 : Ref sig .tc := ⟨.hbm, 178, rfl⟩
abbrev main_v82 : Ref sig .tc := ⟨.hbm, 179, rfl⟩
abbrev main_v83 : Ref sig .tc := ⟨.hbm, 180, rfl⟩
abbrev main_v84 : Ref sig .tc := ⟨.hbm, 181, rfl⟩
abbrev main_v85 : Ref sig .tc := ⟨.hbm, 182, rfl⟩
abbrev main_call6_cst : Ref sig .tc := ⟨.hbm, 183, rfl⟩
abbrev main_call6_v0 : Ref sig .tc := ⟨.hbm, 184, rfl⟩
abbrev main_call6_v1 : Ref sig .tc := ⟨.hbm, 185, rfl⟩
abbrev main_call6_v2 : Ref sig .tc := ⟨.hbm, 186, rfl⟩
abbrev main_call6_v3 : Ref sig .tc := ⟨.hbm, 187, rfl⟩
abbrev main_call6_v4 : Ref sig .tc := ⟨.hbm, 188, rfl⟩
abbrev main_call6_v5 : Ref sig .tc := ⟨.hbm, 189, rfl⟩
abbrev main_call6_v6 : Ref sig .tc := ⟨.hbm, 190, rfl⟩
abbrev main_call6_v7 : Ref sig .tc := ⟨.hbm, 191, rfl⟩
abbrev main_call6_v8 : Ref sig .tc := ⟨.hbm, 192, rfl⟩
abbrev main_call6_v9 : Ref sig .tc := ⟨.hbm, 193, rfl⟩
abbrev main_call6_v10 : Ref sig .tc := ⟨.hbm, 194, rfl⟩
abbrev main_call6_v11 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  shapeCasts_S2000000x1x16_S2000000x16 : S2000000x1x16.ShapeCasts S2000000x16
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  transposes_S64x16_S16x64_1_0 : S64x16.Transposes [1, 0] S16x64
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  dot_S100000x64_S64x64_S100000x64_1_0_0_1_n_n_wf : DotDims.WF S100000x64 S64x64 S100000x64 [1] [0] [0] [1] [] []
  gather_S100000x64_S2000000x1_S2000000x64_1_0_n_n_0_1_164_wf : GatherDims.WF S100000x64 S2000000x1 S2000000x64 [1] [0] [] [0] [] 1 ![1, 64]
  dot_S2000000x64_S64x64_S2000000x64_1_0_0_1_n_n_wf : DotDims.WF S2000000x64 S64x64 S2000000x64 [1] [0] [0] [1] [] []
  dot_S2000000x16_S16x64_S2000000x64_1_0_0_1_n_n_wf : DotDims.WF S2000000x16 S16x64 S2000000x64 [1] [0] [0] [1] [] []
  scatter_S100000x64_S2000000x1_S2000000x64_1_0_0_1_wf : ScatterDims.WF S100000x64 S2000000x1 S2000000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S2000000x64_S64x64_S2000000x64_1_0_0_1_n_n : DotDims S2000000x64 S64x64 S2000000x64 where
  lhsContracting := [1]
  rhsContracting := [0]
  lhsNonContracting := [0]
  rhsNonContracting := [1]
  lhsBatch := []
  rhsBatch := []
  wf := dot_S2000000x64_S64x64_S2000000x64_1_0_0_1_n_n_wf
def dot_S2000000x16_S16x64_S2000000x64_1_0_0_1_n_n : DotDims S2000000x16 S16x64 S2000000x64 where
  lhsContracting := [1]
  rhsContracting := [0]
  lhsNonContracting := [0]
  rhsNonContracting := [1]
  lhsBatch := []
  rhsBatch := []
  wf := dot_S2000000x16_S16x64_S2000000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf

class Facts : Prop extends Facts₀ where

variable [Facts]
-- ==== Proof.Spec.lean ====
/-
  The interaction block both programs compute, written once over literal shapes at the ideal instance
  (floats are extended reals).

  Per atom row `i` and feature column `j`:
    x       = sp(ae) - ln2                                   (shifted softplus of the embedding)
    xip     = sp(x · Wi + bi)
    xj[p]   = x[idx_j[p]]                                    (a row gather)
    msg[p]  = sp(xj[p] · Wj + bj) * (f[p] · Gᵀ)
    summed  = Σ_{p : idx_i[p] = i} msg[p]                    (a scatter-add into zeros)
    v₀      = xip + summed,  v_{l+1} = v_l + (sp(v_l · W1_l + b1_l) · W2_l + b2_l)   (three residual layers)
    out     = sp(v₃) · Wv + bv
  where `sp t = max t 0 + log1p (exp (-|t|))` is the softplus both sources spell, and every
  product `row · W` is the plain sum over the contracted axis.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An array of extended reals over a literal shape. -/
abbrev A1 (a : Nat) := (⟨1, ![a]⟩ : Shape).Idx → EReal
abbrev A2 (a b : Nat) := (⟨2, ![a, b]⟩ : Shape).Idx → EReal
abbrev A3 (a b c : Nat) := (⟨3, ![a, b, c]⟩ : Shape).Idx → EReal

/-- The softplus both sources spell: `max t 0 + log1p (exp (-|t|))`, with `|t| = max t (-t)`. -/
def sp (t : EReal) : EReal := max t 0 + Ideal.log1p (Ideal.exp (-(max t (-t))))

/-- The f32 literal nearest `log 2` that both programs subtract. -/
def ln2 : EReal := Ideal.ofBits .f32 0x3F317218#32

/-- One affine layer read at a column: `(row · W)[j] + b[j]`, the product the plain sum over the contracted axis. -/
def lin {n : Nat} (row : Fin n → EReal) (W : Fin n → Fin 64 → EReal) (b : Fin 64 → EReal) (j : Fin 64) : EReal :=
  (∑ k : Fin n, row k * W k j) + b j

/-- The shifted softplus of the embedding. -/
def X (ae : A2 100000 64) : A2 100000 64 := fun i => sp (ae i) - ln2

/-- The receiving atom's projection of the shifted embedding `x`. -/
def XIP (x : A2 100000 64) (Wi : Fin 64 → Fin 64 → EReal) (bi : Fin 64 → EReal) : A2 100000 64 := fun i =>
  sp (lin (fun k => x (ix2 (i 0) k)) Wi bi (i 1))

/-- The per-pair message from the gathered rows `xj`: the neighbour's projection times the radial filter
    `f[p] · Gᵀ` (`f` as pair × basis, `GT` as basis × feature). -/
def MSG (xj : A2 2000000 64) (f : Fin 2000000 → Fin 16 → EReal) (Wj : Fin 64 → Fin 64 → EReal) (bj : Fin 64 → EReal)
    (GT : Fin 16 → Fin 64 → EReal) : A2 2000000 64 := fun i =>
  sp (lin (fun k => xj (ix2 (i 0) k)) Wj bj (i 1)) * ∑ k : Fin 16, f (i 0) k * GT k (i 1)

/-- One residual layer on a row: `v + (sp(v · W1 + b1) · W2 + b2)`. -/
def resid (W1 : Fin 64 → Fin 64 → EReal) (b1 : Fin 64 → EReal) (W2 : Fin 64 → Fin 64 → EReal) (b2 : Fin 64 → EReal)
    (v : Fin 64 → EReal) : Fin 64 → EReal := fun j =>
  v j + lin (fun k => sp (lin v W1 b1 k)) W2 b2 j

/-- The three residual layers on a row, from the stacked weights. -/
def resid3 (W1 : Fin 3 → Fin 64 → Fin 64 → EReal) (b1 : Fin 3 → Fin 64 → EReal) (W2 : Fin 3 → Fin 64 → Fin 64 → EReal)
    (b2 : Fin 3 → Fin 64 → EReal) (v : Fin 64 → EReal) : Fin 64 → EReal :=
  resid (W1 2) (b1 2) (W2 2) (b2 2) (resid (W1 1) (b1 1) (W2 1) (b2 1) (resid (W1 0) (b1 0) (W2 0) (b2 0) v))

/-- The atom-level tail: three residual layers on `xip + summed`, softplus, the output projection. -/
def OUT (xip summed : A2 100000 64) (W1 : Fin 3 → Fin 64 → Fin 64 → EReal) (b1 : Fin 3 → Fin 64 → EReal)
    (W2 : Fin 3 → Fin 64 → Fin 64 → EReal) (b2 : Fin 3 → Fin 64 → EReal)
    (Wv : Fin 64 → Fin 64 → EReal) (bv : Fin 64 → EReal) : A2 100000 64 := fun i =>
  lin (fun k => sp (resid3 W1 b1 W2 b2 (fun k => xip (ix2 (i 0) k) + summed (ix2 (i 0) k)) k)) Wv bv (i 1)

/-! ## The softplus as each program prints it, read at an index

A vector compare of a value with itself is false at every index (the extended reals have no NaN), so the
guarded select keeps its second branch; subtracting the zero literal and subtracting from it are `t` and `-t`. -/

theorem cmp_self_one (t : EReal) : Ideal.cmp .one t t = 0#1 := by
  unfold Ideal.cmp; simp

theorem cmp_self_une (t : EReal) : Ideal.cmp .une t t = 0#1 := by
  unfold Ideal.cmp; simp

/-- The scalar both spellings reduce to. -/
theorem sp_of_zero_forms (t : EReal) :
    max t (Ideal.ofBits .f32 0x00000000#32)
      + Ideal.log1p (Ideal.exp (Ideal.ofBits .f32 0x00000000#32
          - max (t - Ideal.ofBits .f32 0x00000000#32) (-(t - Ideal.ofBits .f32 0x00000000#32)))) = sp t := by
  rw [Ideal.ofBits_zero_f32, sub_zero, zero_sub]; rfl

theorem sp_of_neg_forms (t : EReal) :
    max t (Ideal.ofBits .f32 0x00000000#32)
      + Ideal.log1p (Ideal.exp (-(max (t - Ideal.ofBits .f32 0x00000000#32) (-(t - Ideal.ofBits .f32 0x00000000#32))))) = sp t := by
  rw [Ideal.ofBits_zero_f32, sub_zero]; rfl

end Cert.Spec

end
-- ==== Proof.KReg0.lean ====
/-
  Region 0 (the atom pre-kernel) read as values at the ideal instance.

  Each grid point `t` stages rows `5000 t … 5000 t + 4999` of the embedding, the whole 64×64 weight and the
  1×64 bias, and writes the same rows of two outputs:
    window 3:  x   = sp(ae) - ln2                      (pointwise)
    window 4:  xip = sp(x · Wi + bi)                   (one row of `x` against every column of `Wi`)
  A row of either output depends only on the same row of the embedding, so the block a point writes back is the
  restriction of ONE whole-array function (`Spec.X`, `Spec.XIP`) to its rows; the twenty blocks tile the array.
  Everything is stated at a PARAMETER `V`, the buffer contents when the region is entered.
-/
import proofs.«422381_j60120952209948_1_alg».proof.Proof.Gen.KernelIdeal.Frame
import proofs.«422381_j60120952209948_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg0

open Idealize.ShloMosaic Idealize.ShloMosaic.TcCoe Idealize.ShloMosaic.ValueIdx Cert.KernelIdeal Cert.KernelIdeal.Gen
open Cert.Spec (sp ln2 lin)

/-! ## The body's two stored values at an index -/

/-- The first store: the shifted softplus, pointwise. The guard compares a value with itself, so the select keeps
    its second branch. -/
theorem pay1_apply (v0 : Vec Ideal S5000x64 .f32) (i : S5000x64.Idx) :
    k0_pay1 (F := Ideal) v0 i = sp (v0 i) - ln2 := by
  unfold k0_pay1
  show Scalar.select (Ideal.cmp .one _ _) _ _ - _ = _
  rw [Cert.Spec.cmp_self_one, select_zero]
  exact congrArg (· - ln2) (Cert.Spec.sp_of_zero_forms (v0 i))

/-! The matrix product of a block of rows with a 64×64 matrix: which operand entries meet at output `(r, j)` and
    contraction index `k` — `(r, k)` on the left, `(k, j)` on the right. -/

theorem lhs_rows_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_rows_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_rows_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_rows_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into the zero accumulator the product at `(r, j)` is the sum over the contracted axis. -/
theorem matmul_rows_apply {φ₁ φ₂ : FTy} (a : FVec Ideal S5000x64 φ₁) (b : FVec Ideal S64x64 φ₂) (r : Fin 5000) (j : Fin 64) :
    matmul dot_S5000x64_S64x64_S5000x64_1_0_0_1_n_n none a b (constant S5000x64 .f32 0x00000000#32) (ix2 r j)
      = ∑ k : Fin 64, a (ix2 r k) * b (ix2 k j) := by
  show FloatOps.matmul _ _ _ _ _ _ = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_rows_0 _ _
    | ⟨1, _⟩ => exact (lhs_rows_1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_rows_0 _ _).trans hk
    | ⟨1, _⟩ => exact rhs_rows_1 _ _)
  rw [el, er]

/-- The second store at `(r, j)`: the softplus of row `r` of the shifted embedding against column `j` of the weight,
    plus the bias. The narrowing of both matrix operands is the identity on extended reals. -/
theorem pay2_apply (v0 : Vec Ideal S5000x64 .f32) (v19 : Vec Ideal S64x64 .f32) (v22 : Vec Ideal S1x64 .f32) (r : Fin 5000) (j : Fin 64) :
    k0_pay2 (F := Ideal) v0 v19 v22 (ix2 r j)
      = sp (lin (fun k => sp (v0 (ix2 r k)) - ln2) (fun k j => v19 (ix2 k j)) (fun j => v22 (ix2 0 j)) j) := by
  unfold k0_pay2
  show Scalar.select (Ideal.cmp .one _ _) _ _ = _
  rw [Cert.Spec.cmp_self_one, select_zero]
  refine (Cert.Spec.sp_of_zero_forms _).trans (congrArg sp ?_)
  show matmul (F := Ideal) _ _ _ _ _ (ix2 r j) + broadcastTo S5000x64 (shapeCast S1x64 v22 shapeCasts_S1x64_S1x64) broadcasts_S1x64_S5000x64 (ix2 r j) = _
  rw [matmul_rows_apply, shapeCast_self, broadcastTo_1b_ab_apply]
  unfold Cert.Spec.lin
  refine congrArg (· + _) (Finset.sum_congr rfl fun k _ => ?_)
  show k0_pay1 (F := Ideal) v0 (ix2 r k) * _ = _
  rw [pay1_apply]
  rfl

/-! ## From blocks to the arrays -/

section Blocks
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the row-tiled windows move together, one block of 5000 rows per point;
    the weight and the bias stay at block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The region's entry arrays by their literal types. -/
abbrev aeArr (c : Dev nD) : Vec Ideal S100000x64 .f32 := V c main_arg3
abbrev wiArr (c : Dev nD) : Vec Ideal S64x64 .f32 := V c main_arg5
abbrev biArr (c : Dev nD) : Vec Ideal S1x64 .f32 := V c main_v5

/-- What point `t` writes back through window 3 is block `t` of the shifted softplus of the embedding. -/
theorem flushed3_eq (c : Dev nD) (t : Fin cfg0.N) :
    (dat0 V c).flushed 3 t = ((cfg0.win 3).blk t).view.read (Elt Ideal) (Cert.Spec.X (aeArr V c)) := by
  show (cfg0.win 3).cut (grid0.coords t) ((dat0 V c).after 3 t) = _
  rw [after0_3]
  unfold out0_3
  rw [View.canon_unit_zero hz2]
  simp only [View.ld_unit_zero (S := S5000x64) hz2]
  obtain ⟨e0, e1, e2, e3, e4, e5, e6, e7, e8, e9⟩ := idx_facts t
  funext j
  refine (pay1_apply (iblk0 V c 0 t) j).trans ?_
  show sp (V c main_arg3 (((cfg0.win 0).blk t).view.emb j)) - ln2 = sp (V c main_arg3 (((cfg0.win 3).blk t).view.emb j)) - ln2
  have h0 : ((cfg0.win 0).blk t).view.emb j = ((cfg0.win 3).blk t).view.emb j := by
    funext a; apply Fin.ext
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 64 + 1 * (j 1).val = win0_3.index t (1 : Fin 2) * 64 + 1 * (j 1).val; omega
  rw [h0]

/-- An index of the array is in point `t`'s block of window 3 iff each coordinate is in the block's range. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v11_0).slice (win0_3.rect t)).set ↔ _
  rw [View.set_slice_whole, Rect.mem_set_unit]
  exact Iff.rfl

/-- Row `r` lies in the block of point `r / 5000`. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_3 _, ?_⟩
  rw [mem_blk3]
  obtain ⟨e0, e1, e2, e3, e4, e5, e6, e7, e8, e9⟩ := idx_facts ⟨(i 0).val / 5000, by rw [hN]; omega⟩
  intro a
  match a with
  | ⟨0, _⟩ => show win0_3.index _ (0 : Fin 2) * 5000 ≤ (i 0).val ∧ (i 0).val < win0_3.index _ (0 : Fin 2) * 5000 + 5000; rw [e6]; show (i 0).val / 5000 * 5000 ≤ _ ∧ _ < (i 0).val / 5000 * 5000 + 5000; omega
  | ⟨1, _⟩ => show win0_3.index _ (1 : Fin 2) * 64 ≤ (i 1).val ∧ (i 1).val < win0_3.index _ (1 : Fin 2) * 64 + 64; rw [e7]; omega

/-- THE FIRST OUTPUT ARRAY after the region: the shifted softplus of the embedding as the region found it. -/
theorem final3 (c : Dev nD) : (dat0 V c).arrAt 3 cfg0.N = Cert.Spec.X (aeArr V c) :=
  (dat0 V c).arrAt_eq_of_cover 3 (Cert.Spec.X (aeArr V c)) (fun t _ => flushed3_eq V c t) cover3

/-- What point `t` writes back through window 4 is block `t` of the receiving atom's projection. -/
theorem flushed4_eq (c : Dev nD) (t : Fin cfg0.N) :
    (dat0 V c).flushed 4 t = ((cfg0.win 4).blk t).view.read (Elt Ideal)
      (Cert.Spec.XIP (Cert.Spec.X (aeArr V c)) (fun k j => wiArr V c (ix2 k j)) (fun j => biArr V c (ix2 0 j))) := by
  show (cfg0.win 4).cut (grid0.coords t) ((dat0 V c).after 4 t) = _
  rw [after0_4]
  unfold out0_4
  rw [View.canon_unit_zero hz2]
  simp only [View.ld_unit_zero (S := S5000x64) hz2, View.ld_unit_zero (S := S64x64) hz2, View.ld_unit_zero (S := S1x64) hz2]
  obtain ⟨e0, e1, e2, e3, e4, e5, e6, e7, e8, e9⟩ := idx_facts t
  funext j
  obtain ⟨p, q, rfl⟩ : ∃ (p : Fin 5000) (q : Fin 64), j = ix2 p q := ⟨j 0, j 1, eq_ix2 j⟩
  refine (pay2_apply (iblk0 V c 0 t) (iblk0 V c 1 t) (iblk0 V c 2 t) p q).trans ?_
  show _ = Cert.Spec.XIP _ _ _ (((cfg0.win 4).blk t).view.emb (ix2 p q))
  unfold Cert.Spec.XIP Cert.Spec.X
  -- the three block reads, each where the output's rectangle says
  have hx : ∀ k : Fin 64, iblk0 V c 0 t (ix2 p k) = V c main_arg3 (ix2 ((((cfg0.win 4).blk t).view.emb (ix2 p q)) 0) k) := fun k => by
    show V c main_arg3 (((cfg0.win 0).blk t).view.emb (ix2 p k)) = _
    refine congrArg (V c main_arg3) (funext fun a => Fin.ext ?_)
    match a with
    | ⟨0, _⟩ => show win0_0.index t (0 : Fin 2) * 5000 + 1 * p.val = win0_4.index t (0 : Fin 2) * 5000 + 1 * p.val; omega
    | ⟨1, _⟩ => show win0_0.index t (1 : Fin 2) * 64 + 1 * k.val = k.val; omega
  have hw : ∀ k j : Fin 64, iblk0 V c 1 t (ix2 k j) = V c main_arg5 (ix2 k j) := fun k j => by
    show V c main_arg5 (((cfg0.win 1).blk t).view.emb (ix2 k j)) = _
    refine congrArg (V c main_arg5) (funext fun a => Fin.ext ?_)
    match a with
    | ⟨0, _⟩ => show win0_1.index t (0 : Fin 2) * 64 + 1 * k.val = k.val; omega
    | ⟨1, _⟩ => show win0_1.index t (1 : Fin 2) * 64 + 1 * j.val = j.val; omega
  have hb : ∀ j : Fin 64, iblk0 V c 2 t (ix2 0 j) = V c main_v5 (ix2 0 j) := fun j => by
    show V c main_v5 (((cfg0.win 2).blk t).view.emb (ix2 0 j)) = _
    refine congrArg (V c main_v5) (funext fun a => Fin.ext ?_)
    match a with
    | ⟨0, _⟩ => show win0_2.index t (0 : Fin 2) * 1 + 1 * 0 = 0; omega
    | ⟨1, _⟩ => show win0_2.index t (1 : Fin 2) * 64 + 1 * j.val = j.val; omega
  have hq : ((((cfg0.win 4).blk t).view.emb (ix2 p q)) 1) = q := Fin.ext (by
    show win0_4.index t (1 : Fin 2) * 64 + 1 * q.val = q.val; omega)
  simp only [hx, hw, hb, hq]

theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v11_1).slice (win0_4.rect t)).set ↔ _
  rw [View.set_slice_whole, Rect.mem_set_unit]
  exact Iff.rfl

theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_4 _, ?_⟩
  rw [mem_blk4]
  obtain ⟨e0, e1, e2, e3, e4, e5, e6, e7, e8, e9⟩ := idx_facts ⟨(i 0).val / 5000, by rw [hN]; omega⟩
  intro a
  match a with
  | ⟨0, _⟩ => show win0_4.index _ (0 : Fin 2) * 5000 ≤ (i 0).val ∧ (i 0).val < win0_4.index _ (0 : Fin 2) * 5000 + 5000; rw [e8]; show (i 0).val / 5000 * 5000 ≤ _ ∧ _ < (i 0).val / 5000 * 5000 + 5000; omega
  | ⟨1, _⟩ => show win0_4.index _ (1 : Fin 2) * 64 ≤ (i 1).val ∧ (i 1).val < win0_4.index _ (1 : Fin 2) * 64 + 64; rw [e9]; omega

/-- THE SECOND OUTPUT ARRAY after the region: the receiving atom's projection, from the entry arrays. -/
theorem final4 (c : Dev nD) : (dat0 V c).arrAt 4 cfg0.N
    = Cert.Spec.XIP (Cert.Spec.X (aeArr V c)) (fun k j => wiArr V c (ix2 k j)) (fun j => biArr V c (ix2 0 j)) :=
  (dat0 V c).arrAt_eq_of_cover 4 _ (fun t _ => flushed4_eq V c t) cover4

end Blocks

end Cert.KernelIdeal.Reg0

end
-- ==== Proof.KReg1.lean ====
/-
  Region 1 (the pair kernel) read as values at the ideal instance.

  Each grid point `t` stages pair rows `10000 t … 10000 t + 9999` of the gathered neighbour rows (64 wide) and of
  the radial basis (16 wide), together with the whole 64×64 weight, the 1×64 bias and the 16×64 transposed filter,
  and writes the same rows of the one output:
    msg[p, j] = sp( Σ_k xj[p, k] · Wj[k, j] + bj[0, j] ) * ( Σ_k f[p, k] · GT[k, j] )
  A row of the output depends only on the same row of the two row-tiled inputs, so the block a point writes back
  is the restriction of ONE whole-array function (`Spec.MSG`) to its rows; the two hundred blocks tile the array.
  Everything is stated at a PARAMETER `V`, the buffer contents when the region is entered.
-/
import proofs.«422381_j60120952209948_1_alg».proof.Proof.Gen.KernelIdeal.Frame
import proofs.«422381_j60120952209948_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg1

open Idealize.ShloMosaic Idealize.ShloMosaic.TcCoe Idealize.ShloMosaic.ValueIdx Cert.KernelIdeal Cert.KernelIdeal.Gen
open Cert.Spec (sp lin)

/-! ## The two matrix products: which operand entries meet

For either product, output entry `(r, j)` at contraction index `k` reads `(r, k)` on the left and `(k, j)` on the
right. First the 64-term product of a block of gathered rows with the weight. -/

theorem w_lhs_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem w_lhs_1 (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
theorem w_rhs_0 (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
theorem w_rhs_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Into the zero accumulator the 64-term product at `(r, j)` is the sum over the contracted axis. -/
theorem w_matmul_apply {φ₁ φ₂ : FTy} (a : FVec Ideal S10000x64 φ₁) (b : FVec Ideal S64x64 φ₂) (r : Fin 10000) (j : Fin 64) :
    matmul dot_S10000x64_S64x64_S10000x64_1_0_0_1_n_n none a b (constant S10000x64 .f32 0x00000000#32) (ix2 r j)
      = ∑ k : Fin 64, a (ix2 r k) * b (ix2 k j) := by
  show FloatOps.matmul _ _ _ _ _ _ = _
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx (ix2 r j) ((ValueIdx.contrEquiv1 dot_S10000x64_S64x64_S10000x64_1_0_0_1_n_n 64 rfl rfl).symm k) = ix2 r k := funext fun a => Fin.ext (by
    match a with
    | ⟨0, _⟩ => exact w_lhs_0 _ _
    | ⟨1, _⟩ => exact (w_lhs_1 _ _).trans hk)
  have er : dot_S10000x64_S64x64_S10000x64_1_0_0_1_n_n.rhsIdx (ix2 r j) ((ValueIdx.contrEquiv1 dot_S10000x64_S64x64_S10000x64_1_0_0_1_n_n 64 rfl rfl).symm k) = ix2 k j := funext fun a => Fin.ext (by
    match a with
    | ⟨0, _⟩ => exact (w_rhs_0 _ _).trans hk
    | ⟨1, _⟩ => exact w_rhs_1 _ _)
  rw [el, er]

/-! Then the 16-term product of a block of radial-basis rows with the transposed filter. -/

theorem g_lhs_0 (i : S10000x64.Idx) (q : dot_S10000x16_S16x64_S10000x64_1_0_0_1_n_n.contr.Idx) :
    (dot_S10000x16_S16x64_S10000x64_1_0_0_1_n_n.lhsIdx i q 0).val = (i 0).val := by
  unfold DotDims.lhsIdx
  rw [dif_neg (show ¬(0 : Fin S10000x16.rank) ∈ dot_S10000x16_S16x64_S10000x64_1_0_0_1_n_n.lhsBatch by decide), dif_pos (show (0 : Fin S10000x16.rank) ∈ dot_S10000x16_S16x64_S10000x64_1_0_0_1_n_n.lhsNonContracting by decide)]
  rfl
theorem g_lhs_1 (i : S10000x64.Idx) (q : dot_S10000x16_S16x64_S10000x64_1_0_0_1_n_n.contr.Idx) :
    (dot_S10000x16_S16x64_S10000x64_1_0_0_1_n_n.lhsIdx i q 1).val = (q ⟨0, by decide⟩).val :=
  dot_S10000x16_S16x64_S10000x64_1_0_0_1_n_n.lhsIdx_val_of_single rfl i q
theorem g_rhs_0 (i : S10000x64.Idx) (q : dot_S10000x16_S16x64_S10000x64_1_0_0_1_n_n.contr.Idx) :
    (dot_S10000x16_S16x64_S10000x64_1_0_0_1_n_n.rhsIdx i q 0).val = (q ⟨0, by decide⟩).val :=
  dot_S10000x16_S16x64_S10000x64_1_0_0_1_n_n.rhsIdx_val_of_single rfl i q
theorem g_rhs_1 (i : S10000x64.Idx) (q : dot_S10000x16_S16x64_S10000x64_1_0_0_1_n_n.contr.Idx) :
    (dot_S10000x16_S16x64_S10000x64_1_0_0_1_n_n.rhsIdx i q 1).val = (i 1).val := by
  unfold DotDims.rhsIdx
  rw [dif_neg (show ¬(1 : Fin S16x64.rank) ∈ dot_S10000x16_S16x64_S10000x64_1_0_0_1_n_n.rhsBatch by decide), dif_pos (show (1 : Fin S16x64.rank) ∈ dot_S10000x16_S16x64_S10000x64_1_0_0_1_n_n.rhsNonContracting by decide)]
  rfl

/-- Into the zero accumulator the 16-term product at `(r, j)` is the sum over the contracted axis. -/
theorem g_matmul_apply {φ₁ φ₂ : FTy} (a : FVec Ideal S10000x16 φ₁) (b : FVec Ideal S16x64 φ₂) (r : Fin 10000) (j : Fin 64) :
    matmul dot_S10000x16_S16x64_S10000x64_1_0_0_1_n_n none a b (constant S10000x64 .f32 0x00000000#32) (ix2 r j)
      = ∑ k : Fin 16, a (ix2 r k) * b (ix2 k j) := by
  show FloatOps.matmul _ _ _ _ _ _ = _
  rw [Ideal.matmul_constant_zero_apply, ← Equiv.sum_comp (ValueIdx.contrEquiv1 dot_S10000x16_S16x64_S10000x64_1_0_0_1_n_n 16 rfl rfl).symm]
  refine Finset.sum_congr rfl fun k _ => ?_
  have hk := ValueIdx.contrEquiv1_symm_val dot_S10000x16_S16x64_S10000x64_1_0_0_1_n_n 16 rfl rfl k
  have el : dot_S10000x16_S16x64_S10000x64_1_0_0_1_n_n.lhsIdx (ix2 r j) ((ValueIdx.contrEquiv1 dot_S10000x16_S16x64_S10000x64_1_0_0_1_n_n 16 rfl rfl).symm k) = ix2 r k := funext fun a => Fin.ext (by
    match a with
    | ⟨0, _⟩ => exact g_lhs_0 _ _
    | ⟨1, _⟩ => exact (g_lhs_1 _ _).trans hk)
  have er : dot_S10000x16_S16x64_S10000x64_1_0_0_1_n_n.rhsIdx (ix2 r j) ((ValueIdx.contrEquiv1 dot_S10000x16_S16x64_S10000x64_1_0_0_1_n_n 16 rfl rfl).symm k) = ix2 k j := funext fun a => Fin.ext (by
    match a with
    | ⟨0, _⟩ => exact (g_rhs_0 _ _).trans hk
    | ⟨1, _⟩ => exact g_rhs_1 _ _)
  rw [el, er]

/-! ## The body's stored value at an index -/

/-- The one store at `(r, j)`: the softplus of row `r` of the gathered block against column `j` of the weight plus
    the bias, times row `r` of the radial basis against column `j` of the transposed filter. The guard compares a
    value with itself, so the select keeps its second branch; the narrowing of every matrix operand and the
    same-shape casts are the identity on extended reals. -/
theorem pay_apply (v0 : Vec Ideal S10000x64 .f32) (v2 : Vec Ideal S10000x16 .f32) (v5 : Vec Ideal S64x64 .f32)
    (v8 : Vec Ideal S1x64 .f32) (v27 : Vec Ideal S16x64 .f32) (r : Fin 10000) (j : Fin 64) :
    k1_pay1 (F := Ideal) v0 v2 v5 v8 v27 (ix2 r j)
      = sp (lin (fun k => v0 (ix2 r k)) (fun k j => v5 (ix2 k j)) (fun j => v8 (ix2 0 j)) j)
        * ∑ k : Fin 16, v2 (ix2 r k) * v27 (ix2 k j) := by
  unfold k1_pay1
  show Scalar.select (Ideal.cmp .one _ _) _ _ * _ = _
  rw [Cert.Spec.cmp_self_one, select_zero]
  refine congrArg₂ (· * ·) ((Cert.Spec.sp_of_zero_forms _).trans (congrArg sp ?_)) ?_
  · show matmul (F := Ideal) _ _ _ _ _ (ix2 r j) + broadcastTo S10000x64 (shapeCast S1x64 v8 shapeCasts_S1x64_S1x64) broadcasts_S1x64_S10000x64 (ix2 r j) = _
    rw [w_matmul_apply, shapeCast_self, shapeCast_self, broadcastTo_1b_ab_apply]
    rfl
  · show matmul (F := Ideal) _ _ _ _ _ (ix2 r j) = _
    rw [g_matmul_apply, shapeCast_self, shapeCast_self]
    rfl

/-! ## From blocks to the array -/

section Blocks
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the grid: the three row-tiled windows move together, one block of 10000 rows per
    point; the weight, the bias and the filter stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The region's entry arrays by their literal types. -/
abbrev xjArr (c : Dev nD) : Vec Ideal S2000000x64 .f32 := V c main_v12
abbrev fArr (c : Dev nD) : Vec Ideal S2000000x16 .f32 := V c main_v4
abbrev wjArr (c : Dev nD) : Vec Ideal S64x64 .f32 := V c main_arg7
abbrev bjArr (c : Dev nD) : Vec Ideal S1x64 .f32 := V c main_v6
abbrev gtArr (c : Dev nD) : Vec Ideal S16x64 .f32 := V c main_v8

/-- What point `t` writes back through window 5 is block `t` of the per-pair message. -/
theorem flushed5_eq (c : Dev nD) (t : Fin cfg1.N) :
    (dat1 V c).flushed 5 t = ((cfg1.win 5).blk t).view.read (Elt Ideal)
      (Cert.Spec.MSG (xjArr V c) (fun p k => fArr V c (ix2 p k)) (fun k j => wjArr V c (ix2 k j))
        (fun j => bjArr V c (ix2 0 j)) (fun k j => gtArr V c (ix2 k j))) := by
  show (cfg1.win 5).cut (grid1.coords t) ((dat1 V c).after 5 t) = _
  rw [after1_5]
  unfold out1_5
  rw [View.canon_unit_zero hz2]
  simp only [View.ld_unit_zero (S := S10000x64) hz2, View.ld_unit_zero (S := S10000x16) hz2, View.ld_unit_zero (S := S64x64) hz2,
    View.ld_unit_zero (S := S1x64) hz2, View.ld_unit_zero (S := S16x64) hz2]
  obtain ⟨e0, e1, e2, e3, e4, e5, e6, e7, e8, e9, e10, e11⟩ := idx_facts t
  funext j
  obtain ⟨p, q, rfl⟩ : ∃ (p : Fin 10000) (q : Fin 64), j = ix2 p q := ⟨j 0, j 1, eq_ix2 j⟩
  refine (pay_apply (iblk1 V c 0 t) (iblk1 V c 1 t) (iblk1 V c 2 t) (iblk1 V c 3 t) (iblk1 V c 4 t) p q).trans ?_
  show _ = Cert.Spec.MSG (xjArr V c) (fun p k => fArr V c (ix2 p k)) (fun k j => wjArr V c (ix2 k j))
    (fun j => bjArr V c (ix2 0 j)) (fun k j => gtArr V c (ix2 k j)) (((cfg1.win 5).blk t).view.emb (ix2 p q))
  unfold Cert.Spec.MSG
  -- the five block reads, each where the output's rectangle says
  have hx : ∀ k : Fin 64, iblk1 V c 0 t (ix2 p k) = V c main_v12 (ix2 ((((cfg1.win 5).blk t).view.emb (ix2 p q)) 0) k) := fun k => by
    show V c main_v12 (((cfg1.win 0).blk t).view.emb (ix2 p k)) = _
    refine congrArg (V c main_v12) (funext fun a => Fin.ext ?_)
    match a with
    | ⟨0, _⟩ => show win1_0.index t (0 : Fin 2) * 10000 + 1 * p.val = win1_5.index t (0 : Fin 2) * 10000 + 1 * p.val; omega
    | ⟨1, _⟩ => show win1_0.index t (1 : Fin 2) * 64 + 1 * k.val = k.val; omega
  have hf : ∀ k : Fin 16, iblk1 V c 1 t (ix2 p k) = V c main_v4 (ix2 ((((cfg1.win 5).blk t).view.emb (ix2 p q)) 0) k) := fun k => by
    show V c main_v4 (((cfg1.win 1).blk t).view.emb (ix2 p k)) = _
    refine congrArg (V c main_v4) (funext fun a => Fin.ext ?_)
    match a with
    | ⟨0, _⟩ => show win1_1.index t (0 : Fin 2) * 10000 + 1 * p.val = win1_5.index t (0 : Fin 2) * 10000 + 1 * p.val; omega
    | ⟨1, _⟩ => show win1_1.index t (1 : Fin 2) * 16 + 1 * k.val = k.val; omega
  have hw : ∀ k j : Fin 64, iblk1 V c 2 t (ix2 k j) = V c main_arg7 (ix2 k j) := fun k j => by
    show V c main_arg7 (((cfg1.win 2).blk t).view.emb (ix2 k j)) = _
    refine congrArg (V c main_arg7) (funext fun a => Fin.ext ?_)
    match a with
    | ⟨0, _⟩ => show win1_2.index t (0 : Fin 2) * 64 + 1 * k.val = k.val; omega
    | ⟨1, _⟩ => show win1_2.index t (1 : Fin 2) * 64 + 1 * j.val = j.val; omega
  have hb : ∀ j : Fin 64, iblk1 V c 3 t (ix2 0 j) = V c main_v6 (ix2 0 j) := fun j => by
    show V c main_v6 (((cfg1.win 3).blk t).view.emb (ix2 0 j)) = _
    refine congrArg (V c main_v6) (funext fun a => Fin.ext ?_)
    match a with
    | ⟨0, _⟩ => show win1_3.index t (0 : Fin 2) * 1 + 1 * 0 = 0; omega
    | ⟨1, _⟩ => show win1_3.index t (1 : Fin 2) * 64 + 1 * j.val = j.val; omega
  have hg : ∀ (k : Fin 16) (j : Fin 64), iblk1 V c 4 t (ix2 k j) = V c main_v8 (ix2 k j) := fun k j => by
    show V c main_v8 (((cfg1.win 4).blk t).view.emb (ix2 k j)) = _
    refine congrArg (V c main_v8) (funext fun a => Fin.ext ?_)
    match a with
    | ⟨0, _⟩ => show win1_4.index t (0 : Fin 2) * 16 + 1 * k.val = k.val; omega
    | ⟨1, _⟩ => show win1_4.index t (1 : Fin 2) * 64 + 1 * j.val = j.val; omega
  have hq : ((((cfg1.win 5).blk t).view.emb (ix2 p q)) 1) = q := Fin.ext (by
    show win1_5.index t (1 : Fin 2) * 64 + 1 * q.val = q.val; omega)
  simp only [hx, hf, hw, hb, hg, hq]

/-- An index of the array is in point `t`'s block of window 5 iff each coordinate is in the block's range. -/
theorem mem_blk5 (t : Fin cfg1.N) (i : S2000000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v13).slice (win1_5.rect t)).set ↔ _
  rw [View.set_slice_whole, Rect.mem_set_unit]
  exact Iff.rfl

/-- Row `r` lies in the block of point `r / 10000`. -/
theorem cover5 (i : S2000000x64.Idx) : ∃ t : Fin cfg1.N, (cfg1.win 5).flush t = true ∧ i ∈ ((cfg1.win 5).blk t).view.set := by
  have hi0 : (i 0).val < 2000000 := (i 0).isLt
  have hi1 : (i 1).val < 64 := (i 1).isLt
  have hN : cfg1.N = 200 := N_1
  refine ⟨⟨(i 0).val / 10000, by rw [hN]; omega⟩, flush1_5 _, ?_⟩
  rw [mem_blk5]
  obtain ⟨e0, e1, e2, e3, e4, e5, e6, e7, e8, e9, e10, e11⟩ := idx_facts ⟨(i 0).val / 10000, by rw [hN]; omega⟩
  intro a
  match a with
  | ⟨0, _⟩ => show win1_5.index _ (0 : Fin 2) * 10000 ≤ (i 0).val ∧ (i 0).val < win1_5.index _ (0 : Fin 2) * 10000 + 10000; rw [e10]; show (i 0).val / 10000 * 10000 ≤ _ ∧ _ < (i 0).val / 10000 * 10000 + 10000; omega
  | ⟨1, _⟩ => show win1_5.index _ (1 : Fin 2) * 64 ≤ (i 1).val ∧ (i 1).val < win1_5.index _ (1 : Fin 2) * 64 + 64; rw [e11]; omega

/-- THE OUTPUT ARRAY after the region: the per-pair message, from the entry arrays. -/
theorem final5 (c : Dev nD) : (dat1 V c).arrAt 5 cfg1.N
    = Cert.Spec.MSG (xjArr V c) (fun p k => fArr V c (ix2 p k)) (fun k j => wjArr V c (ix2 k j)) (fun j => bjArr V c (ix2 0 j)) (fun k j => gtArr V c (ix2 k j)) :=
  (dat1 V c).arrAt_eq_of_cover 5 _ (fun t _ => flushed5_eq V c t) cover5

end Blocks

end Cert.KernelIdeal.Reg1

end
-- ==== Proof.KReg2Pay.lean ====
/-
  Region 2 (the atom post-kernel): the arithmetic of its stored value, read at an index of the ideal instance.

  On a block of 5000 rows the body forms v = x0 + x1, passes it through three residual layers
    v ↦ v + (sp(v · W1 + b1) · W2 + b2),
  takes the softplus of the result, multiplies by the output weight and adds the output bias. Every matrix
  product contracts the 64 columns of a row against a 64×64 matrix, so row r of the stored value depends only on
  row r of x0 and x1. A layer's weight comes as a 1×64×64 slab read as a matrix, its bias as a 1×1×64 slab read as
  a row that is repeated over all rows. Narrowing a matrix operand is the identity on extended reals.
-/
import proofs.«422381_j60120952209948_1_alg».proof.Proof.Gen.KernelIdeal.Frame
import proofs.«422381_j60120952209948_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg2

open Idealize.ShloMosaic Idealize.ShloMosaic.TcCoe Idealize.ShloMosaic.ValueIdx Cert.KernelIdeal Cert.KernelIdeal.Gen
open Cert.Spec (sp lin resid)

/-- a 1×64×64 slab as a matrix, a 1×1×64 slab as a row -/
abbrev slabW (w : Vec Ideal S1x64x64 .f32) : Fin 64 → Fin 64 → EReal := fun k j => w (ix3 0 k j)
abbrev slabB (b : Vec Ideal S1x1x64 .f32) : Fin 64 → EReal := fun j => b (ix3 0 0 j)

/-! ## The row-block product

Which operand entries meet at output `(r, j)` and contraction index `k`: `(r, k)` on the left, `(k, j)` on the
right. -/

theorem lhs_ax0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_ax1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_ax0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_ax1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Into the zero accumulator the product at `(r, j)` is the sum over the contracted axis. -/
theorem mm_apply {φ₁ φ₂ : FTy} (a : FVec Ideal S5000x64 φ₁) (b : FVec Ideal S64x64 φ₂) (r : Fin 5000) (j : Fin 64) :
    matmul dot_S5000x64_S64x64_S5000x64_1_0_0_1_n_n none a b (constant S5000x64 .f32 0x00000000#32) (ix2 r j)
      = ∑ k : Fin 64, a (ix2 r k) * b (ix2 k j) := by
  show FloatOps.matmul _ _ _ _ _ _ = _
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 r j) ((ValueIdx.contrEquiv1 dot_S5000x64_S64x64_S5000x64_1_0_0_1_n_n 64 rfl rfl).symm k) = ix2 r k := funext fun a => Fin.ext (by
    match a with
    | ⟨0, _⟩ => exact lhs_ax0 _ _
    | ⟨1, _⟩ => exact (lhs_ax1 _ _).trans hk)
  have er : dot_S5000x64_S64x64_S5000x64_1_0_0_1_n_n.rhsIdx (ix2 r j) ((ValueIdx.contrEquiv1 dot_S5000x64_S64x64_S5000x64_1_0_0_1_n_n 64 rfl rfl).symm k) = ix2 k j := funext fun a => Fin.ext (by
    match a with
    | ⟨0, _⟩ => exact (rhs_ax0 _ _).trans hk
    | ⟨1, _⟩ => exact rhs_ax1 _ _)
  rw [el, er]

/-! ## One residual layer at a row -/

/-- A residual layer on any block `v`, at `(r, j)`: row `r` of `v` through the layer, at column `j`. The guard of
    the softplus compares a value with itself, so its select keeps the second branch. -/
theorem layer_apply (v : FVec Ideal S5000x64 .f32) (w1 : Vec Ideal S1x64x64 .f32) (b1 : Vec Ideal S1x1x64 .f32)
    (w2 : Vec Ideal S1x64x64 .f32) (b2 : Vec Ideal S1x1x64 .f32) (r : Fin 5000) (j : Fin 64) :
    k2_pay3 (F := Ideal) v w1 b1 w2 b2 (ix2 r j)
      = resid (slabW w1) (slabB b1) (slabW w2) (slabB b2) (fun k => v (ix2 r k)) j := by
  unfold k2_pay3
  show v (ix2 r j) + (matmul (F := Ideal) _ _ _ _ _ (ix2 r j)
      + broadcastTo S5000x64 (shapeCast S1x64 b2 shapeCasts_S1x1x64_S1x64) broadcasts_S1x64_S5000x64 (ix2 r j)) = _
  rw [mm_apply, broadcastTo_1b_ab_apply, shapeCast_1ab_ab_apply]
  unfold Cert.Spec.resid Cert.Spec.lin
  refine congrArg (v (ix2 r j) + ·) (congrArg (· + _) (Finset.sum_congr rfl fun k _ => ?_))
  show Scalar.select (Ideal.cmp .one _ _) _ _ * shapeCast S64x64 w2 shapeCasts_S1x64x64_S64x64 (ix2 k j) = _
  rw [Cert.Spec.cmp_self_one, select_zero, shapeCast_1ab_ab_apply]
  refine congrArg (· * _) ((Cert.Spec.sp_of_zero_forms _).trans (congrArg sp ?_))
  show matmul (F := Ideal) _ _ _ _ _ (ix2 r k)
      + broadcastTo S5000x64 (shapeCast S1x64 b1 shapeCasts_S1x1x64_S1x64) broadcasts_S1x64_S5000x64 (ix2 r k) = _
  rw [mm_apply, broadcastTo_1b_ab_apply, shapeCast_1ab_ab_apply]
  refine congrArg (· + _) (Finset.sum_congr rfl fun m _ => ?_)
  show v (ix2 r m) * shapeCast S64x64 w1 shapeCasts_S1x64x64_S64x64 (ix2 m k) = _
  rw [shapeCast_1ab_ab_apply]

/-- Layer 0 acts on the sum of the two input blocks (each first cast to its own shape). -/
theorem pay2_apply (x0 x1 : Vec Ideal S5000x64 .f32) (w1 : Vec Ideal S1x64x64 .f32) (b1 : Vec Ideal S1x1x64 .f32)
    (w2 : Vec Ideal S1x64x64 .f32) (b2 : Vec Ideal S1x1x64 .f32) (r : Fin 5000) (j : Fin 64) :
    k2_pay2 (F := Ideal) x0 x1 w1 b1 w2 b2 (ix2 r j)
      = resid (slabW w1) (slabB b1) (slabW w2) (slabB b2) (fun k => x0 (ix2 r k) + x1 (ix2 r k)) j := by
  have h : k2_pay2 (F := Ideal) x0 x1 w1 b1 w2 b2
      = k2_pay3 (addf (shapeCast S5000x64 x0 shapeCasts_S5000x64_S5000x64) (shapeCast S5000x64 x1 shapeCasts_S5000x64_S5000x64))
          w1 b1 w2 b2 := rfl
  rw [h, layer_apply]
  refine congrArg (fun f => resid (slabW w1) (slabB b1) (slabW w2) (slabB b2) f j) (funext fun k => ?_)
  show shapeCast S5000x64 x0 shapeCasts_S5000x64_S5000x64 (ix2 r k) + shapeCast S5000x64 x1 shapeCasts_S5000x64_S5000x64 (ix2 r k) = _
  rw [shapeCast_self, shapeCast_self]

/-- Layer 2, the softplus after it and the output product, on any block `v` whose narrowed copy is the left
    operand of the first product. -/
theorem pay7_apply (v : FVec Ideal S5000x64 .f32) (w1 : Vec Ideal S1x64x64 .f32) (b1 : Vec Ideal S1x1x64 .f32)
    (w2 : Vec Ideal S1x64x64 .f32) (b2 : Vec Ideal S1x1x64 .f32) (wv : Vec Ideal S64x64 .f32) (r : Fin 5000) (j : Fin 64) :
    k2_pay7 (F := Ideal) v (k2_pay4 w1) (k2_pay5 b1) (truncf .bf16 v bitsLt_bf16_f32) w2 b2 wv (ix2 r j)
      = ∑ k : Fin 64, sp (resid (slabW w1) (slabB b1) (slabW w2) (slabB b2) (fun k => v (ix2 r k)) k) * wv (ix2 k j) := by
  unfold k2_pay7
  show matmul (F := Ideal) _ _ _ _ _ (ix2 r j) = _
  rw [mm_apply]
  refine Finset.sum_congr rfl fun k _ => ?_
  show Scalar.select (Ideal.cmp .one _ _) _ _ * wv (ix2 k j) = _
  rw [Cert.Spec.cmp_self_one, select_zero]
  refine congrArg (· * _) ((Cert.Spec.sp_of_zero_forms _).trans (congrArg sp ?_))
  exact layer_apply v w1 b1 w2 b2 r k

/-! ## The stored value -/

theorem out_pay_apply (x0 x1 : Vec Ideal S5000x64 .f32)
    (w1a : Vec Ideal S1x64x64 .f32) (b1a : Vec Ideal S1x1x64 .f32) (w2a : Vec Ideal S1x64x64 .f32) (b2a : Vec Ideal S1x1x64 .f32)
    (w1b : Vec Ideal S1x64x64 .f32) (b1b : Vec Ideal S1x1x64 .f32) (w2b : Vec Ideal S1x64x64 .f32) (b2b : Vec Ideal S1x1x64 .f32)
    (w1c : Vec Ideal S1x64x64 .f32) (b1c : Vec Ideal S1x1x64 .f32) (w2c : Vec Ideal S1x64x64 .f32) (b2c : Vec Ideal S1x1x64 .f32)
    (wv : Vec Ideal S64x64 .f32) (bv : Vec Ideal S1x64 .f32) (r : Fin 5000) (j : Fin 64) :
    k2_pay1 (F := Ideal)
      (k2_pay7 (k2_pay3 (k2_pay2 x0 x1 w1a b1a w2a b2a) w1b b1b w2b b2b) (k2_pay4 w1c) (k2_pay5 b1c)
        (k2_pay6 (k2_pay2 x0 x1 w1a b1a w2a b2a) w1b b1b w2b b2b) w2c b2c wv) bv (ix2 r j)
    = lin (fun k => sp (resid (slabW w1c) (slabB b1c) (slabW w2c) (slabB b2c)
          (resid (slabW w1b) (slabB b1b) (slabW w2b) (slabB b2b)
            (resid (slabW w1a) (slabB b1a) (slabW w2a) (slabB b2a) (fun k => x0 (ix2 r k) + x1 (ix2 r k)))) k))
        (fun k j => wv (ix2 k j)) (fun j => bv (ix2 0 j)) j := by
  unfold k2_pay1
  show k2_pay7 (F := Ideal) _ _ _ _ _ _ _ (ix2 r j)
      + broadcastTo S5000x64 (shapeCast S1x64 bv shapeCasts_S1x64_S1x64) broadcasts_S1x64_S5000x64 (ix2 r j) = _
  rw [shapeCast_self, broadcastTo_1b_ab_apply]
  unfold Cert.Spec.lin
  refine congrArg (· + _) ?_
  refine (pay7_apply (k2_pay3 (k2_pay2 x0 x1 w1a b1a w2a b2a) w1b b1b w2b b2b) w1c b1c w2c b2c wv r j).trans ?_
  refine Finset.sum_congr rfl fun k _ => congrArg (fun f => sp (resid (slabW w1c) (slabB b1c) (slabW w2c) (slabB b2c) f k) * wv (ix2 k j)) (funext fun m => ?_)
  rw [layer_apply]
  refine congrArg (fun f => resid (slabW w1b) (slabB b1b) (slabW w2b) (slabB b2b) f m) (funext fun n => ?_)
  exact pay2_apply x0 x1 w1a b1a w2a b2a r n

end Cert.KernelIdeal.Reg2

end
-- ==== Proof.KReg2.lean ====
/-
  Region 2 (the atom post-kernel) read as values at the ideal instance.

  Each grid point t stages rows 5000 t … 5000 t + 4999 of the two atom arrays (the receiving projection and the
  scattered message sum), the whole stacked weights and biases of the three residual layers, and the output
  projection's weight and bias; it writes the same rows of the output:
    v₀ = xip + summed,  v_{l+1} = v_l + (sp(v_l · W1_l + b1_l) · W2_l + b2_l)  (l = 0, 1, 2),  out = sp(v₃) · Wv + bv.
  Layer l of a stacked operand is its slab at leading coordinate l. A row of the output depends only on the same
  row of the two atom arrays, so the block a point writes back is the restriction of ONE whole-array function
  (Spec.OUT) to its rows; the twenty blocks tile the array.
  Everything is stated at a PARAMETER V, the buffer contents when the region is entered.
-/
import proofs.«422381_j60120952209948_1_alg».proof.Proof.Gen.KernelIdeal.Frame
import proofs.«422381_j60120952209948_1_alg».proof.Proof.Spec
import proofs.«422381_j60120952209948_1_alg».proof.Proof.KReg2Pay
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Reg2

open Idealize.ShloMosaic Idealize.ShloMosaic.TcCoe Idealize.ShloMosaic.ValueIdx Cert.KernelIdeal Cert.KernelIdeal.Gen
open Cert.Spec (sp lin resid)

/-! ## A load of one layer's slab out of a stacked operand

The rectangle of such a load has unit strides, extent one on the leading axis and the full extents on the others,
and starts at leading coordinate l: its local index (0, k, j) sits at (l, k, j) of the stacked operand. -/

theorem ldW_0 (x : Vec Ideal S3x64x64 .f32) (k j : Fin 64) : View.ld x r2_1 (ix3 0 k j) = x (ix3 0 k j) := by
  show x (r2_1.idx (ix3 0 k j)) = _
  refine congrArg x (funext fun a => Fin.ext ?_)
  match a with
  | ⟨0, _⟩ => rfl
  | ⟨1, _⟩ => show 0 + 1 * k.val = k.val; omega
  | ⟨2, _⟩ => show 0 + 1 * j.val = j.val; omega
theorem ldW_1 (x : Vec Ideal S3x64x64 .f32) (k j : Fin 64) : View.ld x r2_3 (ix3 0 k j) = x (ix3 1 k j) := by
  show x (r2_3.idx (ix3 0 k j)) = _
  refine congrArg x (funext fun a => Fin.ext ?_)
  match a with
  | ⟨0, _⟩ => rfl
  | ⟨1, _⟩ => show 0 + 1 * k.val = k.val; omega
  | ⟨2, _⟩ => show 0 + 1 * j.val = j.val; omega
theorem ldW_2 (x : Vec Ideal S3x64x64 .f32) (k j : Fin 64) : View.ld x r2_5 (ix3 0 k j) = x (ix3 2 k j) := by
  show x (r2_5.idx (ix3 0 k j)) = _
  refine congrArg x (funext fun a => Fin.ext ?_)
  match a with
  | ⟨0, _⟩ => rfl
  | ⟨1, _⟩ => show 0 + 1 * k.val = k.val; omega
  | ⟨2, _⟩ => show 0 + 1 * j.val = j.val; omega
theorem ldB_0 (x : Vec Ideal S3x1x64 .f32) (j : Fin 64) : View.ld x r2_2 (ix3 0 0 j) = x (ix3 0 0 j) := by
  show x (r2_2.idx (ix3 0 0 j)) = _
  refine congrArg x (funext fun a => Fin.ext ?_)
  match a with
  | ⟨0, _⟩ => rfl
  | ⟨1, _⟩ => rfl
  | ⟨2, _⟩ => show 0 + 1 * j.val = j.val; omega
theorem ldB_1 (x : Vec Ideal S3x1x64 .f32) (j : Fin 64) : View.ld x r2_4 (ix3 0 0 j) = x (ix3 1 0 j) := by
  show x (r2_4.idx (ix3 0 0 j)) = _
  refine congrArg x (funext fun a => Fin.ext ?_)
  match a with
  | ⟨0, _⟩ => rfl
  | ⟨1, _⟩ => rfl
  | ⟨2, _⟩ => show 0 + 1 * j.val = j.val; omega
theorem ldB_2 (x : Vec Ideal S3x1x64 .f32) (j : Fin 64) : View.ld x r2_6 (ix3 0 0 j) = x (ix3 2 0 j) := by
  show x (r2_6.idx (ix3 0 0 j)) = _
  refine congrArg x (funext fun a => Fin.ext ?_)
  match a with
  | ⟨0, _⟩ => rfl
  | ⟨1, _⟩ => rfl
  | ⟨2, _⟩ => show 0 + 1 * j.val = j.val; omega

/-! ## From blocks to the array -/

section Blocks
variable (V : (c : Dev nD) → (b : Ref sig .tc) → Buf (Elt Ideal) ((c : Thread nD τ).loc b))

theorem hz2 : (![0, 0] : Fin 2 → Nat) = fun _ => 0 := funext fun a => by fin_cases a <;> rfl

/-- The index maps over the grid: the two row-tiled inputs and the output move together, one block of 5000 rows
    per point; the stacked weights and biases and the projection's weight and bias stay at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 3) = 0 ∧ win2_2.index t (1 : Fin 3) = 0 ∧ win2_2.index t (2 : Fin 3) = 0
    ∧ win2_3.index t (0 : Fin 3) = 0 ∧ win2_3.index t (1 : Fin 3) = 0 ∧ win2_3.index t (2 : Fin 3) = 0
    ∧ win2_4.index t (0 : Fin 3) = 0 ∧ win2_4.index t (1 : Fin 3) = 0 ∧ win2_4.index t (2 : Fin 3) = 0
    ∧ win2_5.index t (0 : Fin 3) = 0 ∧ win2_5.index t (1 : Fin 3) = 0 ∧ win2_5.index t (2 : Fin 3) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- The region's entry arrays by their literal types. -/
abbrev xipArr (c : Dev nD) : Vec Ideal S100000x64 .f32 := V c main_v11_1
abbrev sumArr (c : Dev nD) : Vec Ideal S100000x64 .f32 := V c main_v16
abbrev w1Arr (c : Dev nD) : Vec Ideal S3x64x64 .f32 := V c main_arg9
abbrev b1Arr (c : Dev nD) : Vec Ideal S3x1x64 .f32 := V c main_v9
abbrev w2Arr (c : Dev nD) : Vec Ideal S3x64x64 .f32 := V c main_arg11
abbrev b2Arr (c : Dev nD) : Vec Ideal S3x1x64 .f32 := V c main_v10
abbrev wvArr (c : Dev nD) : Vec Ideal S64x64 .f32 := V c main_arg13
abbrev bvArr (c : Dev nD) : Vec Ideal S1x64 .f32 := V c main_v7

/-- What point t writes back through the output window is block t of the atom-level tail. -/
theorem flushed8_eq (c : Dev nD) (t : Fin cfg2.N) :
    (dat2 V c).flushed 8 t = ((cfg2.win 8).blk t).view.read (Elt Ideal)
      (Cert.Spec.OUT (xipArr V c) (sumArr V c) (fun l k j => w1Arr V c (ix3 l k j)) (fun l j => b1Arr V c (ix3 l 0 j))
        (fun l k j => w2Arr V c (ix3 l k j)) (fun l j => b2Arr V c (ix3 l 0 j)) (fun k j => wvArr V c (ix2 k j)) (fun j => bvArr V c (ix2 0 j))) := by
  show (cfg2.win 8).cut (grid2.coords t) ((dat2 V c).after 8 t) = _
  rw [after2_8]
  unfold out2_8
  rw [View.canon_unit_zero hz2]
  simp only [View.ld_unit_zero (S := S5000x64) hz2, View.ld_unit_zero (S := S64x64) hz2, View.ld_unit_zero (S := S1x64) hz2]
  obtain ⟨e00, e01, e10, e11, e20, e21, e22, e30, e31, e32, e40, e41, e42, e50, e51, e52, e60, e61, e70, e71, e80, e81⟩ := idx_facts t
  funext j
  obtain ⟨p, q, rfl⟩ : ∃ (p : Fin 5000) (q : Fin 64), j = ix2 p q := ⟨j 0, j 1, eq_ix2 j⟩
  refine (out_pay_apply (iblk2 V c 0 t) (iblk2 V c 1 t)
    (View.ld (iblk2 V c 2 t) r2_1) (View.ld (iblk2 V c 3 t) r2_2) (View.ld (iblk2 V c 4 t) r2_1) (View.ld (iblk2 V c 5 t) r2_2)
    (View.ld (iblk2 V c 2 t) r2_3) (View.ld (iblk2 V c 3 t) r2_4) (View.ld (iblk2 V c 4 t) r2_3) (View.ld (iblk2 V c 5 t) r2_4)
    (View.ld (iblk2 V c 2 t) r2_5) (View.ld (iblk2 V c 3 t) r2_6) (View.ld (iblk2 V c 4 t) r2_5) (View.ld (iblk2 V c 5 t) r2_6)
    (iblk2 V c 6 t) (iblk2 V c 7 t) p q).trans ?_
  have hread : ∀ G : Vec Ideal S100000x64 .f32, ((cfg2.win 8).blk t).view.read (Elt Ideal) G (ix2 p q) = G (((cfg2.win 8).blk t).view.emb (ix2 p q)) := fun G => rfl
  refine Eq.trans ?_ (hread _).symm
  unfold Cert.Spec.OUT Cert.Spec.resid3
  -- the block reads, each where the output's rectangle says
  have hx0 : ∀ k : Fin 64, iblk2 V c 0 t (ix2 p k) = V c main_v11_1 (ix2 ((((cfg2.win 8).blk t).view.emb (ix2 p q)) 0) k) := fun k => by
    show V c main_v11_1 (((cfg2.win 0).blk t).view.emb (ix2 p k)) = _
    refine congrArg (V c main_v11_1) (funext fun a => Fin.ext ?_)
    match a with
    | ⟨0, _⟩ => show win2_0.index t (0 : Fin 2) * 5000 + 1 * p.val = win2_8.index t (0 : Fin 2) * 5000 + 1 * p.val; omega
    | ⟨1, _⟩ => show win2_0.index t (1 : Fin 2) * 64 + 1 * k.val = k.val; omega
  have hx1 : ∀ k : Fin 64, iblk2 V c 1 t (ix2 p k) = V c main_v16 (ix2 ((((cfg2.win 8).blk t).view.emb (ix2 p q)) 0) k) := fun k => by
    show V c main_v16 (((cfg2.win 1).blk t).view.emb (ix2 p k)) = _
    refine congrArg (V c main_v16) (funext fun a => Fin.ext ?_)
    match a with
    | ⟨0, _⟩ => show win2_1.index t (0 : Fin 2) * 5000 + 1 * p.val = win2_8.index t (0 : Fin 2) * 5000 + 1 * p.val; omega
    | ⟨1, _⟩ => show win2_1.index t (1 : Fin 2) * 64 + 1 * k.val = k.val; omega
  have hb2 : ∀ i : S3x64x64.Idx, iblk2 V c 2 t i = V c main_arg9 i := fun i => by
    show V c main_arg9 (((cfg2.win 2).blk t).view.emb i) = _
    refine congrArg (V c main_arg9) (funext fun a => Fin.ext ?_)
    match a with
    | ⟨0, _⟩ => show win2_2.index t (0 : Fin 3) * 3 + 1 * (i 0).val = (i 0).val; omega
    | ⟨1, _⟩ => show win2_2.index t (1 : Fin 3) * 64 + 1 * (i 1).val = (i 1).val; omega
    | ⟨2, _⟩ => show win2_2.index t (2 : Fin 3) * 64 + 1 * (i 2).val = (i 2).val; omega
  have hb3 : ∀ i : S3x1x64.Idx, iblk2 V c 3 t i = V c main_v9 i := fun i => by
    show V c main_v9 (((cfg2.win 3).blk t).view.emb i) = _
    refine congrArg (V c main_v9) (funext fun a => Fin.ext ?_)
    match a with
    | ⟨0, _⟩ => show win2_3.index t (0 : Fin 3) * 3 + 1 * (i 0).val = (i 0).val; omega
    | ⟨1, _⟩ => show win2_3.index t (1 : Fin 3) * 1 + 1 * (i 1).val = (i 1).val; omega
    | ⟨2, _⟩ => show win2_3.index t (2 : Fin 3) * 64 + 1 * (i 2).val = (i 2).val; omega
  have hb4 : ∀ i : S3x64x64.Idx, iblk2 V c 4 t i = V c main_arg11 i := fun i => by
    show V c main_arg11 (((cfg2.win 4).blk t).view.emb i) = _
    refine congrArg (V c main_arg11) (funext fun a => Fin.ext ?_)
    match a with
    | ⟨0, _⟩ => show win2_4.index t (0 : Fin 3) * 3 + 1 * (i 0).val = (i 0).val; omega
    | ⟨1, _⟩ => show win2_4.index t (1 : Fin 3) * 64 + 1 * (i 1).val = (i 1).val; omega
    | ⟨2, _⟩ => show win2_4.index t (2 : Fin 3) * 64 + 1 * (i 2).val = (i 2).val; omega
  have hb5 : ∀ i : S3x1x64.Idx, iblk2 V c 5 t i = V c main_v10 i := fun i => by
    show V c main_v10 (((cfg2.win 5).blk t).view.emb i) = _
    refine congrArg (V c main_v10) (funext fun a => Fin.ext ?_)
    match a with
    | ⟨0, _⟩ => show win2_5.index t (0 : Fin 3) * 3 + 1 * (i 0).val = (i 0).val; omega
    | ⟨1, _⟩ => show win2_5.index t (1 : Fin 3) * 1 + 1 * (i 1).val = (i 1).val; omega
    | ⟨2, _⟩ => show win2_5.index t (2 : Fin 3) * 64 + 1 * (i 2).val = (i 2).val; omega
  have hb6 : ∀ k j : Fin 64, iblk2 V c 6 t (ix2 k j) = V c main_arg13 (ix2 k j) := fun k j => by
    show V c main_arg13 (((cfg2.win 6).blk t).view.emb (ix2 k j)) = _
    refine congrArg (V c main_arg13) (funext fun a => Fin.ext ?_)
    match a with
    | ⟨0, _⟩ => show win2_6.index t (0 : Fin 2) * 64 + 1 * k.val = k.val; omega
    | ⟨1, _⟩ => show win2_6.index t (1 : Fin 2) * 64 + 1 * j.val = j.val; omega
  have hb7 : ∀ j : Fin 64, iblk2 V c 7 t (ix2 0 j) = V c main_v7 (ix2 0 j) := fun j => by
    show V c main_v7 (((cfg2.win 7).blk t).view.emb (ix2 0 j)) = _
    refine congrArg (V c main_v7) (funext fun a => Fin.ext ?_)
    match a with
    | ⟨0, _⟩ => show win2_7.index t (0 : Fin 2) * 1 + 1 * 0 = 0; omega
    | ⟨1, _⟩ => show win2_7.index t (1 : Fin 2) * 64 + 1 * j.val = j.val; omega
  -- the three layers' slabs of each stacked operand
  have hW1a : slabW (View.ld (iblk2 V c 2 t) r2_1) = fun k j => V c main_arg9 (ix3 0 k j) :=
    funext fun k => funext fun j => (ldW_0 (iblk2 V c 2 t) k j).trans (hb2 _)
  have hW1b : slabW (View.ld (iblk2 V c 2 t) r2_3) = fun k j => V c main_arg9 (ix3 1 k j) :=
    funext fun k => funext fun j => (ldW_1 (iblk2 V c 2 t) k j).trans (hb2 _)
  have hW1c : slabW (View.ld (iblk2 V c 2 t) r2_5) = fun k j => V c main_arg9 (ix3 2 k j) :=
    funext fun k => funext fun j => (ldW_2 (iblk2 V c 2 t) k j).trans (hb2 _)
  have hW2a : slabW (View.ld (iblk2 V c 4 t) r2_1) = fun k j => V c main_arg11 (ix3 0 k j) :=
    funext fun k => funext fun j => (ldW_0 (iblk2 V c 4 t) k j).trans (hb4 _)
  have hW2b : slabW (View.ld (iblk2 V c 4 t) r2_3) = fun k j => V c main_arg11 (ix3 1 k j) :=
    funext fun k => funext fun j => (ldW_1 (iblk2 V c 4 t) k j).trans (hb4 _)
  have hW2c : slabW (View.ld (iblk2 V c 4 t) r2_5) = fun k j => V c main_arg11 (ix3 2 k j) :=
    funext fun k => funext fun j => (ldW_2 (iblk2 V c 4 t) k j).trans (hb4 _)
  have hB1a : slabB (View.ld (iblk2 V c 3 t) r2_2) = fun j => V c main_v9 (ix3 0 0 j) :=
    funext fun j => (ldB_0 (iblk2 V c 3 t) j).trans (hb3 _)
  have hB1b : slabB (View.ld (iblk2 V c 3 t) r2_4) = fun j => V c main_v9 (ix3 1 0 j) :=
    funext fun j => (ldB_1 (iblk2 V c 3 t) j).trans (hb3 _)
  have hB1c : slabB (View.ld (iblk2 V c 3 t) r2_6) = fun j => V c main_v9 (ix3 2 0 j) :=
    funext fun j => (ldB_2 (iblk2 V c 3 t) j).trans (hb3 _)
  have hB2a : slabB (View.ld (iblk2 V c 5 t) r2_2) = fun j => V c main_v10 (ix3 0 0 j) :=
    funext fun j => (ldB_0 (iblk2 V c 5 t) j).trans (hb5 _)
  have hB2b : slabB (View.ld (iblk2 V c 5 t) r2_4) = fun j => V c main_v10 (ix3 1 0 j) :=
    funext fun j => (ldB_1 (iblk2 V c 5 t) j).trans (hb5 _)
  have hB2c : slabB (View.ld (iblk2 V c 5 t) r2_6) = fun j => V c main_v10 (ix3 2 0 j) :=
    funext fun j => (ldB_2 (iblk2 V c 5 t) j).trans (hb5 _)
  have hq : ((((cfg2.win 8).blk t).view.emb (ix2 p q)) 1) = q := Fin.ext (by
    show win2_8.index t (1 : Fin 2) * 64 + 1 * q.val = q.val; omega)
  rw [hW1a, hW1b, hW1c, hW2a, hW2b, hW2c, hB1a, hB1b, hB1c, hB2a, hB2b, hB2c]
  simp only [hx0, hx1, hb6, hb7, hq]

/-- An index of the array is in point t's block of the output window iff each coordinate is in the block's range. -/
theorem mem_blk8 (t : Fin cfg2.N) (i : S100000x64.Idx) :
    i ∈ ((cfg2.win 8).blk t).view.set ↔ ∀ a : Fin 2, win2_8.index t a * S5000x64.size a ≤ (i a).val ∧ (i a).val < win2_8.index t a * S5000x64.size a + S5000x64.size a := by
  show i ∈ ((View.whole main_v17).slice (win2_8.rect t)).set ↔ _
  rw [View.set_slice_whole, Rect.mem_set_unit]
  exact Iff.rfl

/-- Row r lies in the block of point r / 5000. -/
theorem cover8 (i : S100000x64.Idx) : ∃ t : Fin cfg2.N, (cfg2.win 8).flush t = true ∧ i ∈ ((cfg2.win 8).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_8 _, ?_⟩
  rw [mem_blk8]
  obtain ⟨e00, e01, e10, e11, e20, e21, e22, e30, e31, e32, e40, e41, e42, e50, e51, e52, e60, e61, e70, e71, e80, e81⟩ := idx_facts ⟨(i 0).val / 5000, by rw [hN]; omega⟩
  intro a
  match a with
  | ⟨0, _⟩ => show win2_8.index _ (0 : Fin 2) * 5000 ≤ (i 0).val ∧ (i 0).val < win2_8.index _ (0 : Fin 2) * 5000 + 5000; rw [e80]; show (i 0).val / 5000 * 5000 ≤ _ ∧ _ < (i 0).val / 5000 * 5000 + 5000; omega
  | ⟨1, _⟩ => show win2_8.index _ (1 : Fin 2) * 64 ≤ (i 1).val ∧ (i 1).val < win2_8.index _ (1 : Fin 2) * 64 + 64; rw [e81]; omega

/-- THE OUTPUT ARRAY after the region: the atom-level tail of the two atom arrays and the weights as the region
    found them. -/
theorem final8 (c : Dev nD) : (dat2 V c).arrAt 8 cfg2.N
    = Cert.Spec.OUT (xipArr V c) (sumArr V c) (fun l k j => w1Arr V c (ix3 l k j)) (fun l j => b1Arr V c (ix3 l 0 j))
        (fun l k j => w2Arr V c (ix3 l k j)) (fun l j => b2Arr V c (ix3 l 0 j)) (fun k j => wvArr V c (ix2 k j)) (fun j => bvArr V c (ix2 0 j)) :=
  (dat2 V c).arrAt_eq_of_cover 8 _ (fun t _ => flushed8_eq V c t) cover8

end Blocks

end Cert.KernelIdeal.Reg2

end
-- ==== Proof.KHost.lean ====
/-
  The contents of each region's entry arrays, read back to the launch memory `m` and to the earlier regions' outputs.

  Between the regions the program only moves data: reshapes, two slices and a transpose before region 0, a row gather
  before region 1, a scatter-add into zeros before region 2. A buffer that a stretch does not write and that is no array
  of the region crossed keeps its contents, so each input of a region is either an argument as launched, a relayout of
  an argument (read here at an index), or an output array of an earlier region.
-/
import proofs.«422381_j60120952209948_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.HostVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-- A buffer that no operation of a host stretch writes has, after the stretch, the contents it had before. -/
local macro "host_keeps " ops:ident b:ident : tactic =>
  `(tactic| exact StableHlo.after_of_forall_not_mem (b := Proc.devRef .tc $b) _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Region 0's entry -/

theorem V1_ae (c : Dev nD) : V1 m ρ c main_arg3 = m ((c : Thread nD τ).loc main_arg3) := by
  show StableHlo.after hostOps0 (W0 m ρ c) (Proc.devRef .tc main_arg3) = _
  host_keeps hostOps0 main_arg3

theorem V1_wi (c : Dev nD) : V1 m ρ c main_arg5 = m ((c : Thread nD τ).loc main_arg5) := by
  show StableHlo.after hostOps0 (W0 m ρ c) (Proc.devRef .tc main_arg5) = _
  host_keeps hostOps0 main_arg5

/-- the reshapes of the first stretch, at the launch memory -/
theorem W1_v5 (c : Dev nD) : W1 m ρ c (Proc.devRef .tc main_v5) = shapeCast S1x64 (m ((c : Thread nD τ).loc main_arg6)) shapeCasts_S64_S1x64 := by
  show StableHlo.after hostOps0 (W0 m ρ c) (Proc.devRef .tc main_v5) = _
  after_results
  rfl
theorem W1_v6 (c : Dev nD) : W1 m ρ c (Proc.devRef .tc main_v6) = shapeCast S1x64 (m ((c : Thread nD τ).loc main_arg8)) shapeCasts_S64_S1x64 := by
  show StableHlo.after hostOps0 (W0 m ρ c) (Proc.devRef .tc main_v6) = _
  after_results
  rfl
theorem W1_v7 (c : Dev nD) : W1 m ρ c (Proc.devRef .tc main_v7) = shapeCast S1x64 (m ((c : Thread nD τ).loc main_arg14)) shapeCasts_S64_S1x64 := by
  show StableHlo.after hostOps0 (W0 m ρ c) (Proc.devRef .tc main_v7) = _
  after_results
  rfl
theorem W1_v4 (c : Dev nD) : W1 m ρ c (Proc.devRef .tc main_v4) = shapeCast S2000000x16 (m ((c : Thread nD τ).loc main_arg1)) shapeCasts_S2000000x1x16_S2000000x16 := by
  show StableHlo.after hostOps0 (W0 m ρ c) (Proc.devRef .tc main_v4) = _
  after_results
  rfl
theorem W1_v8 (c : Dev nD) : W1 m ρ c (Proc.devRef .tc main_v8) = transpose S16x64 [1, 0] (m ((c : Thread nD τ).loc main_arg4)) transposes_S64x16_S16x64_1_0 := by
  show StableHlo.after hostOps0 (W0 m ρ c) (Proc.devRef .tc main_v8) = _
  after_results
theorem W1_v9 (c : Dev nD) : W1 m ρ c (Proc.devRef .tc main_v9) = shapeCast S3x1x64 (m ((c : Thread nD τ).loc main_arg10)) shapeCasts_S3x64_S3x1x64 := by
  show StableHlo.after hostOps0 (W0 m ρ c) (Proc.devRef .tc main_v9) = _
  after_results
  rfl
theorem W1_v10 (c : Dev nD) : W1 m ρ c (Proc.devRef .tc main_v10) = shapeCast S3x1x64 (m ((c : Thread nD τ).loc main_arg12)) shapeCasts_S3x64_S3x1x64 := by
  show StableHlo.after hostOps0 (W0 m ρ c) (Proc.devRef .tc main_v10) = _
  after_results
  rfl
theorem W1_v1 (c : Dev nD) : W1 m ρ c (Proc.devRef .tc main_v1)
    = shapeCast S2000000 (extractStridedSlice S1x2000000 ![0, 0] (m ((c : Thread nD τ).loc main_arg0)) slices_S2x2000000_S1x2000000_0_0) shapeCasts_S1x2000000_S2000000 := by
  show StableHlo.after hostOps0 (W0 m ρ c) (Proc.devRef .tc main_v1) = _
  after_results
  rfl

theorem V1_bi (c : Dev nD) (j : Fin 64) : V1 m ρ c main_v5 (ix2 0 j) = m ((c : Thread nD τ).loc main_arg6) (ix1 j) := by
  show W1 m ρ c (Proc.devRef .tc main_v5) (ix2 0 j) = _
  rw [W1_v5]
  exact shapeCast_a_1a_apply (m ((c : Thread nD τ).loc main_arg6)) shapeCasts_S64_S1x64 0 j

/-! ## Region 0's outputs -/

theorem W2_x (c : Dev nD) : W2 m ρ c (Proc.devRef .tc main_v11_0) = (dat0 (V1 m ρ) c).arrAt 3 cfg0.N :=
  W2_arr m ρ c 3

/-! ## Region 1's entry: neither region 0 nor the gather's stretch writes these -/

theorem W3_v4 (c : Dev nD) : W3 m ρ c (Proc.devRef .tc main_v4) = W1 m ρ c (Proc.devRef .tc main_v4) :=
  calc W3 m ρ c (Proc.devRef .tc main_v4)
    _ = W2 m ρ c (Proc.devRef .tc main_v4) := by host_keeps hostOps1 main_v4
    _ = W1 m ρ c (Proc.devRef .tc main_v4) := W2_of_ne m ρ c main_v4 (by decide)
theorem W3_v6 (c : Dev nD) : W3 m ρ c (Proc.devRef .tc main_v6) = W1 m ρ c (Proc.devRef .tc main_v6) :=
  calc W3 m ρ c (Proc.devRef .tc main_v6)
    _ = W2 m ρ c (Proc.devRef .tc main_v6) := by host_keeps hostOps1 main_v6
    _ = W1 m ρ c (Proc.devRef .tc main_v6) := W2_of_ne m ρ c main_v6 (by decide)
theorem W3_v8 (c : Dev nD) : W3 m ρ c (Proc.devRef .tc main_v8) = W1 m ρ c (Proc.devRef .tc main_v8) :=
  calc W3 m ρ c (Proc.devRef .tc main_v8)
    _ = W2 m ρ c (Proc.devRef .tc main_v8) := by host_keeps hostOps1 main_v8
    _ = W1 m ρ c (Proc.devRef .tc main_v8) := W2_of_ne m ρ c main_v8 (by decide)

theorem V3_f (c : Dev nD) (p : Fin 2000000) (k : Fin 16) : V3 m ρ c main_v4 (ix2 p k) = m ((c : Thread nD τ).loc main_arg1) (ix3 p 0 k) := by
  show W3 m ρ c (Proc.devRef .tc main_v4) (ix2 p k) = _
  rw [W3_v4, W1_v4]
  refine shapeCast_apply (m ((c : Thread nD τ).loc main_arg1)) shapeCasts_S2000000x1x16_S2000000x16 (ix2 p k) (ix3 p 0 k) ?_
  show ((⟨3, ![2000000, 1, 16]⟩ : Shape).rowMajor (ix3 p 0 k)).val = ((⟨2, ![2000000, 16]⟩ : Shape).rowMajor (ix2 p k)).val
  rw [Shape.rowMajor_val_three, Shape.rowMajor_val_two]
  show (p.val * 1 + 0) * 16 + k.val = p.val * 16 + k.val
  omega

theorem V3_wj (c : Dev nD) : V3 m ρ c main_arg7 = m ((c : Thread nD τ).loc main_arg7) :=
  calc W3 m ρ c (Proc.devRef .tc main_arg7)
    _ = W2 m ρ c (Proc.devRef .tc main_arg7) := by host_keeps hostOps1 main_arg7
    _ = W1 m ρ c (Proc.devRef .tc main_arg7) := W2_of_ne m ρ c main_arg7 (by decide)
    _ = W0 m ρ c (Proc.devRef .tc main_arg7) := by host_keeps hostOps0 main_arg7
    _ = m ((c : Thread nD τ).loc main_arg7) := rfl

theorem V3_bj (c : Dev nD) (j : Fin 64) : V3 m ρ c main_v6 (ix2 0 j) = m ((c : Thread nD τ).loc main_arg8) (ix1 j) := by
  show W3 m ρ c (Proc.devRef .tc main_v6) (ix2 0 j) = _
  rw [W3_v6, W1_v6]
  exact shapeCast_a_1a_apply (m ((c : Thread nD τ).loc main_arg8)) shapeCasts_S64_S1x64 0 j

theorem V3_gt (c : Dev nD) (k : Fin 16) (j : Fin 64) : V3 m ρ c main_v8 (ix2 k j) = m ((c : Thread nD τ).loc main_arg4) (ix2 j k) := by
  show W3 m ρ c (Proc.devRef .tc main_v8) (ix2 k j) = _
  rw [W3_v8, W1_v8]
  exact transpose_ix2_apply (m ((c : Thread nD τ).loc main_arg4)) transposes_S64x16_S16x64_1_0 k j

/-! ## Region 2's entry -/

theorem V5_xip (c : Dev nD) : V5 m ρ c main_v11_1 = (dat0 (V1 m ρ) c).arrAt 4 cfg0.N :=
  calc W5 m ρ c (Proc.devRef .tc main_v11_1)
    _ = W4 m ρ c (Proc.devRef .tc main_v11_1) := by host_keeps hostOps2 main_v11_1
    _ = W3 m ρ c (Proc.devRef .tc main_v11_1) := W4_of_ne m ρ c main_v11_1 (by decide)
    _ = W2 m ρ c (Proc.devRef .tc main_v11_1) := by host_keeps hostOps1 main_v11_1
    _ = (dat0 (V1 m ρ) c).arrAt 4 cfg0.N := W2_arr m ρ c 4

theorem W4_v1 (c : Dev nD) : W4 m ρ c (Proc.devRef .tc main_v1) = W1 m ρ c (Proc.devRef .tc main_v1) :=
  calc W4 m ρ c (Proc.devRef .tc main_v1)
    _ = W3 m ρ c (Proc.devRef .tc main_v1) := W4_of_ne m ρ c main_v1 (by decide)
    _ = W2 m ρ c (Proc.devRef .tc main_v1) := by host_keeps hostOps1 main_v1
    _ = W1 m ρ c (Proc.devRef .tc main_v1) := W2_of_ne m ρ c main_v1 (by decide)

theorem W4_v13 (c : Dev nD) : W4 m ρ c (Proc.devRef .tc main_v13) = (dat1 (V3 m ρ) c).arrAt 5 cfg1.N :=
  W4_arr m ρ c 5

theorem V5_sum (c : Dev nD) : V5 m ρ c main_v16
    = Host.scatterAdd scatter_S100000x64_S2000000x1_S2000000x64_1_0_0_1
        (broadcastInDim S100000x64 ![] bcast_S_S100000x64 (constant (F := Ideal) S_ .f32 0x00000000#32))
        (broadcastInDim S2000000x1 ![0] bcast_S2000000_S2000000x1_0
          (shapeCast S2000000 (extractStridedSlice S1x2000000 ![0, 0] (m ((c : Thread nD τ).loc main_arg0)) slices_S2x2000000_S1x2000000_0_0) shapeCasts_S1x2000000_S2000000))
        ((dat1 (V3 m ρ) c).arrAt 5 cfg1.N) := by
  show StableHlo.after hostOps2 (W4 m ρ c) (Proc.devRef .tc main_v16) = _
  after_results
  rw [W4_v1, W1_v1, W4_v13]

/-- Region 2's other inputs: no stretch after the first writes them and they are no array of regions 0 and 1. -/
theorem W5_arg9 (c : Dev nD) : W5 m ρ c (Proc.devRef .tc main_arg9) = W1 m ρ c (Proc.devRef .tc main_arg9) :=
  calc W5 m ρ c (Proc.devRef .tc main_arg9)
    _ = W4 m ρ c (Proc.devRef .tc main_arg9) := by host_keeps hostOps2 main_arg9
    _ = W3 m ρ c (Proc.devRef .tc main_arg9) := W4_of_ne m ρ c main_arg9 (by decide)
    _ = W2 m ρ c (Proc.devRef .tc main_arg9) := by host_keeps hostOps1 main_arg9
    _ = W1 m ρ c (Proc.devRef .tc main_arg9) := W2_of_ne m ρ c main_arg9 (by decide)
theorem W5_arg11 (c : Dev nD) : W5 m ρ c (Proc.devRef .tc main_arg11) = W1 m ρ c (Proc.devRef .tc main_arg11) :=
  calc W5 m ρ c (Proc.devRef .tc main_arg11)
    _ = W4 m ρ c (Proc.devRef .tc main_arg11) := by host_keeps hostOps2 main_arg11
    _ = W3 m ρ c (Proc.devRef .tc main_arg11) := W4_of_ne m ρ c main_arg11 (by decide)
    _ = W2 m ρ c (Proc.devRef .tc main_arg11) := by host_keeps hostOps1 main_arg11
    _ = W1 m ρ c (Proc.devRef .tc main_arg11) := W2_of_ne m ρ c main_arg11 (by decide)
theorem W5_arg13 (c : Dev nD) : W5 m ρ c (Proc.devRef .tc main_arg13) = W1 m ρ c (Proc.devRef .tc main_arg13) :=
  calc W5 m ρ c (Proc.devRef .tc main_arg13)
    _ = W4 m ρ c (Proc.devRef .tc main_arg13) := by host_keeps hostOps2 main_arg13
    _ = W3 m ρ c (Proc.devRef .tc main_arg13) := W4_of_ne m ρ c main_arg13 (by decide)
    _ = W2 m ρ c (Proc.devRef .tc main_arg13) := by host_keeps hostOps1 main_arg13
    _ = W1 m ρ c (Proc.devRef .tc main_arg13) := W2_of_ne m ρ c main_arg13 (by decide)
theorem W5_v9 (c : Dev nD) : W5 m ρ c (Proc.devRef .tc main_v9) = W1 m ρ c (Proc.devRef .tc main_v9) :=
  calc W5 m ρ c (Proc.devRef .tc main_v9)
    _ = W4 m ρ c (Proc.devRef .tc main_v9) := by host_keeps hostOps2 main_v9
    _ = W3 m ρ c (Proc.devRef .tc main_v9) := W4_of_ne m ρ c main_v9 (by decide)
    _ = W2 m ρ c (Proc.devRef .tc main_v9) := by host_keeps hostOps1 main_v9
    _ = W1 m ρ c (Proc.devRef .tc main_v9) := W2_of_ne m ρ c main_v9 (by decide)
theorem W5_v10 (c : Dev nD) : W5 m ρ c (Proc.devRef .tc main_v10) = W1 m ρ c (Proc.devRef .tc main_v10) :=
  calc W5 m ρ c (Proc.devRef .tc main_v10)
    _ = W4 m ρ c (Proc.devRef .tc main_v10) := by host_keeps hostOps2 main_v10
    _ = W3 m ρ c (Proc.devRef .tc main_v10) := W4_of_ne m ρ c main_v10 (by decide)
    _ = W2 m ρ c (Proc.devRef .tc main_v10) := by host_keeps hostOps1 main_v10
    _ = W1 m ρ c (Proc.devRef .tc main_v10) := W2_of_ne m ρ c main_v10 (by decide)
theorem W5_v7 (c : Dev nD) : W5 m ρ c (Proc.devRef .tc main_v7) = W1 m ρ c (Proc.devRef .tc main_v7) :=
  calc W5 m ρ c (Proc.devRef .tc main_v7)
    _ = W4 m ρ c (Proc.devRef .tc main_v7) := by host_keeps hostOps2 main_v7
    _ = W3 m ρ c (Proc.devRef .tc main_v7) := W4_of_ne m ρ c main_v7 (by decide)
    _ = W2 m ρ c (Proc.devRef .tc main_v7) := by host_keeps hostOps1 main_v7
    _ = W1 m ρ c (Proc.devRef .tc main_v7) := W2_of_ne m ρ c main_v7 (by decide)

theorem V5_w1 (c : Dev nD) : V5 m ρ c main_arg9 = m ((c : Thread nD τ).loc main_arg9) :=
  (W5_arg9 m ρ c).trans (by
    show StableHlo.after hostOps0 (W0 m ρ c) (Proc.devRef .tc main_arg9) = _
    host_keeps hostOps0 main_arg9)
theorem V5_w2 (c : Dev nD) : V5 m ρ c main_arg11 = m ((c : Thread nD τ).loc main_arg11) :=
  (W5_arg11 m ρ c).trans (by
    show StableHlo.after hostOps0 (W0 m ρ c) (Proc.devRef .tc main_arg11) = _
    host_keeps hostOps0 main_arg11)
theorem V5_wv (c : Dev nD) : V5 m ρ c main_arg13 = m ((c : Thread nD τ).loc main_arg13) :=
  (W5_arg13 m ρ c).trans (by
    show StableHlo.after hostOps0 (W0 m ρ c) (Proc.devRef .tc main_arg13) = _
    host_keeps hostOps0 main_arg13)

/-- A 3×64 array cast to 3×1×64 reads, at (l, 0, j), the operand at (l, j). -/
theorem cast_3x64_apply (x : Vec Ideal S3x64 .f32) (l : Fin 3) (j : Fin 64) :
    shapeCast S3x1x64 x shapeCasts_S3x64_S3x1x64 (ix3 l 0 j) = x (ix2 l j) := by
  refine shapeCast_apply x shapeCasts_S3x64_S3x1x64 (ix3 l 0 j) (ix2 l j) ?_
  show ((⟨2, ![3, 64]⟩ : Shape).rowMajor (ix2 l j)).val = ((⟨3, ![3, 1, 64]⟩ : Shape).rowMajor (ix3 l 0 j)).val
  rw [Shape.rowMajor_val_three, Shape.rowMajor_val_two]
  show l.val * 64 + j.val = (l.val * 1 + 0) * 64 + j.val
  omega

theorem V5_b1 (c : Dev nD) (l : Fin 3) (j : Fin 64) : V5 m ρ c main_v9 (ix3 l 0 j) = m ((c : Thread nD τ).loc main_arg10) (ix2 l j) := by
  show W5 m ρ c (Proc.devRef .tc main_v9) (ix3 l 0 j) = _
  rw [W5_v9, W1_v9]
  exact cast_3x64_apply (m ((c : Thread nD τ).loc main_arg10)) l j
theorem V5_b2 (c : Dev nD) (l : Fin 3) (j : Fin 64) : V5 m ρ c main_v10 (ix3 l 0 j) = m ((c : Thread nD τ).loc main_arg12) (ix2 l j) := by
  show W5 m ρ c (Proc.devRef .tc main_v10) (ix3 l 0 j) = _
  rw [W5_v10, W1_v10]
  exact cast_3x64_apply (m ((c : Thread nD τ).loc main_arg12)) l j
theorem V5_bv (c : Dev nD) (j : Fin 64) : V5 m ρ c main_v7 (ix2 0 j) = m ((c : Thread nD τ).loc main_arg14) (ix1 j) := by
  show W5 m ρ c (Proc.devRef .tc main_v7) (ix2 0 j) = _
  rw [W5_v7, W1_v7]
  exact shapeCast_a_1a_apply (m ((c : Thread nD τ).loc main_arg14)) shapeCasts_S64_S1x64 0 j

end Cert.KernelIdeal.HostVal

end
-- ==== Proof.KTake.lean ====
/-
  The row gather before region 1, read as a value.

  The program gathers rows of a 100000-row table at a column of indices, in "fill" mode: a negative index is first
  moved up by 100000; the gathered row is then kept only where the moved index lies in [0, 99999], and replaced by a
  fill value elsewhere.  When every index lies in [-100000, 100000) the moved index always lies in [0, 99999], so the
  test passes everywhere and the result is the plain gather at the moved indices.
-/
import proofs.«422381_j60120952209948_1_alg».proof.Proof.Gen.KernelIdeal.Frame
import Idealize.ShloMosaic.Lib.Pipeline.Value
import Idealize.ShloMosaic.Lib.ValueIdx
import Idealize.ShloMosaic.Lib.ValueLayout
import Idealize.ShloMosaic.Lib.StableHlo.Run

set_option maxRecDepth 16384
noncomputable section
namespace Cert.KernelIdeal.Take
open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (ρ : Dev nD → PrngReg)

/-! Contents written at the value's type and read back from the buffer: the two transports cancel, and at a literal
    reference each is the identity. -/
theorem ofBuf_toBuf {T : BufTy} (x : StableHlo.TRef sig T) (v : T.Contents (Elt Ideal)) : x.ofBuf (x.toBuf v) = v := by
  obtain ⟨r, h, a, b⟩ := x
  subst h
  rfl
theorem ofBuf_v3 (h1 h2 h3) (v : (main_v3 : Ref sig .tc).ty.Contents (Elt Ideal)) :
    (StableHlo.TRef.of (T := ⟨S2000000, .i32⟩) main_v3 h1 h2 h3).ofBuf v = v := rfl
theorem ofBuf_v11_0 (h1 h2 h3) (v : (main_v11_0 : Ref sig .tc).ty.Contents (Elt Ideal)) :
    (StableHlo.TRef.of (T := ⟨S100000x64, .f32⟩) main_v11_0 h1 h2 h3).ofBuf v = v := rfl
theorem toBuf_v12 (h1 h2 h3) (v : (⟨S2000000x64, .f32⟩ : BufTy).Contents (Elt Ideal)) :
    (StableHlo.TRef.of (T := ⟨S2000000x64, .f32⟩) main_v12 h1 h2 h3).toBuf v = v := rfl

/-- row 1 of the pair table, as the 2000000-vector the program makes of it (a slice and a reshape) -/
abbrev idxj (c : Dev nD) : IVec S2000000 32 :=
  shapeCast S2000000 (extractStridedSlice S1x2000000 ![1, 0] (m ((c : Thread nD τ).loc main_arg0)) slices_S2x2000000_S1x2000000_1_0) shapeCasts_S1x2000000_S2000000
/-- the wrapped index column both programs gather with -/
abbrev wrapped (c : Dev nD) : IVec S2000000x1 32 :=
  broadcastInDim S2000000x1 ![0] bcast_S2000000_S2000000x1_0
    (select (cmpi .slt (idxj m c) (broadcastInDim S2000000 ![] bcast_S_S2000000 (constantI S_ 32 0#32)))
      (addi (idxj m c) (broadcastInDim S2000000 ![] bcast_S_S2000000 (constantI S_ 32 100000#32))) (idxj m c))

/-- A vector of signed words, each negative one moved up by 100000, laid out as a column. -/
abbrev wrapOf (x : IVec S2000000 32) : IVec S2000000x1 32 :=
  broadcastInDim S2000000x1 ![0] bcast_S2000000_S2000000x1_0
    (select (cmpi .slt x (broadcastInDim S2000000 ![] bcast_S_S2000000 (constantI S_ 32 0#32)))
      (addi x (broadcastInDim S2000000 ![] bcast_S_S2000000 (constantI S_ 32 100000#32))) x)

/-- The in-bounds test of a column of words: "0 ≤ w ≤ 99999" (signed), folded with `and` along the unit axis from 1. -/
abbrev inBounds (w : IVec S2000000x1 32) : IVec S2000000 1 :=
  Host.reduce IntOp.andi
    (andi (cmpi .sge w (broadcastInDim S2000000x1 ![] bcast_S_S2000000x1 (constantI S_ 32 0#32)))
      (cmpi .sle w (broadcastInDim S2000000x1 ![0, 1] bcast_S1x1_S2000000x1_0_1
        (broadcastInDim S1x1 ![1] bcast_S1_S1x1_1 (constantI S1 32 99999#32)))))
    (constantI S_ 1 1#1) reducesTo_S2000000x1_S2000000_d1 h_S_

set_option maxHeartbeats 1000000 in
/-- What the host stretch before region 1 leaves in the gathered array: the gather, kept where the wrapped index is in
    bounds and replaced by a fill value elsewhere. -/
theorem V3_v12_raw (c : Dev nD) :
    V3 m ρ c main_v12
      = select (broadcastInDim S2000000x64 ![0] bcast_S2000000_S2000000x64_0
            (inBounds (wrapOf (W2 m ρ c (Proc.devRef .tc main_v3) : IVec S2000000 32))))
          (Host.gather gather_S100000x64_S2000000x1_S2000000x64_1_0_n_n_0_1_164 (W2 m ρ c (Proc.devRef .tc main_v11_0))
            (wrapOf (W2 m ρ c (Proc.devRef .tc main_v3) : IVec S2000000 32)))
          (broadcastInDim S2000000x64 ![] bcast_S_S2000000x64 (constant (F := Ideal) S_ .f32 0x7FC00000#32)) := by
  show StableHlo.after hostOps1 (W2 m ρ c) (Proc.devRef .tc main_v12) = _
  after_results_simp
  simp only [ofBuf_toBuf, ofBuf_v3, ofBuf_v11_0, toBuf_v12]

/-- The index vector the gather reads is row 1 of the table: region 0 does not write it, and the stretch before region 0
    makes it from the launch contents of the table. -/
theorem W2_v3 (c : Dev nD) : (W2 m ρ c (Proc.devRef .tc main_v3) : IVec S2000000 32) = idxj m c := by
  rw [W2_of_ne m ρ c main_v3 (by decide)]
  show StableHlo.after hostOps0 (W0 m ρ c) (Proc.devRef .tc main_v3) = _
  after_results
  rfl

/-! ## The in-bounds test is true everywhere when the indices are in [-100000, 100000) -/

/-- Row 1 of the table, flattened, reads at `p` the table at `(1, p)`. -/
theorem idxj_apply (c : Dev nD) (p : Fin 2000000) :
    idxj m c (ix1 p) = (m ((c : Thread nD τ).loc main_arg0) : IVec S2x2000000 32) (ix2 1 p) := by
  show shapeCast _ _ _ (ix1 p) = _
  rw [shapeCast_1a_a_apply]
  exact slice2_axis0_apply 1 _ _ (0 : Fin 1) p (1 : Fin 2) rfl

/-- One word: a signed word in [-100000, 100000), moved up by 100000 when negative, lands in [0, 99999]. In the negative
    case the sum of the two signed values lies in [0, 100000), far from the 32-bit wrap, so the word sum is that sum. -/
theorem wrap_word_range (v : BitVec 32) (h1 : -100000 ≤ v.toInt) (h2 : v.toInt < 100000) :
    (0#32 : BitVec 32).toInt ≤ (Scalar.select (IntOp.cmpi .slt v 0#32) (IntOp.addi v 100000#32) v).toInt
      ∧ (Scalar.select (IntOp.cmpi .slt v 0#32) (IntOp.addi v 100000#32) v).toInt ≤ (99999#32 : BitVec 32).toInt := by
  have z0 : (0#32 : BitVec 32).toInt = 0 := by decide
  have z1 : (100000#32 : BitVec 32).toInt = 100000 := by decide
  have z2 : (99999#32 : BitVec 32).toInt = 99999 := by decide
  rw [z0, z2]
  rcases BitVec.eq_zero_or_eq_one (IntOp.cmpi .slt v 0#32) with hc | hc
  · have hn : ¬ v.toInt < 0 := fun hlt => by
      have := IntOp.cmpi_slt.2 (show v.toInt < (0#32 : BitVec 32).toInt by rw [z0]; exact hlt)
      rw [hc] at this
      exact absurd this (by decide)
    rw [hc, select_zero]
    omega
  · have hlt : v.toInt < 0 := by
      have := IntOp.cmpi_slt.1 hc
      rwa [z0] at this
    rw [hc, select_one]
    show 0 ≤ (v + 100000#32).toInt ∧ (v + 100000#32).toInt ≤ 99999
    rw [BitVec.toInt_add, z1]
    have e : (v.toInt + 100000).bmod (2 ^ 32) = v.toInt + 100000 := by
      have hm : ((2 ^ 32 : Nat) : Int) = 4294967296 := rfl
      simp only [Int.bmod, hm]
      split <;> omega
    rw [e]
    omega

/-- The wrapped column at row `p` is the word of `wrap_word_range` for the `p`-th index. -/
theorem wrapOf_apply (x : IVec S2000000 32) (p : Fin 2000000) (q : Fin 1) :
    wrapOf x (ix2 p q) = Scalar.select (IntOp.cmpi .slt (x (ix1 p)) 0#32) (IntOp.addi (x (ix1 p)) 100000#32) (x (ix1 p)) := by
  show broadcastInDim _ _ _ _ (ix2 p q) = _
  rw [broadcastInDim_apply _ _ _ (ix2 p q) (ix1 p) (fun a => by
    match a with
    | ⟨0, _⟩ => rfl)]
  rfl

/-- A fold by `and` from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- The in-bounds test at every position, for indices in range. -/
theorem inBounds_ones (x : IVec S2000000 32)
    (hx : ∀ p : Fin 2000000, -100000 ≤ (x (ix1 p)).toInt ∧ (x (ix1 p)).toInt < 100000) (j : S2000000.Idx) :
    inBounds (wrapOf x) j = 1#1 := by
  have hall : ∀ i : S2000000x1.Idx,
      andi (cmpi .sge (wrapOf x) (broadcastInDim S2000000x1 ![] bcast_S_S2000000x1 (constantI S_ 32 0#32)))
        (cmpi .sle (wrapOf x) (broadcastInDim S2000000x1 ![0, 1] bcast_S1x1_S2000000x1_0_1
          (broadcastInDim S1x1 ![1] bcast_S1_S1x1_1 (constantI S1 32 99999#32)))) i = 1#1 := fun i => by
    rw [eq_ix2 i]
    obtain ⟨h1, h2⟩ := hx (i 0)
    obtain ⟨hlo, hhi⟩ := wrap_word_range (x (ix1 (i 0))) h1 h2
    rw [← wrapOf_apply x (i 0) (i 1)] at hlo hhi
    exact IntOp.andi_eq_one.2 ⟨IntOp.cmpi_sge.2 hlo, IntOp.cmpi_sle.2 hhi⟩
  show Host.reduce IntOp.andi _ _ _ _ j = 1#1
  unfold Host.reduce
  exact foldl_andi_ones _ (fun n => hall _) _

/-- The gathered rows that region 1 reads: with every index in range the in-bounds test passes everywhere, so the
    fill is never taken and the array is the gather at the wrapped indices. -/
theorem V3_xj (c : Dev nD)
    (hr : ∀ p : Fin 2000000, -100000 ≤ ((m ((c : Thread nD τ).loc main_arg0) : IVec S2x2000000 32) (ix2 1 p)).toInt ∧ ((m ((c : Thread nD τ).loc main_arg0) : IVec S2x2000000 32) (ix2 1 p)).toInt < 100000) :
    V3 m ρ c main_v12 = Host.gather gather_S100000x64_S2000000x1_S2000000x64_1_0_n_n_0_1_164 (W2 m ρ c (Proc.devRef .tc main_v11_0)) (wrapped m c) := by
  rw [V3_v12_raw, W2_v3]
  funext i
  have hmask : broadcastInDim S2000000x64 ![0] bcast_S2000000_S2000000x64_0 (inBounds (wrapOf (idxj m c))) i = 1#1 :=
    inBounds_ones (idxj m c) (fun p => by rw [idxj_apply]; exact hr p) _
  rw [select_apply, hmask, select_one]

end Cert.KernelIdeal.Take
-- ==== Proof.PreIdx.lean ====
import proofs.«422381_j60120952209948_1_alg».proof.Pre_finite_inputs
import Idealize.ShloMosaic.Lib.Pipeline.Value
import Idealize.ShloMosaic.Lib.ValueIdx
import Idealize.ShloMosaic.Lib.ValueLayout
import Idealize.ShloMosaic.Lib.ReduceAll
import Idealize.ShloMosaic.Lib.StableHlo.Predicate

/-!
  The precondition is one long conjunction of rank-0 truth values.  Its last two conjuncts speak of
  row 1 of the integer pair table: every entry is at least -100000 (signed), and every entry is below
  100000 (signed).  Here the conjunction being true is turned into those two inequalities at each
  position of the row.
-/

namespace Cert.Pre_finite_inputs.Decode
open Idealize.ShloMosaic Idealize.ShloMosaic.ValueIdx Cert.Pre_finite_inputs

variable [Facts]

/-- The empty shape has exactly one index. -/
instance subsingleton_rank0_idx : Subsingleton S_.Idx := ⟨fun a b => funext fun d => d.elim0⟩

/-- Row 1 of the table, cut out as a one-row matrix and flattened, reads at `p` the table at `(1, p)`. -/
theorem row1_apply (a0 : IVec S2x2000000 32) (p : Fin 2000000) :
    shapeCast S2000000 ((extractStridedSlice S1x2000000 ![1, 0] · Facts.slices_S2x2000000_S1x2000000_1_0) a0)
        Facts.shapeCasts_S1x2000000_S2000000 (ix1 p) = a0 (ix2 1 p) := by
  rw [shapeCast_1a_a_apply]
  exact slice2_axis0_apply 1 a0 _ (0 : Fin 1) p (1 : Fin 2) rfl

/-- A rank-0 word spread over the row reads that word everywhere. -/
theorem spread_apply (c : BitVec 32) (j : S2000000.Idx) :
    broadcastInDim S2000000 ![] Facts.bcast_S_S2000000 (constantI S_ 32 c) j = c := by
  unfold broadcastInDim
  rfl

/-- The two signed values of the bounds. -/
theorem lo_toInt : (4294867296#32 : BitVec 32).toInt = -100000 := by decide
theorem hi_toInt : (100000#32 : BitVec 32).toInt = 100000 := by decide

/-- The tail of the conjunction: if it is true, then so are its two last conjuncts, and each of those, a conjunction
    over the whole row of a signed comparison with a constant, gives the comparison at every position. -/
theorem part4_range (a0 : IVec S2x2000000 32) (c d : IVec S_ 1)
    (h : fn_part4 (F := Ideal) a0 c d ix0 = 1#1) (p : Fin 2000000) :
    -100000 ≤ (a0 (ix2 1 p)).toInt ∧ (a0 (ix2 1 p)).toInt < 100000 := by
  unfold fn_part4 at h
  dsimp only at h
  obtain ⟨h1, hlt⟩ := IntOp.andi_eq_one.1 h
  obtain ⟨_, hge⟩ := IntOp.andi_eq_one.1 h1
  have hge' := IntOp.cmpi_sge.1 (Host.reduce_andi_all _ _ _ _ _ hge (ix1 p))
  have hlt' := IntOp.cmpi_slt.1 (Host.reduce_andi_all _ _ _ _ _ hlt (ix1 p))
  rw [row1_apply, spread_apply] at hge' hlt'
  rw [lo_toInt] at hge'
  rw [hi_toInt] at hlt'
  exact ⟨hge', hlt'⟩

/-- Under the precondition every neighbour index (row 1 of the pair table) lies in [-100000, 100000). -/
theorem idxj_range (a0 : IVec S2x2000000 32) (a1 : FVec Ideal S2000000x1x16 .f32) (a2 : FVec Ideal S2000000x1 .f32) (a3 : FVec Ideal S100000x64 .f32) (a4 : FVec Ideal S64x16 .f32) (a5 : FVec Ideal S64x64 .f32) (a6 : FVec Ideal S64 .f32) (a7 : FVec Ideal S64x64 .f32) (a8 : FVec Ideal S64 .f32) (a9 : FVec Ideal S3x64x64 .f32) (a10 : FVec Ideal S3x64 .f32) (a11 : FVec Ideal S3x64x64 .f32) (a12 : FVec Ideal S3x64 .f32) (a13 : FVec Ideal S64x64 .f32) (a14 : FVec Ideal S64 .f32)
    (h : fn (F := Ideal) a0 a1 a2 a3 a4 a5 a6 a7 a8 a9 a10 a11 a12 a13 a14 = fun _ => 1#1) (p : Fin 2000000) :
    -100000 ≤ (a0 (ix2 1 p)).toInt ∧ (a0 (ix2 1 p)).toInt < 100000 := by
  have h0 := congrFun h ix0
  unfold fn fn_part1 fn_part2 fn_part3 at h0
  exact part4_range a0 _ _ h0 p

end Cert.Pre_finite_inputs.Decode
-- ==== Proof.RefA.lean ====
/-
  The first half of the reference program, read stage by stage at an index against the specification.

    %5  = softplus(ae)                        %7  = %5 - ln2                 (= Spec.X ae)
    %8  = %7 · Wi      %11 = %8 + bi          %12 = softplus(%11)            (= Spec.XIP)
    %19 = the gathered rows of %7 (kept as it is)
    %20 = %19 · Wj     %23 = %20 + bj         %24 = softplus(%23)
    %26 = f · Gᵀ       (f the radial basis seen as pair × basis, Gᵀ the filter matrix transposed)
    %27 = %24 * %26                                                          (= Spec.MSG on the rows %19)

  Each product of a row with a matrix is the plain sum over the contracted axis; a bias is broadcast along the rows, so at
  `(r, j)` it is its entry `j`; the reshape of `f` and the transpose of `G` only rename indices.
-/
import proofs.«422381_j60120952209948_1_alg».proof.Proof.RefRead
import proofs.«422381_j60120952209948_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages
open Idealize.ShloMosaic Idealize.ShloMosaic.TcCoe Idealize.ShloMosaic.ValueIdx Cert.ReferenceIdeal Cert.ReferenceIdeal.ReadP
open Cert.Spec (sp ln2 lin)

/-! ## The softplus as the host program spells it, at an index

With `d = v - 0`, the program selects on `d ≠ d` between `v + 0` and `max v 0 + log1p (exp (-|d|))`. No extended real
differs from itself, so the second branch is the value; the zeros are three broadcasts of the same literal. -/

theorem host_sp_apply {s : Shape} (v z0 z1 z2 : FVec Ideal s .f32)
    (h0 : ∀ i, z0 i = Ideal.ofBits .f32 0x00000000#32) (h1 : ∀ i, z1 i = Ideal.ofBits .f32 0x00000000#32) (i : s.Idx) :
    select (cmpf .une (subf v z1) (subf v z1)) (addf v z2)
        (addf (maximumf v z0) (Host.log1p (Host.exp (Host.negf (Host.absf (subf v z1)))))) i = sp (v i) := by
  show Scalar.select (Ideal.cmp .une _ _) _ _ = _
  rw [Cert.Spec.cmp_self_une, select_zero]
  show max (v i) (z0 i) + Ideal.log1p (Ideal.exp (-(max (v i - z1 i) (-(v i - z1 i))))) = _
  rw [h0, h1]
  exact Cert.Spec.sp_of_neg_forms (v i)

/-! ## %5, %7: the shifted softplus of the embedding -/

/-- %5 at an index: the softplus of the embedding's entry. -/
theorem v5_apply (x3 : (⟨S100000x64, .f32⟩ : BufTy).Contents (Elt Ideal)) (i : S100000x64.Idx) :
    val_main_v5 (F := Ideal) x3 i = sp (x3 i) :=
  host_sp_apply x3 (val_main_call0_v0 (F := Ideal)) (val_main_call0_v2 (F := Ideal)) (val_main_call0_v5 (F := Ideal))
    (fun j => (val_main_call0_v0_apply j).trans (val_main_call0_cst_apply _))
    (fun j => (val_main_call0_v2_apply j).trans (val_main_call0_cst_apply _)) i

/-- %7: the shifted softplus of the embedding (x3 = atomic_embedding). -/
theorem stage_x (x3 : (⟨S100000x64, .f32⟩ : BufTy).Contents (Elt Ideal)) : val_main_v7 (F := Ideal) x3 = Cert.Spec.X x3 := by
  funext i
  show val_main_v5 (F := Ideal) x3 i - val_main_v6 (F := Ideal) i = sp (x3 i) - ln2
  rw [v5_apply, val_main_v6_apply, val_main_cst_apply]
  rfl

/-! ## %8 … %12: the receiving atom's projection -/

/-- The two operand positions a row-by-matrix product meets at output `i` and contraction index `k`. -/
theorem lidx8_eq (i : S100000x64.Idx) (k : Fin 64) : lidx_main_v8 i k = ix2 (i 0) k :=
  funext fun a => Fin.ext (by match a with | ⟨0, _⟩ => rfl | ⟨1, _⟩ => rfl)
theorem ridx8_eq (i : S100000x64.Idx) (k : Fin 64) : ridx_main_v8 i k = ix2 k (i 1) :=
  funext fun a => Fin.ext (by match a with | ⟨0, _⟩ => rfl | ⟨1, _⟩ => rfl)
/-- The bias, broadcast to a row and then to every row, read at `i` is its entry at column `i 1`. -/
theorem bidx10_eq (i : S100000x64.Idx) : idx_main_v9 (idx_main_v10 i) = ix1 (i 1) :=
  funext fun a => Fin.ext (by match a with | ⟨0, _⟩ => rfl)

/-- %11 at an index: row `i 0` of the shifted embedding against column `i 1` of the weight, plus the bias. -/
theorem v11_apply (x3 : (⟨S100000x64, .f32⟩ : BufTy).Contents (Elt Ideal)) (x5 : (⟨S64x64, .f32⟩ : BufTy).Contents (Elt Ideal)) (x6 : (⟨S64, .f32⟩ : BufTy).Contents (Elt Ideal)) (i : S100000x64.Idx) :
    val_main_v11 (F := Ideal) x3 x5 x6 i
      = lin (fun k => Cert.Spec.X x3 (ix2 (i 0) k)) (fun k j => x5 (ix2 k j)) (fun j => x6 (ix1 j)) (i 1) := by
  show val_main_v8 (F := Ideal) x3 x5 i + val_main_v10 (F := Ideal) x6 i = _
  rw [val_main_v8_apply, val_main_v10_apply, val_main_v9_apply, stage_x, bidx10_eq]
  unfold Cert.Spec.lin
  refine congrArg (· + _) (Finset.sum_congr rfl fun k _ => ?_)
  rw [lidx8_eq, ridx8_eq]
  rfl

/-- %12: the receiving atom's projection (x5 = Wi, x6 = bi). -/
theorem stage_xip (x3 : (⟨S100000x64, .f32⟩ : BufTy).Contents (Elt Ideal)) (x5 : (⟨S64x64, .f32⟩ : BufTy).Contents (Elt Ideal)) (x6 : (⟨S64, .f32⟩ : BufTy).Contents (Elt Ideal)) :
    val_main_v12 (F := Ideal) x3 x5 x6 = Cert.Spec.XIP (Cert.Spec.X x3) (fun k j => x5 (ix2 k j)) (fun j => x6 (ix1 j)) := by
  funext i
  have h : val_main_v12 (F := Ideal) x3 x5 x6 i = sp (val_main_v11 (F := Ideal) x3 x5 x6 i) :=
    host_sp_apply (val_main_v11 (F := Ideal) x3 x5 x6) (val_main_call1_v0 (F := Ideal)) (val_main_call1_v2 (F := Ideal)) (val_main_call1_v5 (F := Ideal))
      (fun j => (val_main_call1_v0_apply j).trans (val_main_call1_cst_apply _))
      (fun j => (val_main_call1_v2_apply j).trans (val_main_call1_cst_apply _)) i
  rw [h, v11_apply]
  rfl

/-! ## %20 … %27: the per-pair message from the gathered rows -/

theorem lidx20_eq (i : S2000000x64.Idx) (k : Fin 64) : lidx_main_v20 i k = ix2 (i 0) k :=
  funext fun a => Fin.ext (by match a with | ⟨0, _⟩ => rfl | ⟨1, _⟩ => rfl)
theorem ridx20_eq (i : S2000000x64.Idx) (k : Fin 64) : ridx_main_v20 i k = ix2 k (i 1) :=
  funext fun a => Fin.ext (by match a with | ⟨0, _⟩ => rfl | ⟨1, _⟩ => rfl)
theorem bidx22_eq (i : S2000000x64.Idx) : idx_main_v21 (idx_main_v22 i) = ix1 (i 1) :=
  funext fun a => Fin.ext (by match a with | ⟨0, _⟩ => rfl)

/-- %23 at an index: row `i 0` of the gathered rows against column `i 1` of the weight, plus the bias. -/
theorem v23_apply (x0 : (⟨S2x2000000, .i32⟩ : BufTy).Contents (Elt Ideal)) (x3 : (⟨S100000x64, .f32⟩ : BufTy).Contents (Elt Ideal)) (x7 : (⟨S64x64, .f32⟩ : BufTy).Contents (Elt Ideal)) (x8 : (⟨S64, .f32⟩ : BufTy).Contents (Elt Ideal)) (i : S2000000x64.Idx) :
    val_main_v23 (F := Ideal) x0 x3 x7 x8 i
      = lin (fun k => val_main_v19 (F := Ideal) x0 x3 (ix2 (i 0) k)) (fun k j => x7 (ix2 k j)) (fun j => x8 (ix1 j)) (i 1) := by
  show val_main_v20 (F := Ideal) x0 x3 x7 i + val_main_v22 (F := Ideal) x8 i = _
  rw [val_main_v20_apply, val_main_v22_apply, val_main_v21_apply, bidx22_eq]
  unfold Cert.Spec.lin
  refine congrArg (· + _) (Finset.sum_congr rfl fun k _ => ?_)
  rw [lidx20_eq, ridx20_eq]
  rfl

/-- The radial basis read through the reshape: entry `(p, k)` of the 2000000×16 view is entry `(p, 0, k)` of the argument. -/
theorem fidx_eq (i : S2000000x64.Idx) (k : Fin 16) : idx_main_v4 (lidx_main_v26 i k) = ix3 (i 0) 0 k := by
  have hk : k.val < 16 := k.isLt
  funext a
  apply Fin.ext
  match a with
  | ⟨0, _⟩ => show ((i 0).val * 16 + k.val) / 16 = (i 0).val; omega
  | ⟨1, _⟩ => rfl
  | ⟨2, _⟩ => show ((i 0).val * 16 + k.val) % 16 = k.val; omega
/-- The filter matrix read through the transpose: entry `(k, j)` of the 16×64 view is entry `(j, k)` of the argument. -/
theorem gidx_eq (i : S2000000x64.Idx) (k : Fin 16) : idx_main_v25 (ridx_main_v26 i k) = ix2 (i 1) k :=
  funext fun a => Fin.ext (by match a with | ⟨0, _⟩ => rfl | ⟨1, _⟩ => rfl)

/-- %26 at an index: the pair's radial basis against the filter matrix's row for that feature. -/
theorem v26_apply (x1 : (⟨S2000000x1x16, .f32⟩ : BufTy).Contents (Elt Ideal)) (x4 : (⟨S64x16, .f32⟩ : BufTy).Contents (Elt Ideal)) (i : S2000000x64.Idx) :
    val_main_v26 (F := Ideal) x1 x4 i = ∑ k : Fin 16, x1 (ix3 (i 0) 0 k) * x4 (ix2 (i 1) k) := by
  rw [val_main_v26_apply]
  refine Finset.sum_congr rfl fun k _ => ?_
  rw [val_main_v4_apply, val_main_v25_apply, fidx_eq, gidx_eq]
  rfl

/-- %27: the per-pair message from the gathered rows %19 (x0 = pair_indices, x1 = f_ij, x4 = G, x7 = Wj, x8 = bj). The gather %19 is left as it is. -/
theorem stage_msg (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x7 : (⟨S64x64, .f32⟩ : BufTy).Contents (Elt Ideal)) (x8 : (⟨S64, .f32⟩ : BufTy).Contents (Elt Ideal)) :
    val_main_v27 (F := Ideal) x0 x1 x3 x4 x7 x8
      = Cert.Spec.MSG (val_main_v19 (F := Ideal) x0 x3) (fun p k => x1 (ix3 p 0 k)) (fun k j => x7 (ix2 k j)) (fun j => x8 (ix1 j)) (fun k j => x4 (ix2 j k)) := by
  funext i
  have h : val_main_v24 (F := Ideal) x0 x3 x7 x8 i = sp (val_main_v23 (F := Ideal) x0 x3 x7 x8 i) :=
    host_sp_apply (val_main_v23 (F := Ideal) x0 x3 x7 x8) (val_main_call2_v0 (F := Ideal)) (val_main_call2_v2 (F := Ideal)) (val_main_call2_v5 (F := Ideal))
      (fun j => (val_main_call2_v0_apply j).trans (val_main_call2_cst_apply _))
      (fun j => (val_main_call2_v2_apply j).trans (val_main_call2_cst_apply _)) i
  show val_main_v24 (F := Ideal) x0 x3 x7 x8 i * val_main_v26 (F := Ideal) x1 x4 i = _
  rw [h, v23_apply, v26_apply]
  rfl

end Cert.ReferenceIdeal.Stages

end
-- ==== Proof.RefB.lean ====
/-
  The atom-level tail of the reference program read against the specification.

  From v₀ = xip + summed (the sum of the receiving projection and the scatter-added messages, both kept as they are)
  the program applies three residual layers  v ↦ v + (sp(v · W1_l + b1_l) · W2_l + b2_l),  l = 0, 1, 2,  each with its
  own slice of the stacked weights, then a softplus and the output projection  sp(v₃) · Wv + bv.  Every step reads at
  an index from its operands at an index: a slice of a stack followed by a reshape is the stack at (l, k, j); a bias
  row broadcast along the rows is the stack at (l, j); a row-by-matrix product is the plain sum over the contracted
  axis; the softplus is the one the specification names, because a compare of a value with itself is false on the
  extended reals. Chaining the reads gives `Spec.OUT`.
-/
import proofs.«422381_j60120952209948_1_alg».proof.Proof.RefRead
import proofs.«422381_j60120952209948_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.Stages
open Idealize.ShloMosaic Idealize.ShloMosaic.TcCoe Idealize.ShloMosaic.ValueIdx Cert.ReferenceIdeal Cert.ReferenceIdeal.ReadP
open Cert.ReferenceIdeal.Gen
open Cert.Spec (sp lin resid resid3)

/-! ## Three facts that do not depend on the program

The softplus as the host spells it, one row-by-matrix product, and one residual layer stated about values that are
only known through how they read at an index. -/

/-- The host's softplus at an index. The three zero operands are broadcasts of the zero literal; the guard compares
    `v - 0` with itself, which is false on the extended reals, so the select keeps `max v 0 + log1p (exp (-|v - 0|))`. -/
theorem host_softplus_apply {s : Shape} (v z0 z1 z2 : FVec Ideal s .f32)
    (h0 : ∀ i, z0 i = Ideal.ofBits .f32 0x00000000#32) (h1 : ∀ i, z1 i = Ideal.ofBits .f32 0x00000000#32) (i : s.Idx) :
    select (cmpf .une (subf v z1) (subf v z1)) (addf v z2)
      (addf (maximumf v z0) (Host.log1p (Host.exp (Host.negf (Host.absf (subf v z1)))))) i = sp (v i) := by
  show Scalar.select (Ideal.cmp .une (v i - z1 i) (v i - z1 i)) _ _ = _
  rw [Cert.Spec.cmp_self_une, select_zero]
  show max (v i) (z0 i) + Ideal.log1p (Ideal.exp (-(max (v i - z1 i) (-(v i - z1 i))))) = _
  rw [h0, h1]
  exact Cert.Spec.sp_of_neg_forms (v i)

/-! The product of a 100000×64 array with a 64×64 matrix: at output `(r, j)` and contraction index `k` the operands are
    read at `(r, k)` and `(k, j)`. -/

theorem dot_lhs_0 (i : S100000x64.Idx) (q : dot_S100000x64_S64x64_S100000x64_1_0_0_1_n_n.contr.Idx) :
    (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem dot_lhs_1 (i : S100000x64.Idx) (q : dot_S100000x64_S64x64_S100000x64_1_0_0_1_n_n.contr.Idx) :
    (dot_S100000x64_S64x64_S100000x64_1_0_0_1_n_n.lhsIdx i q 1).val = (q ⟨0, by decide⟩).val :=
  dot_S100000x64_S64x64_S100000x64_1_0_0_1_n_n.lhsIdx_val_of_single rfl i q
theorem dot_rhs_0 (i : S100000x64.Idx) (q : dot_S100000x64_S64x64_S100000x64_1_0_0_1_n_n.contr.Idx) :
    (dot_S100000x64_S64x64_S100000x64_1_0_0_1_n_n.rhsIdx i q 0).val = (q ⟨0, by decide⟩).val :=
  dot_S100000x64_S64x64_S100000x64_1_0_0_1_n_n.rhsIdx_val_of_single rfl i q
theorem dot_rhs_1 (i : S100000x64.Idx) (q : dot_S100000x64_S64x64_S100000x64_1_0_0_1_n_n.contr.Idx) :
    (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl

/-- The host product at `(r, j)` is the plain sum over the contracted axis. -/
theorem dot_rows_apply (a : FVec Ideal S100000x64 .f32) (b : FVec Ideal S64x64 .f32) (r : Fin 100000) (j : Fin 64) :
    Host.dotGeneral dot_S100000x64_S64x64_S100000x64_1_0_0_1_n_n none a b (ix2 r j)
      = ∑ k : Fin 64, a (ix2 r k) * b (ix2 k j) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r j) ((ValueIdx.contrEquiv1 dot_S100000x64_S64x64_S100000x64_1_0_0_1_n_n 64 rfl rfl).symm k) = ix2 r k := funext fun a => Fin.ext (by
    match a with
    | ⟨0, _⟩ => exact dot_lhs_0 _ _
    | ⟨1, _⟩ => exact (dot_lhs_1 _ _).trans hk)
  have er : dot_S100000x64_S64x64_S100000x64_1_0_0_1_n_n.rhsIdx (ix2 r j) ((ValueIdx.contrEquiv1 dot_S100000x64_S64x64_S100000x64_1_0_0_1_n_n 64 rfl rfl).symm k) = ix2 k j := funext fun a => Fin.ext (by
    match a with
    | ⟨0, _⟩ => exact (dot_rhs_0 _ _).trans hk
    | ⟨1, _⟩ => exact dot_rhs_1 _ _)
  rw [el, er]

/-- One residual layer from its reads. `h` is the first product, `a` adds the first bias, `s` is the softplus, `o` the second
    product; the weights and biases are only known through how they read (`W1s (k, j) = W1 k j`, a bias constant along
    rows). Then `v + (o + b2s)` at `(r, j)` is the specification's layer on row `r` of `v`. -/
theorem resid_of_reads (v h a s o b1s b2s : Cert.Spec.A2 100000 64) (W1s W2s : Cert.Spec.A2 64 64)
    (W1 W2 : Fin 64 → Fin 64 → EReal) (b1 b2 : Fin 64 → EReal)
    (hh : ∀ (r : Fin 100000) (j : Fin 64), h (ix2 r j) = ∑ k : Fin 64, v (ix2 r k) * W1s (ix2 k j))
    (ha : ∀ i, a i = h i + b1s i)
    (hs : ∀ i, s i = sp (a i))
    (ho : ∀ (r : Fin 100000) (j : Fin 64), o (ix2 r j) = ∑ k : Fin 64, s (ix2 r k) * W2s (ix2 k j))
    (hW1 : ∀ k j : Fin 64, W1s (ix2 k j) = W1 k j) (hb1 : ∀ (r : Fin 100000) (j : Fin 64), b1s (ix2 r j) = b1 j)
    (hW2 : ∀ k j : Fin 64, W2s (ix2 k j) = W2 k j) (hb2 : ∀ (r : Fin 100000) (j : Fin 64), b2s (ix2 r j) = b2 j)
    (r : Fin 100000) (j : Fin 64) :
    v (ix2 r j) + (o (ix2 r j) + b2s (ix2 r j)) = resid W1 b1 W2 b2 (fun k => v (ix2 r k)) j := by
  unfold Cert.Spec.resid Cert.Spec.lin
  rw [ho, hb2]
  refine congrArg (v (ix2 r j) + ·) (congrArg (· + b2 j) (Finset.sum_congr rfl fun k _ => ?_))
  rw [hs, ha, hh, hb1, hW2]
  refine congrArg (fun t => sp (t + b1 k) * W2 k j) (Finset.sum_congr rfl fun k' _ => ?_)
  rw [hW1]

/-! ## The program's pieces at an index

Each softplus call broadcasts the zero literal three times; every such broadcast reads as the zero literal. -/
theorem zero_call3_0 (i : S100000x64.Idx) : val_main_call3_v0 (F := Ideal) i = Ideal.ofBits .f32 0x00000000#32 :=
  (val_main_call3_v0_apply i).trans rfl
theorem zero_call3_2 (i : S100000x64.Idx) : val_main_call3_v2 (F := Ideal) i = Ideal.ofBits .f32 0x00000000#32 :=
  (val_main_call3_v2_apply i).trans rfl
theorem zero_call4_0 (i : S100000x64.Idx) : val_main_call4_v0 (F := Ideal) i = Ideal.ofBits .f32 0x00000000#32 :=
  (val_main_call4_v0_apply i).trans rfl
theorem zero_call4_2 (i : S100000x64.Idx) : val_main_call4_v2 (F := Ideal) i = Ideal.ofBits .f32 0x00000000#32 :=
  (val_main_call4_v2_apply i).trans rfl
theorem zero_call5_0 (i : S100000x64.Idx) : val_main_call5_v0 (F := Ideal) i = Ideal.ofBits .f32 0x00000000#32 :=
  (val_main_call5_v0_apply i).trans rfl
theorem zero_call5_2 (i : S100000x64.Idx) : val_main_call5_v2 (F := Ideal) i = Ideal.ofBits .f32 0x00000000#32 :=
  (val_main_call5_v2_apply i).trans rfl
theorem zero_call6_0 (i : S100000x64.Idx) : val_main_call6_v0 (F := Ideal) i = Ideal.ofBits .f32 0x00000000#32 :=
  (val_main_call6_v0_apply i).trans rfl
theorem zero_call6_2 (i : S100000x64.Idx) : val_main_call6_v2 (F := Ideal) i = Ideal.ofBits .f32 0x00000000#32 :=
  (val_main_call6_v2_apply i).trans rfl

/-- %40 is the softplus of %39, pointwise. -/
theorem sp_v40 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (i : S100000x64.Idx) :
    val_main_v40 (F := Ideal) x0 x1 x3 x4 x5 x6 x7 x8 x9 x10 i = sp (val_main_v39 (F := Ideal) x0 x1 x3 x4 x5 x6 x7 x8 x9 x10 i) :=
  host_softplus_apply (val_main_v39 (F := Ideal) x0 x1 x3 x4 x5 x6 x7 x8 x9 x10) (val_main_call3_v0 (F := Ideal)) (val_main_call3_v2 (F := Ideal)) (val_main_call3_v5 (F := Ideal)) zero_call3_0 zero_call3_2 i
/-- %58 is the softplus of %57, pointwise. -/
theorem sp_v58 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (i : S100000x64.Idx) :
    val_main_v58 (F := Ideal) x0 x1 x3 x4 x5 x6 x7 x8 x9 x10 x11 x12 i = sp (val_main_v57 (F := Ideal) x0 x1 x3 x4 x5 x6 x7 x8 x9 x10 x11 x12 i) :=
  host_softplus_apply (val_main_v57 (F := Ideal) x0 x1 x3 x4 x5 x6 x7 x8 x9 x10 x11 x12) (val_main_call4_v0 (F := Ideal)) (val_main_call4_v2 (F := Ideal)) (val_main_call4_v5 (F := Ideal)) zero_call4_0 zero_call4_2 i
/-- %76 is the softplus of %75, pointwise. -/
theorem sp_v76 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (i : S100000x64.Idx) :
    val_main_v76 (F := Ideal) x0 x1 x3 x4 x5 x6 x7 x8 x9 x10 x11 x12 i = sp (val_main_v75 (F := Ideal) x0 x1 x3 x4 x5 x6 x7 x8 x9 x10 x11 x12 i) :=
  host_softplus_apply (val_main_v75 (F := Ideal) x0 x1 x3 x4 x5 x6 x7 x8 x9 x10 x11 x12) (val_main_call5_v0 (F := Ideal)) (val_main_call5_v2 (F := Ideal)) (val_main_call5_v5 (F := Ideal)) zero_call5_0 zero_call5_2 i
/-- %86 is the softplus of %85, pointwise. -/
theorem sp_v86 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (i : S100000x64.Idx) :
    val_main_v86 (F := Ideal) x0 x1 x3 x4 x5 x6 x7 x8 x9 x10 x11 x12 i = sp (val_main_v85 (F := Ideal) x0 x1 x3 x4 x5 x6 x7 x8 x9 x10 x11 x12 i) :=
  host_softplus_apply (val_main_v85 (F := Ideal) x0 x1 x3 x4 x5 x6 x7 x8 x9 x10 x11 x12) (val_main_call6_v0 (F := Ideal)) (val_main_call6_v2 (F := Ideal)) (val_main_call6_v5 (F := Ideal)) zero_call6_0 zero_call6_2 i

/-! A slice of a stacked weight followed by the reshape that drops the unit axis reads at `(k, j)` as the stack at
    `(l, k, j)`; a sliced bias row, reshaped and broadcast along the rows, reads at `(r, j)` as the stack at `(l, j)`. -/
theorem w_v33 (x9 : (⟨S3x64x64, .f32⟩ : BufTy).Contents (Elt Ideal)) (k j : Fin 64) : val_main_v33 (F := Ideal) x9 (ix2 k j) = x9 (ix3 0 k j) := by
  have hk := k.isLt
  have hj := j.isLt
  rw [val_main_v33_apply, val_main_v32_apply]
  refine congrArg x9 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega
theorem b_v38 (x10 : (⟨S3x64, .f32⟩ : BufTy).Contents (Elt Ideal)) (r : Fin 100000) (j : Fin 64) : val_main_v38 (F := Ideal) x10 (ix2 r j) = x10 (ix2 0 j) := by
  have hj := j.isLt
  rw [val_main_v38_apply, val_main_v37_apply, val_main_v36_apply, val_main_v35_apply]
  refine congrArg x10 (funext fun a => Fin.ext ?_)
  match a with
  | ⟨0, _⟩ => rfl
  | ⟨1, _⟩ => show j.val % 64 = j.val; omega
theorem w_v42 (x11 : (⟨S3x64x64, .f32⟩ : BufTy).Contents (Elt Ideal)) (k j : Fin 64) : val_main_v42 (F := Ideal) x11 (ix2 k j) = x11 (ix3 0 k j) := by
  have hk := k.isLt
  have hj := j.isLt
  rw [val_main_v42_apply, val_main_v41_apply]
  refine congrArg x11 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega
theorem b_v47 (x12 : (⟨S3x64, .f32⟩ : BufTy).Contents (Elt Ideal)) (r : Fin 100000) (j : Fin 64) : val_main_v47 (F := Ideal) x12 (ix2 r j) = x12 (ix2 0 j) := by
  have hj := j.isLt
  rw [val_main_v47_apply, val_main_v46_apply, val_main_v45_apply, val_main_v44_apply]
  refine congrArg x12 (funext fun a => Fin.ext ?_)
  match a with
  | ⟨0, _⟩ => rfl
  | ⟨1, _⟩ => show j.val % 64 = j.val; omega
theorem w_v51 (x9 : (⟨S3x64x64, .f32⟩ : BufTy).Contents (Elt Ideal)) (k j : Fin 64) : val_main_v51 (F := Ideal) x9 (ix2 k j) = x9 (ix3 1 k j) := by
  have hk := k.isLt
  have hj := j.isLt
  rw [val_main_v51_apply, val_main_v50_apply]
  refine congrArg x9 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega
theorem b_v56 (x10 : (⟨S3x64, .f32⟩ : BufTy).Contents (Elt Ideal)) (r : Fin 100000) (j : Fin 64) : val_main_v56 (F := Ideal) x10 (ix2 r j) = x10 (ix2 1 j) := by
  have hj := j.isLt
  rw [val_main_v56_apply, val_main_v55_apply, val_main_v54_apply, val_main_v53_apply]
  refine congrArg x10 (funext fun a => Fin.ext ?_)
  match a with
  | ⟨0, _⟩ => rfl
  | ⟨1, _⟩ => show j.val % 64 = j.val; omega
theorem w_v60 (x11 : (⟨S3x64x64, .f32⟩ : BufTy).Contents (Elt Ideal)) (k j : Fin 64) : val_main_v60 (F := Ideal) x11 (ix2 k j) = x11 (ix3 1 k j) := by
  have hk := k.isLt
  have hj := j.isLt
  rw [val_main_v60_apply, val_main_v59_apply]
  refine congrArg x11 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega
theorem b_v65 (x12 : (⟨S3x64, .f32⟩ : BufTy).Contents (Elt Ideal)) (r : Fin 100000) (j : Fin 64) : val_main_v65 (F := Ideal) x12 (ix2 r j) = x12 (ix2 1 j) := by
  have hj := j.isLt
  rw [val_main_v65_apply, val_main_v64_apply, val_main_v63_apply, val_main_v62_apply]
  refine congrArg x12 (funext fun a => Fin.ext ?_)
  match a with
  | ⟨0, _⟩ => rfl
  | ⟨1, _⟩ => show j.val % 64 = j.val; omega
theorem w_v69 (x9 : (⟨S3x64x64, .f32⟩ : BufTy).Contents (Elt Ideal)) (k j : Fin 64) : val_main_v69 (F := Ideal) x9 (ix2 k j) = x9 (ix3 2 k j) := by
  have hk := k.isLt
  have hj := j.isLt
  rw [val_main_v69_apply, val_main_v68_apply]
  refine congrArg x9 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega
theorem b_v74 (x10 : (⟨S3x64, .f32⟩ : BufTy).Contents (Elt Ideal)) (r : Fin 100000) (j : Fin 64) : val_main_v74 (F := Ideal) x10 (ix2 r j) = x10 (ix2 2 j) := by
  have hj := j.isLt
  rw [val_main_v74_apply, val_main_v73_apply, val_main_v72_apply, val_main_v71_apply]
  refine congrArg x10 (funext fun a => Fin.ext ?_)
  match a with
  | ⟨0, _⟩ => rfl
  | ⟨1, _⟩ => show j.val % 64 = j.val; omega
theorem w_v78 (x11 : (⟨S3x64x64, .f32⟩ : BufTy).Contents (Elt Ideal)) (k j : Fin 64) : val_main_v78 (F := Ideal) x11 (ix2 k j) = x11 (ix3 2 k j) := by
  have hk := k.isLt
  have hj := j.isLt
  rw [val_main_v78_apply, val_main_v77_apply]
  refine congrArg x11 (funext fun a => Fin.ext ?_)
  match a with
  | ⟨0, _⟩ => rfl
  | ⟨1, _⟩ => show (k.val * 64 + j.val) / 64 % 64 = k.val; omega
  | ⟨2, _⟩ => show (k.val * 64 + j.val) % 64 = j.val; omega
theorem b_v83 (x12 : (⟨S3x64, .f32⟩ : BufTy).Contents (Elt Ideal)) (r : Fin 100000) (j : Fin 64) : val_main_v83 (F := Ideal) x12 (ix2 r j) = x12 (ix2 2 j) := by
  have hj := j.isLt
  rw [val_main_v83_apply, val_main_v82_apply, val_main_v81_apply, val_main_v80_apply]
  refine congrArg x12 (funext fun a => Fin.ext ?_)
  match a with
  | ⟨0, _⟩ => rfl
  | ⟨1, _⟩ => show j.val % 64 = j.val; omega
theorem b_v89 (x14 : (⟨S64, .f32⟩ : BufTy).Contents (Elt Ideal)) (r : Fin 100000) (j : Fin 64) : val_main_v89 (F := Ideal) x14 (ix2 r j) = x14 (ix1 j) := by
  rw [val_main_v89_apply, val_main_v88_apply]
  refine congrArg x14 (funext fun a => Fin.ext ?_)
  match a with
  | ⟨0, _⟩ => rfl

/-! ## The three residual layers

Each layer's result at `(r, j)` is the specification's layer, with that layer's slices of the stacked weights, on row `r`
of the layer's input. -/
theorem layer0 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (r : Fin 100000) (j : Fin 64) :
    val_main_v49 (F := Ideal) x0 x1 x3 x4 x5 x6 x7 x8 x9 x10 x11 x12 (ix2 r j)
      = resid (fun k j => x9 (ix3 0 k j)) (fun j => x10 (ix2 0 j)) (fun k j => x11 (ix3 0 k j)) (fun j => x12 (ix2 0 j))
          (fun k => val_main_v31 (F := Ideal) x0 x1 x3 x4 x5 x6 x7 x8 (ix2 r k)) j :=
  resid_of_reads (val_main_v31 (F := Ideal) x0 x1 x3 x4 x5 x6 x7 x8) (val_main_v34 (F := Ideal) x0 x1 x3 x4 x5 x6 x7 x8 x9) (val_main_v39 (F := Ideal) x0 x1 x3 x4 x5 x6 x7 x8 x9 x10) (val_main_v40 (F := Ideal) x0 x1 x3 x4 x5 x6 x7 x8 x9 x10) (val_main_v43 (F := Ideal) x0 x1 x3 x4 x5 x6 x7 x8 x9 x10 x11) (val_main_v38 (F := Ideal) x10) (val_main_v47 (F := Ideal) x12) (val_main_v33 (F := Ideal) x9) (val_main_v42 (F := Ideal) x11)
    _ _ _ _
    (fun r j => dot_rows_apply _ _ r j) (fun i => rfl) (fun i => sp_v40 x0 x1 x3 x4 x5 x6 x7 x8 x9 x10 i) (fun r j => dot_rows_apply _ _ r j)
    (w_v33 x9) (b_v38 x10) (w_v42 x11) (b_v47 x12) r j
theorem layer1 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (r : Fin 100000) (j : Fin 64) :
    val_main_v67 (F := Ideal) x0 x1 x3 x4 x5 x6 x7 x8 x9 x10 x11 x12 (ix2 r j)
      = resid (fun k j => x9 (ix3 1 k j)) (fun j => x10 (ix2 1 j)) (fun k j => x11 (ix3 1 k j)) (fun j => x12 (ix2 1 j))
          (fun k => val_main_v49 (F := Ideal) x0 x1 x3 x4 x5 x6 x7 x8 x9 x10 x11 x12 (ix2 r k)) j :=
  resid_of_reads (val_main_v49 (F := Ideal) x0 x1 x3 x4 x5 x6 x7 x8 x9 x10 x11 x12) (val_main_v52 (F := Ideal) x0 x1 x3 x4 x5 x6 x7 x8 x9 x10 x11 x12) (val_main_v57 (F := Ideal) x0 x1 x3 x4 x5 x6 x7 x8 x9 x10 x11 x12) (val_main_v58 (F := Ideal) x0 x1 x3 x4 x5 x6 x7 x8 x9 x10 x11 x12) (val_main_v61 (F := Ideal) x0 x1 x3 x4 x5 x6 x7 x8 x9 x10 x11 x12) (val_main_v56 (F := Ideal) x10) (val_main_v65 (F := Ideal) x12) (val_main_v51 (F := Ideal) x9) (val_main_v60 (F := Ideal) x11)
    _ _ _ _
    (fun r j => dot_rows_apply _ _ r j) (fun i => rfl) (fun i => sp_v58 x0 x1 x3 x4 x5 x6 x7 x8 x9 x10 x11 x12 i) (fun r j => dot_rows_apply _ _ r j)
    (w_v51 x9) (b_v56 x10) (w_v60 x11) (b_v65 x12) r j
theorem layer2 (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (r : Fin 100000) (j : Fin 64) :
    val_main_v85 (F := Ideal) x0 x1 x3 x4 x5 x6 x7 x8 x9 x10 x11 x12 (ix2 r j)
      = resid (fun k j => x9 (ix3 2 k j)) (fun j => x10 (ix2 2 j)) (fun k j => x11 (ix3 2 k j)) (fun j => x12 (ix2 2 j))
          (fun k => val_main_v67 (F := Ideal) x0 x1 x3 x4 x5 x6 x7 x8 x9 x10 x11 x12 (ix2 r k)) j :=
  resid_of_reads (val_main_v67 (F := Ideal) x0 x1 x3 x4 x5 x6 x7 x8 x9 x10 x11 x12) (val_main_v70 (F := Ideal) x0 x1 x3 x4 x5 x6 x7 x8 x9 x10 x11 x12) (val_main_v75 (F := Ideal) x0 x1 x3 x4 x5 x6 x7 x8 x9 x10 x11 x12) (val_main_v76 (F := Ideal) x0 x1 x3 x4 x5 x6 x7 x8 x9 x10 x11 x12) (val_main_v79 (F := Ideal) x0 x1 x3 x4 x5 x6 x7 x8 x9 x10 x11 x12) (val_main_v74 (F := Ideal) x10) (val_main_v83 (F := Ideal) x12) (val_main_v69 (F := Ideal) x9) (val_main_v78 (F := Ideal) x11)
    _ _ _ _
    (fun r j => dot_rows_apply _ _ r j) (fun i => rfl) (fun i => sp_v76 x0 x1 x3 x4 x5 x6 x7 x8 x9 x10 x11 x12 i) (fun r j => dot_rows_apply _ _ r j)
    (w_v69 x9) (b_v74 x10) (w_v78 x11) (b_v83 x12) r j

/-! ## The result -/

/-- %90, the program's result, from %12 (the receiving projection) and %30 (the scatter-add of the messages), both left as they are
    (x9 = res_W1, x10 = res_b1, x11 = res_W2, x12 = res_b2, x13 = Wv, x14 = bv). -/
theorem stage_out (x0 : (⟨S2x2000000, .i32⟩ : BufTy).Contents (Elt Ideal)) (x1 : (⟨S2000000x1x16, .f32⟩ : BufTy).Contents (Elt Ideal)) (x3 : (⟨S100000x64, .f32⟩ : BufTy).Contents (Elt Ideal)) (x4 : (⟨S64x16, .f32⟩ : BufTy).Contents (Elt Ideal)) (x5 : (⟨S64x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S3x64x64, .f32⟩ : BufTy).Contents (Elt Ideal)) (x10 : (⟨S3x64, .f32⟩ : BufTy).Contents (Elt Ideal)) (x11 : (⟨S3x64x64, .f32⟩ : BufTy).Contents (Elt Ideal)) (x12 : (⟨S3x64, .f32⟩ : BufTy).Contents (Elt Ideal)) (x13 : (⟨S64x64, .f32⟩ : BufTy).Contents (Elt Ideal)) (x14 : (⟨S64, .f32⟩ : BufTy).Contents (Elt Ideal)) :
    val_main_v90 (F := Ideal) x0 x1 x3 x4 x5 x6 x7 x8 x9 x10 x11 x12 x13 x14
      = Cert.Spec.OUT (val_main_v12 (F := Ideal) x3 x5 x6) (val_main_v30 (F := Ideal) x0 x1 x3 x4 x7 x8)
          (fun l k j => x9 (ix3 l k j)) (fun l j => x10 (ix2 l j)) (fun l k j => x11 (ix3 l k j)) (fun l j => x12 (ix2 l j))
          (fun k j => x13 (ix2 k j)) (fun j => x14 (ix1 j)) := by
  funext i
  obtain ⟨r, j, rfl⟩ : ∃ (r : Fin 100000) (j : Fin 64), i = ix2 r j := ⟨i 0, i 1, eq_ix2 i⟩
  -- the rows of the three layers' results, one inside the other
  have e0 : (fun k => val_main_v49 (F := Ideal) x0 x1 x3 x4 x5 x6 x7 x8 x9 x10 x11 x12 (ix2 r k))
      = resid (fun k j => x9 (ix3 0 k j)) (fun j => x10 (ix2 0 j)) (fun k j => x11 (ix3 0 k j)) (fun j => x12 (ix2 0 j))
          (fun k => val_main_v31 (F := Ideal) x0 x1 x3 x4 x5 x6 x7 x8 (ix2 r k)) := funext fun k => layer0 x0 x1 x3 x4 x5 x6 x7 x8 x9 x10 x11 x12 r k
  have e1 : (fun k => val_main_v67 (F := Ideal) x0 x1 x3 x4 x5 x6 x7 x8 x9 x10 x11 x12 (ix2 r k))
      = resid (fun k j => x9 (ix3 1 k j)) (fun j => x10 (ix2 1 j)) (fun k j => x11 (ix3 1 k j)) (fun j => x12 (ix2 1 j))
          (fun k => val_main_v49 (F := Ideal) x0 x1 x3 x4 x5 x6 x7 x8 x9 x10 x11 x12 (ix2 r k)) := funext fun k => layer1 x0 x1 x3 x4 x5 x6 x7 x8 x9 x10 x11 x12 r k
  have e2 : (fun k => val_main_v85 (F := Ideal) x0 x1 x3 x4 x5 x6 x7 x8 x9 x10 x11 x12 (ix2 r k))
      = resid (fun k j => x9 (ix3 2 k j)) (fun j => x10 (ix2 2 j)) (fun k j => x11 (ix3 2 k j)) (fun j => x12 (ix2 2 j))
          (fun k => val_main_v67 (F := Ideal) x0 x1 x3 x4 x5 x6 x7 x8 x9 x10 x11 x12 (ix2 r k)) := funext fun k => layer2 x0 x1 x3 x4 x5 x6 x7 x8 x9 x10 x11 x12 r k
  have key : ∀ k : Fin 64, val_main_v86 (F := Ideal) x0 x1 x3 x4 x5 x6 x7 x8 x9 x10 x11 x12 (ix2 r k)
      = sp (resid3 (fun l k j => x9 (ix3 l k j)) (fun l j => x10 (ix2 l j)) (fun l k j => x11 (ix3 l k j)) (fun l j => x12 (ix2 l j))
          (fun k => val_main_v12 (F := Ideal) x3 x5 x6 (ix2 r k) + val_main_v30 (F := Ideal) x0 x1 x3 x4 x7 x8 (ix2 r k)) k) := fun k => by
    rw [sp_v86]
    refine congrArg sp ?_
    show (fun k => val_main_v85 (F := Ideal) x0 x1 x3 x4 x5 x6 x7 x8 x9 x10 x11 x12 (ix2 r k)) k = _
    rw [e2, e1, e0]
    rfl
  show val_main_v87 (F := Ideal) x0 x1 x3 x4 x5 x6 x7 x8 x9 x10 x11 x12 x13 (ix2 r j) + val_main_v89 (F := Ideal) x14 (ix2 r j) = _
  rw [b_v89]
  refine (congrArg (· + x14 (ix1 j)) (dot_rows_apply _ _ r j)).trans ?_
  exact congrArg (· + x14 (ix1 j)) (Finset.sum_congr rfl fun k _ => congrArg (· * x13 (ix2 k j)) (key k))

end Cert.ReferenceIdeal.Stages

end
-- ==== Proof.Bridge.lean ====
/-
  The bridge: the kernel program's result array and the reference program's, as ONE function of the arguments.

  Kernel side. The last boundary's contents at the result buffer are what region 2 leaves in its output window: the
  atom-level tail `Spec.OUT` of region 2's entry arrays. Of those, the receiving projection is region 0's second
  output (`Spec.XIP` of the embedding), the message sum is the host's scatter-add, into zeros and at the first row of
  the pair table, of region 1's output (`Spec.MSG` of the gathered rows), and the gathered rows are the host's gather,
  at the wrapped second row of the pair table, of region 0's first output (`Spec.X` of the embedding): the fill the
  kernel's gather selects on out-of-range indices never applies, because the precondition keeps that row in
  [-100000, 100000). The weights and biases reach the regions through reshapes and one transpose, read back at an
  index to the arguments.

  Reference side. Its result stage is `Spec.OUT` of its own projection, scatter-add, gather and shifted softplus
  stages, each the same `Spec` function of the arguments.

  The gather and the scatter-add are the same library operations with the same dimension numbers in both programs,
  applied to equal operands; they are never opened.
-/
import proofs.«422381_j60120952209948_1_alg».proof.Defs
import proofs.«422381_j60120952209948_1_alg».proof.Proof.Gen.Pre_finite_inputs
import proofs.«422381_j60120952209948_1_alg».proof.Proof.KReg0
import proofs.«422381_j60120952209948_1_alg».proof.Proof.KReg1
import proofs.«422381_j60120952209948_1_alg».proof.Proof.KReg2
import proofs.«422381_j60120952209948_1_alg».proof.Proof.KHost
import proofs.«422381_j60120952209948_1_alg».proof.Proof.KTake
import proofs.«422381_j60120952209948_1_alg».proof.Proof.KRun
import proofs.«422381_j60120952209948_1_alg».proof.Proof.PreIdx
import proofs.«422381_j60120952209948_1_alg».proof.Proof.RefRun
import proofs.«422381_j60120952209948_1_alg».proof.Proof.RefA
import proofs.«422381_j60120952209948_1_alg».proof.Proof.RefB

noncomputable section

namespace Cert.Proof.Bridge

open Idealize.ShloMosaic Idealize.ShloMosaic.TcCoe Idealize.ShloMosaic.ValueIdx Idealize.SL.Sem
open Cert.KernelIdeal Cert.KernelIdeal.Gen Cert.KernelIdeal.HostVal

variable (m : (ℓ : Loc nD τ sig) → Buf (Elt Ideal) ℓ) (ρ : Dev nD → PrngReg)

/-! ## The arguments as the launch memory holds them, by their literal types -/

abbrev pairs (c : Dev nD) : IVec S2x2000000 32 := m ((c : Thread nD τ).loc main_arg0)
abbrev fij (c : Dev nD) : Vec Ideal S2000000x1x16 .f32 := m ((c : Thread nD τ).loc main_arg1)
abbrev emb (c : Dev nD) : Vec Ideal S100000x64 .f32 := m ((c : Thread nD τ).loc main_arg3)
abbrev gmat (c : Dev nD) : Vec Ideal S64x16 .f32 := m ((c : Thread nD τ).loc main_arg4)
abbrev wi (c : Dev nD) : Vec Ideal S64x64 .f32 := m ((c : Thread nD τ).loc main_arg5)
abbrev bi (c : Dev nD) : Vec Ideal S64 .f32 := m ((c : Thread nD τ).loc main_arg6)
abbrev wj (c : Dev nD) : Vec Ideal S64x64 .f32 := m ((c : Thread nD τ).loc main_arg7)
abbrev bj (c : Dev nD) : Vec Ideal S64 .f32 := m ((c : Thread nD τ).loc main_arg8)
abbrev rw1 (c : Dev nD) : Vec Ideal S3x64x64 .f32 := m ((c : Thread nD τ).loc main_arg9)
abbrev rb1 (c : Dev nD) : Vec Ideal S3x64 .f32 := m ((c : Thread nD τ).loc main_arg10)
abbrev rw2 (c : Dev nD) : Vec Ideal S3x64x64 .f32 := m ((c : Thread nD τ).loc main_arg11)
abbrev rb2 (c : Dev nD) : Vec Ideal S3x64 .f32 := m ((c : Thread nD τ).loc main_arg12)
abbrev wv (c : Dev nD) : Vec Ideal S64x64 .f32 := m ((c : Thread nD τ).loc main_arg13)
abbrev bv (c : Dev nD) : Vec Ideal S64 .f32 := m ((c : Thread nD τ).loc main_arg14)

/-! ## Kernel side -/

/-- Region 0's first output, as the later stretches find it: the shifted softplus of the embedding. -/
theorem k_x (c : Dev nD) : W2 m ρ c (Proc.devRef .tc main_v11_0) = Cert.Spec.X (emb m c) :=
  (W2_x m ρ c).trans ((Cert.KernelIdeal.Reg0.final3 (V1 m ρ) c).trans (congrArg Cert.Spec.X (V1_ae m ρ c)))

/-- Region 0's second output, as region 2 finds it: the receiving projection. -/
theorem k_xip (c : Dev nD) : V5 m ρ c main_v11_1
    = Cert.Spec.XIP (Cert.Spec.X (emb m c)) (fun k j => wi m c (ix2 k j)) (fun j => bi m c (ix1 j)) := by
  refine (V5_xip m ρ c).trans ((Cert.KernelIdeal.Reg0.final4 (V1 m ρ) c).trans ?_)
  have h1 : Cert.KernelIdeal.Reg0.aeArr (V1 m ρ) c = emb m c := V1_ae m ρ c
  have h2 : Cert.KernelIdeal.Reg0.wiArr (V1 m ρ) c = wi m c := V1_wi m ρ c
  have h3 : (fun j : Fin 64 => Cert.KernelIdeal.Reg0.biArr (V1 m ρ) c (ix2 0 j)) = fun j => bi m c (ix1 j) := funext (V1_bi m ρ c)
  rw [h1, h2, h3]

/-- Region 1's output: the per-pair message of the rows gathered at the wrapped neighbour indices. -/
theorem k_msg (c : Dev nD) (hr : ∀ p : Fin 2000000, -100000 ≤ (pairs m c (ix2 1 p)).toInt ∧ (pairs m c (ix2 1 p)).toInt < 100000) :
    (dat1 (V3 m ρ) c).arrAt 5 cfg1.N
      = Cert.Spec.MSG (Host.gather gather_S100000x64_S2000000x1_S2000000x64_1_0_n_n_0_1_164 (Cert.Spec.X (emb m c)) (Cert.KernelIdeal.Take.wrapped m c))
          (fun p k => fij m c (ix3 p 0 k)) (fun k j => wj m c (ix2 k j)) (fun j => bj m c (ix1 j)) (fun k j => gmat m c (ix2 j k)) := by
  refine (Cert.KernelIdeal.Reg1.final5 (V3 m ρ) c).trans ?_
  have h0 : Cert.KernelIdeal.Reg1.xjArr (V3 m ρ) c
      = Host.gather gather_S100000x64_S2000000x1_S2000000x64_1_0_n_n_0_1_164 (Cert.Spec.X (emb m c)) (Cert.KernelIdeal.Take.wrapped m c) :=
    (Cert.KernelIdeal.Take.V3_xj m ρ c hr).trans (congrArg (fun x => Host.gather gather_S100000x64_S2000000x1_S2000000x64_1_0_n_n_0_1_164 x (Cert.KernelIdeal.Take.wrapped m c)) (k_x m ρ c))
  have h1 : (fun (p : Fin 2000000) (k : Fin 16) => Cert.KernelIdeal.Reg1.fArr (V3 m ρ) c (ix2 p k)) = fun p k => fij m c (ix3 p 0 k) :=
    funext fun p => funext fun k => V3_f m ρ c p k
  have h2 : Cert.KernelIdeal.Reg1.wjArr (V3 m ρ) c = wj m c := V3_wj m ρ c
  have h3 : (fun j : Fin 64 => Cert.KernelIdeal.Reg1.bjArr (V3 m ρ) c (ix2 0 j)) = fun j => bj m c (ix1 j) := funext (V3_bj m ρ c)
  have h4 : (fun (k : Fin 16) (j : Fin 64) => Cert.KernelIdeal.Reg1.gtArr (V3 m ρ) c (ix2 k j)) = fun k j => gmat m c (ix2 j k) :=
    funext fun k => funext fun j => V3_gt m ρ c k j
  rw [h0, h1, h2, h3, h4]

/-- THE KERNEL'S RESULT: the last boundary's contents at the result buffer, as the specification's tail of the
    arguments. -/
theorem k_out (c : Dev nD) (hr : ∀ p : Fin 2000000, -100000 ≤ (pairs m c (ix2 1 p)).toInt ∧ (pairs m c (ix2 1 p)).toInt < 100000) :
    W6 m ρ c (Proc.devRef .tc main_v17)
      = Cert.Spec.OUT
          (Cert.Spec.XIP (Cert.Spec.X (emb m c)) (fun k j => wi m c (ix2 k j)) (fun j => bi m c (ix1 j)))
          (Host.scatterAdd scatter_S100000x64_S2000000x1_S2000000x64_1_0_0_1
            (broadcastInDim S100000x64 ![] bcast_S_S100000x64 (constant (F := Ideal) S_ .f32 0x00000000#32))
            (broadcastInDim S2000000x1 ![0] bcast_S2000000_S2000000x1_0
              (shapeCast S2000000 (extractStridedSlice S1x2000000 ![0, 0] (pairs m c) slices_S2x2000000_S1x2000000_0_0) shapeCasts_S1x2000000_S2000000))
            (Cert.Spec.MSG (Host.gather gather_S100000x64_S2000000x1_S2000000x64_1_0_n_n_0_1_164 (Cert.Spec.X (emb m c)) (Cert.KernelIdeal.Take.wrapped m c))
              (fun p k => fij m c (ix3 p 0 k)) (fun k j => wj m c (ix2 k j)) (fun j => bj m c (ix1 j)) (fun k j => gmat m c (ix2 j k))))
          (fun l k j => rw1 m c (ix3 l k j)) (fun l j => rb1 m c (ix2 l j))
          (fun l k j => rw2 m c (ix3 l k j)) (fun l j => rb2 m c (ix2 l j))
          (fun k j => wv m c (ix2 k j)) (fun j => bv m c (ix1 j)) := by
  refine (W6_arr m ρ c 8).trans ((Cert.KernelIdeal.Reg2.final8 (V5 m ρ) c).trans ?_)
  have h0 : Cert.KernelIdeal.Reg2.xipArr (V5 m ρ) c = _ := k_xip m ρ c
  have h1 : Cert.KernelIdeal.Reg2.sumArr (V5 m ρ) c = _ := (V5_sum m ρ c).trans (congrArg _ (k_msg m ρ c hr))
  have h2 : Cert.KernelIdeal.Reg2.w1Arr (V5 m ρ) c = rw1 m c := V5_w1 m ρ c
  have h3 : (fun (l : Fin 3) (j : Fin 64) => Cert.KernelIdeal.Reg2.b1Arr (V5 m ρ) c (ix3 l 0 j)) = fun l j => rb1 m c (ix2 l j) :=
    funext fun l => funext fun j => V5_b1 m ρ c l j
  have h4 : Cert.KernelIdeal.Reg2.w2Arr (V5 m ρ) c = rw2 m c := V5_w2 m ρ c
  have h5 : (fun (l : Fin 3) (j : Fin 64) => Cert.KernelIdeal.Reg2.b2Arr (V5 m ρ) c (ix3 l 0 j)) = fun l j => rb2 m c (ix2 l j) :=
    funext fun l => funext fun j => V5_b2 m ρ c l j
  have h6 : Cert.KernelIdeal.Reg2.wvArr (V5 m ρ) c = wv m c := V5_wv m ρ c
  have h7 : (fun j : Fin 64 => Cert.KernelIdeal.Reg2.bvArr (V5 m ρ) c (ix2 0 j)) = fun j => bv m c (ix1 j) := funext (V5_bv m ρ c)
  rw [h0, h1, h2, h3, h4, h5, h6, h7]

/-! ## Reference side -/

/-- THE REFERENCE'S RESULT STAGE of the same arguments is the same function: each of its stages is the `Spec` function
    of the arguments; its gather and scatter-add are the kernel program's, on the same operands. -/
theorem r_out (c : Dev nD) :
    Cert.ReferenceIdeal.ReadP.val_main_v90 (F := Ideal) (pairs m c) (fij m c) (emb m c) (gmat m c) (wi m c) (bi m c) (wj m c) (bj m c)
        (rw1 m c) (rb1 m c) (rw2 m c) (rb2 m c) (wv m c) (bv m c)
      = Cert.Spec.OUT
          (Cert.Spec.XIP (Cert.Spec.X (emb m c)) (fun k j => wi m c (ix2 k j)) (fun j => bi m c (ix1 j)))
          (Host.scatterAdd scatter_S100000x64_S2000000x1_S2000000x64_1_0_0_1
            (broadcastInDim S100000x64 ![] bcast_S_S100000x64 (constant (F := Ideal) S_ .f32 0x00000000#32))
            (broadcastInDim S2000000x1 ![0] bcast_S2000000_S2000000x1_0
              (shapeCast S2000000 (extractStridedSlice S1x2000000 ![0, 0] (pairs m c) slices_S2x2000000_S1x2000000_0_0) shapeCasts_S1x2000000_S2000000))
            (Cert.Spec.MSG (Host.gather gather_S100000x64_S2000000x1_S2000000x64_1_0_n_n_0_1_164 (Cert.Spec.X (emb m c)) (Cert.KernelIdeal.Take.wrapped m c))
              (fun p k => fij m c (ix3 p 0 k)) (fun k j => wj m c (ix2 k j)) (fun j => bj m c (ix1 j)) (fun k j => gmat m c (ix2 j k))))
          (fun l k j => rw1 m c (ix3 l k j)) (fun l j => rb1 m c (ix2 l j))
          (fun l k j => rw2 m c (ix3 l k j)) (fun l j => rb2 m c (ix2 l j))
          (fun k j => wv m c (ix2 k j)) (fun j => bv m c (ix1 j)) := by
  rw [Cert.ReferenceIdeal.Stages.stage_out, Cert.ReferenceIdeal.Stages.stage_xip]
  -- the scatter-add stage: zeros, the first row of the pair table as a column, the message stage
  have hs : Cert.ReferenceIdeal.ReadP.val_main_v30 (F := Ideal) (pairs m c) (fij m c) (emb m c) (gmat m c) (wj m c) (bj m c)
      = Host.scatterAdd scatter_S100000x64_S2000000x1_S2000000x64_1_0_0_1
          (broadcastInDim S100000x64 ![] bcast_S_S100000x64 (constant (F := Ideal) S_ .f32 0x00000000#32))
          (broadcastInDim S2000000x1 ![0] bcast_S2000000_S2000000x1_0
            (shapeCast S2000000 (extractStridedSlice S1x2000000 ![0, 0] (pairs m c) slices_S2x2000000_S1x2000000_0_0) shapeCasts_S1x2000000_S2000000))
          (Cert.ReferenceIdeal.ReadP.val_main_v27 (F := Ideal) (pairs m c) (fij m c) (emb m c) (gmat m c) (wj m c) (bj m c)) := rfl
  -- the gather stage: the shifted softplus stage at the wrapped second row
  have hg : Cert.ReferenceIdeal.ReadP.val_main_v19 (F := Ideal) (pairs m c) (emb m c)
      = Host.gather gather_S100000x64_S2000000x1_S2000000x64_1_0_n_n_0_1_164
          (Cert.ReferenceIdeal.ReadP.val_main_v7 (F := Ideal) (emb m c)) (Cert.KernelIdeal.Take.wrapped m c) := rfl
  rw [hs, Cert.ReferenceIdeal.Stages.stage_msg, hg, Cert.ReferenceIdeal.Stages.stage_x]

/-- Under the precondition the two results are one array. -/
theorem result_eq [hP : Cert.Pre_finite_inputs.Facts] (c : Dev nD) (hpre : Cert.Pre_KernelIdeal m) :
    W6 m ρ c (Proc.devRef .tc main_v17)
      = Cert.ReferenceIdeal.ReadP.val_main_v90 (F := Ideal) (pairs m c) (fij m c) (emb m c) (gmat m c) (wi m c) (bi m c) (wj m c) (bj m c)
          (rw1 m c) (rb1 m c) (rw2 m c) (rb2 m c) (wv m c) (bv m c) :=
  (k_out m ρ c (Cert.Pre_finite_inputs.Decode.idxj_range _ _ _ _ _ _ _ _ _ _ _ _ _ _ _ (hpre c))).trans (r_out m c).symm

end Cert.Proof.Bridge

end
-- ==== Proof.lean ====
/-
  The certificate's proof: the kernel program (three tiled regions — the atom pre-projection, the per-pair message, the
  atom-level residual tail — with a host row gather and a host scatter-add between them) and its reference compute the
  same array over the extended reals, for every input whose floats are finite and whose neighbour indices (the second
  row of the pair table) index the embedding in range, negative indices counting from the end: -100000 ≤ idx < 100000.

  * The three frames. The kernel program's two instances terminate with their arguments unchanged by the generated
    frame over the segments of @main; the reference's by its run, read chunk by chunk, with the result dropped.
  * `preserves`: the idealization pass rewrote nothing, so the statement is `True`.
  * `algebraic`: the kernel program's run ends with the result buffer at the last boundary's contents (the same launch
    with the result kept); the reference's run ends with its result at its last stage of the arguments; and those two
    arrays are one function of the arguments (Proof/Bridge.lean): row by row the same softplus layers and sums, the
    gather and the scatter-add the same library operations on equal operands. The index range is what makes the
    kernel's fill-on-out-of-range gather the plain gather.
-/
import proofs.«422381_j60120952209948_1_alg».proof.Defs
import proofs.«422381_j60120952209948_1_alg».proof.Proof.Gen.Kernel
import proofs.«422381_j60120952209948_1_alg».proof.Proof.Gen.Kernel.Frame
import proofs.«422381_j60120952209948_1_alg».proof.Proof.Gen.KernelIdeal
import proofs.«422381_j60120952209948_1_alg».proof.Proof.Gen.KernelIdeal.Frame
import proofs.«422381_j60120952209948_1_alg».proof.Proof.Gen.ReferenceIdeal
import proofs.«422381_j60120952209948_1_alg».proof.Proof.Gen.Pre_finite_inputs
import proofs.«422381_j60120952209948_1_alg».proof.Proof.KRun
import proofs.«422381_j60120952209948_1_alg».proof.Proof.RefRun
import proofs.«422381_j60120952209948_1_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both idealized programs end, from memories agreeing on the arguments, with one result array. -/
theorem algebraic : Cert.algebraic_KernelIdeal_ReferenceIdeal := by
  intro m ρ m' ρ' hpre hagree
  refine ⟨fun c => Cert.KernelIdeal.Gen.W6 m ρ c (Proc.devRef .tc Cert.KernelIdeal.main_v17),
    Cert.KernelIdeal.GenP.run_out (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10, e11, e12, e13, e14⟩ := hagree c
  rw [e0, e1, e3, e4, e5, e6, e7, e8, e9, e10, e11, e12, e13, e14]
  exact (Cert.Proof.Bridge.result_eq m ρ c hpre).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
